-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_arg3)) (v3 : (c : Dev Cert.KernelIdeal.nD) → Buf (Elt Ideal) ((c.tc : Thread Cert.KernelIdeal.nD Cert.KernelIdeal.τ).loc Cert.KernelIdeal.main_v69)) (v4 : (c : Dev Cert.KernelIdeal.nD) → Buf (Elt Ideal) ((c.tc : Thread Cert.KernelIdeal.nD Cert.KernelIdeal.τ).loc Cert.KernelIdeal.main_arg6)) (v5 : (c : Dev Cert.KernelIdeal.nD) → Buf (Elt Ideal) ((c.tc : Thread Cert.KernelIdeal.nD Cert.KernelIdeal.τ).loc Cert.KernelIdeal.main_arg7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_v69) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg7) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg7) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S100000x1024 : Shape := ⟨2, ![100000, 1024]⟩
abbrev S100000x10 : Shape := ⟨2, ![100000, 10]⟩
abbrev S12x128 : Shape := ⟨2, ![12, 128]⟩
abbrev S1024x128 : Shape := ⟨2, ![1024, 128]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S100000x1024 : S_.BroadcastsInDim S100000x1024 (![] : Fin 0 → Fin S100000x1024.rank)
  reducesTo_S100000x1024_S_d0_1 : S100000x1024.ReducesTo [0, 1] S_
  bcast_S_S12x128 : S_.BroadcastsInDim S12x128 (![] : Fin 0 → Fin S12x128.rank)
  reducesTo_S12x128_S_d0_1 : S12x128.ReducesTo [0, 1] S_
  bcast_S_S1024x128 : S_.BroadcastsInDim S1024x128 (![] : Fin 0 → Fin S1024x128.rank)
  reducesTo_S1024x128_S_d0_1 : S1024x128.ReducesTo [0, 1] S_
  bcast_S_S100000x10 : S_.BroadcastsInDim S100000x10 (![] : Fin 0 → Fin S100000x10.rank)
  reducesTo_S100000x10_S_d0_1 : S100000x10.ReducesTo [0, 1] S_

variable [Facts]

def fn_part3 {F : FTy → Type} [FloatOps F] (main_arg7 : IVec S100000x10 32) (main_v46 : IVec S_ 1) (main_v49 : IVec S_ 1) : IVec S_ 1 :=
  let main_v50 : IVec S_ 1 := andi main_v46 main_v49
  let main_c_20 : IVec S_ 32 := constantI S_ 32 100000#32
  let main_v51 : IVec S100000x10 32 := broadcastInDim S100000x10 ![] bcast_S_S100000x10 main_c_20
  let main_v52 : IVec S100000x10 1 := cmpi .slt main_arg7 main_v51
  let main_c_21 : IVec S_ 1 := constantI S_ 1 1#1
  let main_v53 : IVec S_ 1 := (fun x v => Host.reduce IntOp.andi x v reducesTo_S100000x10_S_d0_1 h_S_) main_v52 main_c_21
  let main_v54 : IVec S_ 1 := andi main_v50 main_v53
  main_v54

def fn_part2 {F : FTy → Type} [FloatOps F] (main_arg2 : IVec S100000x10 32) (main_arg3 : IVec S100000x10 32) (main_arg6 : IVec S100000x10 32) (main_arg7 : IVec S100000x10 32) (main_arg11 : FVec F S12x128 .f32) (main_v33 : IVec S_ 1) : IVec S_ 1 :=
  let main_v34 : FVec F S12x128 .f32 := Host.absf main_arg11
  let main_cst_12 : FVec F S_ .f32 := constant S_ .f32 0x7F800000#32
  let main_v35 : FVec F S12x128 .f32 := broadcastInDim S12x128 ![] bcast_S_S12x128 main_cst_12
  let main_v36 : IVec S12x128 1 := cmpf .olt main_v34 main_v35
  let main_c_13 : IVec S_ 1 := constantI S_ 1 1#1
  let main_v37 : IVec S_ 1 := (fun x v => Host.reduce IntOp.andi x v reducesTo_S12x128_S_d0_1 h_S_) main_v36 main_c_13
  let main_v38 : IVec S_ 1 := andi main_v33 main_v37
  let main_c_14 : IVec S_ 32 := constantI S_ 32 100000#32
  let main_v39 : IVec S100000x10 32 := broadcastInDim S100000x10 ![] bcast_S_S100000x10 main_c_14
  let main_v40 : IVec S100000x10 1 := cmpi .slt main_arg2 main_v39
  let main_c_15 : IVec S_ 1 := constantI S_ 1 1#1
  let main_v41 : IVec S_ 1 := (fun x v => Host.reduce IntOp.andi x v reducesTo_S100000x10_S_d0_1 h_S_) main_v40 main_c_15
  let main_v42 : IVec S_ 1 := andi main_v38 main_v41
  let main_c_16 : IVec S_ 32 := constantI S_ 32 100000#32
  let main_v43 : IVec S100000x10 32 := broadcastInDim S100000x10 ![] bcast_S_S100000x10 main_c_16
  let main_v44 : IVec S100000x10 1 := cmpi .slt main_arg3 main_v43
  let main_c_17 : IVec S_ 1 := constantI S_ 1 1#1
  let main_v45 : IVec S_ 1 := (fun x v => Host.reduce IntOp.andi x v reducesTo_S100000x10_S_d0_1 h_S_) main_v44 main_c_17
  let main_v46 : IVec S_ 1 := andi main_v42 main_v45
  let main_c_18 : IVec S_ 32 := constantI S_ 32 100000#32
  let main_v47 : IVec S100000x10 32 := broadcastInDim S100000x10 ![] bcast_S_S100000x10 main_c_18
  let main_v48 : IVec S100000x10 1 := cmpi .slt main_arg6 main_v47
  let main_c_19 : IVec S_ 1 := constantI S_ 1 1#1
  let main_v49 : IVec S_ 1 := (fun x v => Host.reduce IntOp.andi x v reducesTo_S100000x10_S_d0_1 h_S_) main_v48 main_c_19
  fn_part3 (F := F) main_arg7 main_v46 main_v49

def fn_part1 {F : FTy → Type} [FloatOps F] (main_arg2 : IVec S100000x10 32) (main_arg3 : IVec S100000x10 32) (main_arg6 : IVec S100000x10 32) (main_arg7 : IVec S100000x10 32) (main_arg8 : FVec F S12x128 .f32) (main_arg9 : FVec F S1024x128 .f32) (main_arg10 : FVec F S12x128 .f32) (main_arg11 : FVec F S12x128 .f32) (main_v13 : IVec S_ 1) (main_v16 : IVec S100000x1024 1) : IVec S_ 1 :=
  let main_c_5 : IVec S_ 1 := constantI S_ 1 1#1
  let main_v17 : IVec S_ 1 := (fun x v => Host.reduce IntOp.andi x v reducesTo_S100000x1024_S_d0_1 h_S_) main_v16 main_c_5
  let main_v18 : IVec S_ 1 := andi main_v13 main_v17
  let main_v19 : FVec F S12x128 .f32 := Host.absf main_arg8
  let main_cst_6 : FVec F S_ .f32 := constant S_ .f32 0x7F800000#32
  let main_v20 : FVec F S12x128 .f32 := broadcastInDim S12x128 ![] bcast_S_S12x128 main_cst_6
  let main_v21 : IVec S12x128 1 := cmpf .olt main_v19 main_v20
  let main_c_7 : IVec S_ 1 := constantI S_ 1 1#1
  let main_v22 : IVec S_ 1 := (fun x v => Host.reduce IntOp.andi x v reducesTo_S12x128_S_d0_1 h_S_) main_v21 main_c_7
  let main_v23 : IVec S_ 1 := andi main_v18 main_v22
  let main_v24 : FVec F S1024x128 .f32 := Host.absf main_arg9
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S12x128 .f32 := Host.absf main_arg10
  let main_cst_10 : FVec F S_ .f32 := constant S_ .f32 0x7F800000#32
  let main_v30 : FVec F S12x128 .f32 := broadcastInDim S12x128 ![] bcast_S_S12x128 main_cst_10
  let main_v31 : IVec S12x128 1 := cmpf .olt main_v29 main_v30
  let main_c_11 : IVec S_ 1 := constantI S_ 1 1#1
  let main_v32 : IVec S_ 1 := (fun x v => Host.reduce IntOp.andi x v reducesTo_S12x128_S_d0_1 h_S_) main_v31 main_c_11
  let main_v33 : IVec S_ 1 := andi main_v28 main_v32
  fn_part2 (F := F) main_arg2 main_arg3 main_arg6 main_arg7 main_arg11 main_v33

def fn {F : FTy → Type} [FloatOps F] (main_arg0 : FVec F S100000x12 .f32) (main_arg1 : FVec F S100000x1024 .f32) (main_arg2 : IVec S100000x10 32) (main_arg3 : IVec S100000x10 32) (main_arg4 : FVec F S100000x12 .f32) (main_arg5 : FVec F S100000x1024 .f32) (main_arg6 : IVec S100000x10 32) (main_arg7 : IVec S100000x10 32) (main_arg8 : FVec F S12x128 .f32) (main_arg9 : FVec F S1024x128 .f32) (main_arg10 : FVec F S12x128 .f32) (main_arg11 : FVec F S12x128 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S100000x1024 .f32 := Host.absf main_arg1
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  let main_v9 : FVec F S100000x12 .f32 := Host.absf main_arg4
  let main_cst_2 : FVec F S_ .f32 := constant S_ .f32 0x7F800000#32
  let main_v10 : FVec F S100000x12 .f32 := broadcastInDim S100000x12 ![] bcast_S_S100000x12 main_cst_2
  let main_v11 : IVec S100000x12 1 := cmpf .olt main_v9 main_v10
  let main_c_3 : IVec S_ 1 := constantI S_ 1 1#1
  let main_v12 : IVec S_ 1 := (fun x v => Host.reduce IntOp.andi x v reducesTo_S100000x12_S_d0_1 h_S_) main_v11 main_c_3
  let main_v13 : IVec S_ 1 := andi main_v8 main_v12
  let main_v14 : FVec F S100000x1024 .f32 := Host.absf main_arg5
  let main_cst_4 : FVec F S_ .f32 := constant S_ .f32 0x7F800000#32
  let main_v15 : FVec F S100000x1024 .f32 := broadcastInDim S100000x1024 ![] bcast_S_S100000x1024 main_cst_4
  let main_v16 : IVec S100000x1024 1 := cmpf .olt main_v14 main_v15
  fn_part1 (F := F) main_arg2 main_arg3 main_arg6 main_arg7 main_arg8 main_arg9 main_arg10 main_arg11 main_v13 main_v16
-- ==== Kernel.lean ====
abbrev S100000x12 : Shape := ⟨2, ![100000, 12]⟩
abbrev S100000x1024 : Shape := ⟨2, ![100000, 1024]⟩
abbrev S100000x10 : Shape := ⟨2, ![100000, 10]⟩
abbrev S12x128 : Shape := ⟨2, ![12, 128]⟩
abbrev S1024x128 : Shape := ⟨2, ![1024, 128]⟩
abbrev S_ : Shape := ⟨0, ![]⟩
abbrev S100000x10x1 : Shape := ⟨3, ![100000, 10, 1]⟩
abbrev S1 : Shape := ⟨1, ![1]⟩
abbrev S1x1x1 : Shape := ⟨3, ![1, 1, 1]⟩
abbrev S100000x10x12 : Shape := ⟨3, ![100000, 10, 12]⟩
abbrev S100000 : Shape := ⟨1, ![100000]⟩
abbrev S100000x1 : Shape := ⟨2, ![100000, 1]⟩
abbrev S100000x128 : Shape := ⟨2, ![100000, 128]⟩
abbrev S2000x12 : Shape := ⟨2, ![2000, 12]⟩
abbrev S2000x1024 : Shape := ⟨2, ![2000, 1024]⟩
abbrev S2000x128 : Shape := ⟨2, ![2000, 128]⟩

abbrev nBuf : Space → Nat
  | .hbm => 198
  | .vmem => 28
  | .smem => 0
  | _ => 0

abbrev hbmTy0_0 (i : Nat) : BufTy := match i % 128 with
  | 0 => ⟨S100000x12, .f32⟩
  | 1 => ⟨S100000x1024, .f32⟩
  | 2 => ⟨S100000x10, .i32⟩
  | 3 => ⟨S100000x10, .i32⟩
  | 4 => ⟨S100000x12, .f32⟩
  | 5 => ⟨S100000x1024, .f32⟩
  | 6 => ⟨S100000x10, .i32⟩
  | 7 => ⟨S100000x10, .i32⟩
  | 8 => ⟨S12x128, .f32⟩
  | 9 => ⟨S1024x128, .f32⟩
  | 10 => ⟨S12x128, .f32⟩
  | 11 => ⟨S12x128, .f32⟩
  | 12 => ⟨S_, .i32⟩
  | 13 => ⟨S100000x10, .i32⟩
  | 14 => ⟨S100000x10, .i1⟩
  | 15 => ⟨S_, .i32⟩
  | 16 => ⟨S_, .i32⟩
  | 17 => ⟨S100000x10, .i32⟩
  | 18 => ⟨S100000x10, .i32⟩
  | 19 => ⟨S_, .i32⟩
  | 20 => ⟨S100000x10, .i32⟩
  | 21 => ⟨S100000x10, .i1⟩
  | 22 => ⟨S_, .i32⟩
  | 23 => ⟨S100000x10, .i32⟩
  | 24 => ⟨S100000x10, .i32⟩
  | 25 => ⟨S100000x10, .i32⟩
  | 26 => ⟨S100000x10x1, .i32⟩
  | 27 => ⟨S1, .i32⟩
  | 28 => ⟨S_, .i32⟩
  | 29 => ⟨S100000x10x1, .i32⟩
  | 30 => ⟨S100000x10x1, .i1⟩
  | 31 => ⟨S1x1x1, .i32⟩
  | 32 => ⟨S100000x10x1, .i32⟩
  | 33 => ⟨S100000x10x1, .i1⟩
  | 34 => ⟨S100000x10x1, .i1⟩
  | 35 => ⟨S_, .i1⟩
  | 36 => ⟨S100000x10, .i1⟩
  | 37 => ⟨S100000x10x12, .f32⟩
  | 38 => ⟨S100000x10x12, .i1⟩
  | 39 => ⟨S_, .f32⟩
  | 40 => ⟨S100000x10x12, .f32⟩
  | 41 => ⟨S100000x10x12, .f32⟩
  | 42 => ⟨S100000x10x1, .i1⟩
  | 43 => ⟨S100000x10x1, .f32⟩
  | 44 => ⟨S100000x10x12, .f32⟩
  | 45 => ⟨S100000x10x12, .f32⟩
  | 46 => ⟨S100000x10, .i32⟩
  | 47 => ⟨S_, .i32⟩
  | 48 => ⟨S100000, .i32⟩
  | 49 => ⟨S100000x1, .i32⟩
  | 50 => ⟨S_, .i32⟩
  | 51 => ⟨S100000x1, .i32⟩
  | 52 => ⟨S100000x1, .i32⟩
  | 53 => ⟨S100000x1, .f32⟩
  | 54 => ⟨S_, .f32⟩
  | 55 => ⟨S100000x12, .f32⟩
  | 56 => ⟨S100000x12, .f32⟩
  | 57 => ⟨S100000x12, .f32⟩
  | 58 => ⟨S_, .i32⟩
  | 59 => ⟨S100000x10, .i32⟩
  | 60 => ⟨S100000x10, .i1⟩
  | 61 => ⟨S_, .i32⟩
  | 62 => ⟨S_, .i32⟩
  | 63 => ⟨S100000x10, .i32⟩
  | 64 => ⟨S100000x10, .i32⟩
  | 65 => ⟨S_, .i32⟩
  | 66 => ⟨S100000x10, .i32⟩
  | 67 => ⟨S100000x10, .i1⟩
  | 68 => ⟨S_, .i32⟩
  | 69 => ⟨S100000x10, .i32⟩
  | 70 => ⟨S100000x10, .i32⟩
  | 71 => ⟨S100000x10, .i32⟩
  | 72 => ⟨S100000x10x1, .i32⟩
  | 73 => ⟨S1, .i32⟩
  | 74 => ⟨S_, .i32⟩
  | 75 => ⟨S100000x10x1, .i32⟩
  | 76 => ⟨S100000x10x1, .i1⟩
  | 77 => ⟨S1x1x1, .i32⟩
  | 78 => ⟨S100000x10x1, .i32⟩
  | 79 => ⟨S100000x10x1, .i1⟩
  | 80 => ⟨S100000x10x1, .i1⟩
  | 81 => ⟨S_, .i1⟩
  | 82 => ⟨S100000x10, .i1⟩
  | 83 => ⟨S100000x10x12, .f32⟩
  | 84 => ⟨S100000x10x12, .i1⟩
  | 85 => ⟨S_, .f32⟩
  | 86 => ⟨S100000x10x12, .f32⟩
  | 87 => ⟨S100000x10x12, .f32⟩
  | 88 => ⟨S100000x10x1, .i1⟩
  | 89 => ⟨S100000x10x1, .f32⟩
  | 90 => ⟨S100000x10x12, .f32⟩
  | 91 => ⟨S100000x10x12, .f32⟩
  | 92 => ⟨S100000x10, .i32⟩
  | 93 => ⟨S_, .i32⟩
  | 94 => ⟨S100000, .i32⟩
  | 95 => ⟨S100000x1, .i32⟩
  | 96 => ⟨S_, .i32⟩
  | 97 => ⟨S100000x1, .i32⟩
  | 98 => ⟨S100000x1, .i32⟩
  | 99 => ⟨S100000x1, .f32⟩
  | 100 => ⟨S_, .f32⟩
  | 101 => ⟨S100000x12, .f32⟩
  | 102 => ⟨S100000x12, .f32⟩
  | 103 => ⟨S100000x12, .f32⟩
  | 104 => ⟨S100000x128, .f32⟩
  | 105 => ⟨S_, .i32⟩
  | 106 => ⟨S100000x10, .i32⟩
  | 107 => ⟨S100000x10, .i1⟩
  | 108 => ⟨S_, .i32⟩
  | 109 => ⟨S_, .i32⟩
  | 110 => ⟨S100000x10, .i32⟩
  | 111 => ⟨S100000x10, .i32⟩
  | 112 => ⟨S_, .i32⟩
  | 113 => ⟨S100000x10, .i32⟩
  | 114 => ⟨S100000x10, .i1⟩
  | 115 => ⟨S_, .i32⟩
  | 116 => ⟨S100000x10, .i32⟩
  | 117 => ⟨S100000x10, .i32⟩
  | 118 => ⟨S100000x10, .i32⟩
  | 119 => ⟨S100000x10x1, .i32⟩
  | 120 => ⟨S1, .i32⟩
  | 121 => ⟨S_, .i32⟩
  | 122 => ⟨S100000x10x1, .i32⟩
  | 123 => ⟨S100000x10x1, .i1⟩
  | 124 => ⟨S1x1x1, .i32⟩
  | 125 => ⟨S100000x10x1, .i32⟩
  | 126 => ⟨S100000x10x1, .i1⟩
  | 127 => ⟨S100000x10x1, .i1⟩
  | _ => ⟨S100000x12, .f32⟩

abbrev hbmTy0_1 (i : Nat) : BufTy := match i % 128 with
  | 0 => ⟨S_, .i1⟩
  | 1 => ⟨S100000x10, .i1⟩
  | 2 => ⟨S100000x10x12, .f32⟩
  | 3 => ⟨S100000x10x12, .i1⟩
  | 4 => ⟨S_, .f32⟩
  | 5 => ⟨S100000x10x12, .f32⟩
  | 6 => ⟨S100000x10x12, .f32⟩
  | 7 => ⟨S100000x10x1, .i1⟩
  | 8 => ⟨S100000x10x1, .f32⟩
  | 9 => ⟨S100000x10x12, .f32⟩
  | 10 => ⟨S100000x10x12, .f32⟩
  | 11 => ⟨S100000x10, .i32⟩
  | 12 => ⟨S_, .i32⟩
  | 13 => ⟨S100000, .i32⟩
  | 14 => ⟨S100000x1, .i32⟩
  | 15 => ⟨S_, .i32⟩
  | 16 => ⟨S100000x1, .i32⟩
  | 17 => ⟨S100000x1, .i32⟩
  | 18 => ⟨S100000x1, .f32⟩
  | 19 => ⟨S_, .f32⟩
  | 20 => ⟨S100000x12, .f32⟩
  | 21 => ⟨S100000x12, .f32⟩
  | 22 => ⟨S100000x12, .f32⟩
  | 23 => ⟨S_, .i32⟩
  | 24 => ⟨S100000x10, .i32⟩
  | 25 => ⟨S100000x10, .i1⟩
  | 26 => ⟨S_, .i32⟩
  | 27 => ⟨S_, .i32⟩
  | 28 => ⟨S100000x10, .i32⟩
  | 29 => ⟨S100000x10, .i32⟩
  | 30 => ⟨S_, .i32⟩
  | 31 => ⟨S100000x10, .i32⟩
  | 32 => ⟨S100000x10, .i1⟩
  | 33 => ⟨S_, .i32⟩
  | 34 => ⟨S100000x10, .i32⟩
  | 35 => ⟨S100000x10, .i32⟩
  | 36 => ⟨S100000x10, .i32⟩
  | 37 => ⟨S100000x10x1, .i32⟩
  | 38 => ⟨S1, .i32⟩
  | 39 => ⟨S_, .i32⟩
  | 40 => ⟨S100000x10x1, .i32⟩
  | 41 => ⟨S100000x10x1, .i1⟩
  | 42 => ⟨S1x1x1, .i32⟩
  | 43 => ⟨S100000x10x1, .i32⟩
  | 44 => ⟨S100000x10x1, .i1⟩
  | 45 => ⟨S100000x10x1, .i1⟩
  | 46 => ⟨S_, .i1⟩
  | 47 => ⟨S100000x10, .i1⟩
  | 48 => ⟨S100000x10x12, .f32⟩
  | 49 => ⟨S100000x10x12, .i1⟩
  | 50 => ⟨S_, .f32⟩
  | 51 => ⟨S100000x10x12, .f32⟩
  | 52 => ⟨S100000x10x12, .f32⟩
  | 53 => ⟨S100000x10x1, .i1⟩
  | 54 => ⟨S100000x10x1, .f32⟩
  | 55 => ⟨S100000x10x12, .f32⟩
  | 56 => ⟨S100000x10x12, .f32⟩
  | 57 => ⟨S100000x10, .i32⟩
  | 58 => ⟨S_, .i32⟩
  | 59 => ⟨S100000, .i32⟩
  | 60 => ⟨S100000x1, .i32⟩
  | 61 => ⟨S_, .i32⟩
  | 62 => ⟨S100000x1, .i32⟩
  | 63 => ⟨S100000x1, .i32⟩
  | 64 => ⟨S100000x1, .f32⟩
  | 65 => ⟨S_, .f32⟩
  | 66 => ⟨S100000x12, .f32⟩
  | 67 => ⟨S100000x12, .f32⟩
  | 68 => ⟨S100000x12, .f32⟩
  | 69 => ⟨S100000x128, .f32⟩
  | _ => ⟨S100000x12, .f32⟩

abbrev hbmTy (i : Nat) : BufTy := match i / 128 with
  | 0 => hbmTy0_0 i
  | 1 => hbmTy0_1 i
  | _ => ⟨S100000x12, .f32⟩

abbrev bufTy : (tb : Table) → Fin (tcTables nBuf tb) → BufTy
  | .hbm, ⟨i, _⟩ => hbmTy i
  | .local _ .vmem, ⟨0, _⟩ => ⟨S2000x12, .f32⟩
  | .local _ .vmem, ⟨1, _⟩ => ⟨S2000x12, .f32⟩
  | .local _ .vmem, ⟨2, _⟩ => ⟨S2000x1024, .f32⟩
  | .local _ .vmem, ⟨3, _⟩ => ⟨S2000x1024, .f32⟩
  | .local _ .vmem, ⟨4, _⟩ => ⟨S2000x12, .f32⟩
  | .local _ .vmem, ⟨5, _⟩ => ⟨S2000x12, .f32⟩
  | .local _ .vmem, ⟨6, _⟩ => ⟨S2000x12, .f32⟩
  | .local _ .vmem, ⟨7, _⟩ => ⟨S2000x12, .f32⟩
  | .local _ .vmem, ⟨8, _⟩ => ⟨S12x128, .f32⟩
  | .local _ .vmem, ⟨9, _⟩ => ⟨S1024x128, .f32⟩
  | .local _ .vmem, ⟨10, _⟩ => ⟨S12x128, .f32⟩
  | .local _ .vmem, ⟨11, _⟩ => ⟨S12x128, .f32⟩
  | .local _ .vmem, ⟨12, _⟩ => ⟨S2000x128, .f32⟩
  | .local _ .vmem, ⟨13, _⟩ => ⟨S2000x128, .f32⟩
  | .local _ .vmem, ⟨14, _⟩ => ⟨S2000x12, .f32⟩
  | .local _ .vmem, ⟨15, _⟩ => ⟨S2000x12, .f32⟩
  | .local _ .vmem, ⟨16, _⟩ => ⟨S2000x1024, .f32⟩
  | .local _ .vmem, ⟨17, _⟩ => ⟨S2000x1024, .f32⟩
  | .local _ .vmem, ⟨18, _⟩ => ⟨S2000x12, .f32⟩
  | .local _ .vmem, ⟨19, _⟩ => ⟨S2000x12, .f32⟩
  | .local _ .vmem, ⟨20, _⟩ => ⟨S2000x12, .f32⟩
  | .local _ .vmem, ⟨21, _⟩ => ⟨S2000x12, .f32⟩
  | .local _ .vmem, ⟨22, _⟩ => ⟨S12x128, .f32⟩
  | .local _ .vmem, ⟨23, _⟩ => ⟨S1024x128, .f32⟩
  | .local _ .vmem, ⟨24, _⟩ => ⟨S12x128, .f32⟩
  | .local _ .vmem, ⟨25, _⟩ => ⟨S12x128, .f32⟩
  | .local _ .vmem, ⟨26, _⟩ => ⟨S2000x128, .f32⟩
  | .local _ .vmem, ⟨27, _⟩ => ⟨S2000x128, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_v2 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_c_1 : Ref sig .tc := ⟨.hbm, 47, rfl⟩
abbrev main_v9 : Ref sig .tc := ⟨.hbm, 48, rfl⟩
abbrev main_v10 : Ref sig .tc := ⟨.hbm, 49, rfl⟩
abbrev main_c_2 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_c_3 : Ref sig .tc := ⟨.hbm, 58, rfl⟩
abbrev main_v17 : Ref sig .tc := ⟨.hbm, 59, rfl⟩
abbrev main_v18 : Ref sig .tc := ⟨.hbm, 60, rfl⟩
abbrev main_c_4 : Ref sig .tc := ⟨.hbm, 61, rfl⟩
abbrev main_call2_v0 : Ref sig .tc := ⟨.hbm, 62, rfl⟩
abbrev main_call2_v1 : Ref sig .tc := ⟨.hbm, 63, rfl⟩
abbrev main_v19 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_call3_cst : Ref sig .tc := ⟨.hbm, 85, rfl⟩
abbrev main_call3_v15 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_c_5 : Ref sig .tc := ⟨.hbm, 93, rfl⟩
abbrev main_v26 : Ref sig .tc := ⟨.hbm, 94, rfl⟩
abbrev main_v27 : Ref sig .tc := ⟨.hbm, 95, rfl⟩
abbrev main_c_6 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_cst_7 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_c_8 : Ref sig .tc := ⟨.hbm, 105, rfl⟩
abbrev main_v35 : Ref sig .tc := ⟨.hbm, 106, rfl⟩
abbrev main_v36 : Ref sig .tc := ⟨.hbm, 107, rfl⟩
abbrev main_c_9 : Ref sig .tc := ⟨.hbm, 108, rfl⟩
abbrev main_call4_v0 : Ref sig .tc := ⟨.hbm, 109, rfl⟩
abbrev main_call4_v1 : Ref sig .tc := ⟨.hbm, 110, rfl⟩
abbrev main_v37 : Ref sig .tc := ⟨.hbm, 111, rfl⟩
abbrev main_call5_c : Ref sig .tc := ⟨.hbm, 112, rfl⟩
abbrev main_call5_v0 : Ref sig .tc := ⟨.hbm, 113, rfl⟩
abbrev main_call5_v1 : Ref sig .tc := ⟨.hbm, 114, rfl⟩
abbrev main_call5_c_0 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_c_1 : Ref sig .tc := ⟨.hbm, 120, rfl⟩
abbrev main_call5_c_2 : Ref sig .tc := ⟨.hbm, 121, rfl⟩
abbrev main_call5_v6 : Ref sig .tc := ⟨.hbm, 122, rfl⟩
abbrev main_call5_v7 : Ref sig .tc := ⟨.hbm, 123, rfl⟩
abbrev main_call5_v8 : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_3 : Ref sig .tc := ⟨.hbm, 128, rfl⟩
abbrev main_call5_v12 : Ref sig .tc := ⟨.hbm, 129, rfl⟩
abbrev main_call5_v13 : Ref sig .tc := ⟨.hbm, 130, rfl⟩
abbrev main_call5_v14 : Ref sig .tc := ⟨.hbm, 131, rfl⟩
abbrev main_call5_cst : Ref sig .tc := ⟨.hbm, 132, rfl⟩
abbrev main_call5_v15 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_c_10 : Ref sig .tc := ⟨.hbm, 140, rfl⟩
abbrev main_v44 : Ref sig .tc := ⟨.hbm, 141, rfl⟩
abbrev main_v45 : Ref sig .tc := ⟨.hbm, 142, rfl⟩
abbrev main_c_11 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_cst_12 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_c_13 : Ref sig .tc := ⟨.hbm, 151, rfl⟩
abbrev main_v52 : Ref sig .tc := ⟨.hbm, 152, rfl⟩
abbrev main_v53 : Ref sig .tc := ⟨.hbm, 153, rfl⟩
abbrev main_c_14 : Ref sig .tc := ⟨.hbm, 154, rfl⟩
abbrev main_call6_v0 : Ref sig .tc := ⟨.hbm, 155, rfl⟩
abbrev main_call6_v1 : Ref sig .tc := ⟨.hbm, 156, rfl⟩
abbrev main_v54 : Ref sig .tc := ⟨.hbm, 157, rfl⟩
abbrev main_call7_c : Ref sig .tc := ⟨.hbm, 158, rfl⟩
abbrev main_call7_v0 : Ref sig .tc := ⟨.hbm, 159, rfl⟩
abbrev main_call7_v1 : Ref sig .tc := ⟨.hbm, 160, rfl⟩
abbrev main_call7_c_0 : Ref sig .tc := ⟨.hbm, 161, rfl⟩
abbrev main_call7_v2 : Ref sig .tc := ⟨.hbm, 162, rfl⟩
abbrev main_call7_v3 : Ref sig .tc := ⟨.hbm, 163, rfl⟩
abbrev main_call7_v4 : Ref sig .tc := ⟨.hbm, 164, rfl⟩
abbrev main_call7_v5 : Ref sig .tc := ⟨.hbm, 165, rfl⟩
abbrev main_call7_c_1 : Ref sig .tc := ⟨.hbm, 166, rfl⟩
abbrev main_call7_c_2 : Ref sig .tc := ⟨.hbm, 167, rfl⟩
abbrev main_call7_v6 : Ref sig .tc := ⟨.hbm, 168, rfl⟩
abbrev main_call7_v7 : Ref sig .tc := ⟨.hbm, 169, rfl⟩
abbrev main_call7_v8 : Ref sig .tc := ⟨.hbm, 170, rfl⟩
abbrev main_call7_v9 : Ref sig .tc := ⟨.hbm, 171, rfl⟩
abbrev main_call7_v10 : Ref sig .tc := ⟨.hbm, 172, rfl⟩
abbrev main_call7_v11 : Ref sig .tc := ⟨.hbm, 173, rfl⟩
abbrev main_call7_c_3 : Ref sig .tc := ⟨.hbm, 174, rfl⟩
abbrev main_call7_v12 : Ref sig .tc := ⟨.hbm, 175, rfl⟩
abbrev main_call7_v13 : Ref sig .tc := ⟨.hbm, 176, rfl⟩
abbrev main_call7_v14 : Ref sig .tc := ⟨.hbm, 177, rfl⟩
abbrev main_call7_cst : Ref sig .tc := ⟨.hbm, 178, rfl⟩
abbrev main_call7_v15 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_c_15 : Ref sig .tc := ⟨.hbm, 186, rfl⟩
abbrev main_v61 : Ref sig .tc := ⟨.hbm, 187, rfl⟩
abbrev main_v62 : Ref sig .tc := ⟨.hbm, 188, rfl⟩
abbrev main_c_16 : Ref sig .tc := ⟨.hbm, 189, rfl⟩
abbrev main_v63 : Ref sig .tc := ⟨.hbm, 190, rfl⟩
abbrev main_v64 : Ref sig .tc := ⟨.hbm, 191, rfl⟩
abbrev main_v65 : Ref sig .tc := ⟨.hbm, 192, rfl⟩
abbrev main_cst_17 : Ref sig .tc := ⟨.hbm, 193, rfl⟩
abbrev main_v66 : Ref sig .tc := ⟨.hbm, 194, rfl⟩
abbrev main_v67 : Ref sig .tc := ⟨.hbm, 195, rfl⟩
abbrev main_v68 : Ref sig .tc := ⟨.hbm, 196, rfl⟩
abbrev main_v69 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x12 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x12 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x12 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S12x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S12x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S12x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S100000x10 : S_.BroadcastsInDim S100000x10 (![] : Fin 0 → Fin S100000x10.rank)
  bcast_S100000x10_S100000x10x1_0_1 : S100000x10.BroadcastsInDim S100000x10x1 (![0, 1] : Fin 2 → Fin S100000x10x1.rank)
  bcast_S_S100000x10x1 : S_.BroadcastsInDim S100000x10x1 (![] : Fin 0 → Fin S100000x10x1.rank)
  bcast_S1_S1x1x1_2 : S1.BroadcastsInDim S1x1x1 (![2] : Fin 1 → Fin S1x1x1.rank)
  bcast_S1x1x1_S100000x10x1_0_1_2 : S1x1x1.BroadcastsInDim S100000x10x1 (![0, 1, 2] : Fin 3 → Fin S100000x10x1.rank)
  reducesTo_S100000x10x1_S100000x10_d2 : S100000x10x1.ReducesTo [2] S100000x10
  h_S_ : 0 < S_.numel
  bcast_S100000x10_S100000x10x12_0_1 : S100000x10.BroadcastsInDim S100000x10x12 (![0, 1] : Fin 2 → Fin S100000x10x12.rank)
  bcast_S_S100000x10x12 : S_.BroadcastsInDim S100000x10x12 (![] : Fin 0 → Fin S100000x10x12.rank)
  bcast_S100000x10x1_S100000x10x12_0_1_2 : S100000x10x1.BroadcastsInDim S100000x10x12 (![0, 1, 2] : Fin 3 → Fin S100000x10x12.rank)
  natLt_1_32 : 1 < 32
  reducesTo_S100000x10_S100000_d1 : S100000x10.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  reducesTo_S100000x10x12_S100000x12_d1 : S100000x10x12.ReducesTo [1] S100000x12
  bcast_S100000x1_S100000x12_0_1 : S100000x1.BroadcastsInDim S100000x12 (![0, 1] : Fin 2 → Fin S100000x12.rank)
  inb_S2000x12_S2000x12_0_0 : ∀ a, (![0, 0] : Fin 2 → Nat) a + S2000x12.size a ≤ S2000x12.size a
  h_S2000x12 : 0 < S2000x12.numel
  inb_S12x128_S12x128_0_0 : ∀ a, (![0, 0] : Fin 2 → Nat) a + S12x128.size a ≤ S12x128.size a
  h_S12x128 : 0 < S12x128.numel
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S2000x12_S2000x12 : S2000x12.ShapeCasts S2000x12
  inb_S2000x128_S2000x128_0_0 : ∀ a, (![0, 0] : Fin 2 → Nat) a + S2000x128.size a ≤ S2000x128.size a
  h_S2000x128 : 0 < S2000x128.numel
  gather_S100000x12_S100000x10x1_S100000x10x12_2_0_n_n_0_2_112_wf : GatherDims.WF S100000x12 S100000x10x1 S100000x10x12 [2] [0] [] [0] [] 2 ![1, 12]
  dot_S2000x12_S12x128_S2000x128_1_0_0_1_n_n_wf : DotDims.WF S2000x12 S12x128 S2000x128 [1] [0] [0] [1] [] []
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x12.size a ≤ S100000x12.size a
  hwx0_0 : ∀ i : grid0.Coords, EltTy.bits .f32 = 32 ∨ (Rect.block (s := S100000x12) S2000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S100000x1024.size a
  hwx0_1 : ∀ i : grid0.Coords, EltTy.bits .f32 = 32 ∨ (Rect.block (s := S100000x1024) S2000x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x12.size a ≤ S100000x12.size a
  hwx0_2 : ∀ i : grid0.Coords, EltTy.bits .f32 = 32 ∨ (Rect.block (s := S100000x12) S2000x12.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x12.size a ≤ S100000x12.size a
  hwx0_3 : ∀ i : grid0.Coords, EltTy.bits .f32 = 32 ∨ (Rect.block (s := S100000x12) S2000x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x128.size a ≤ S12x128.size a
  hwx0_4 : ∀ i : grid0.Coords, EltTy.bits .f32 = 32 ∨ (Rect.block (s := S12x128) S12x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12x128.size a ≤ S12x128.size a
  hwx0_6 : ∀ i : grid0.Coords, EltTy.bits .f32 = 32 ∨ (Rect.block (s := S12x128) S12x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S12x128.size a ≤ S12x128.size a
  hwx0_7 : ∀ i : grid0.Coords, EltTy.bits .f32 = 32 ∨ (Rect.block (s := S12x128) S12x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x12.size a ≤ S100000x12.size a
  hwx1_0 : ∀ i : grid1.Coords, EltTy.bits .f32 = 32 ∨ (Rect.block (s := S100000x12) S2000x12.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1024.size a ≤ S100000x1024.size a
  hwx1_1 : ∀ i : grid1.Coords, EltTy.bits .f32 = 32 ∨ (Rect.block (s := S100000x1024) S2000x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x12.size a ≤ S100000x12.size a
  hwx1_2 : ∀ i : grid1.Coords, EltTy.bits .f32 = 32 ∨ (Rect.block (s := S100000x12) S2000x12.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x12.size a ≤ S100000x12.size a
  hwx1_3 : ∀ i : grid1.Coords, EltTy.bits .f32 = 32 ∨ (Rect.block (s := S100000x12) S2000x12.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S12x128.size a ≤ S12x128.size a
  hwx1_4 : ∀ i : grid1.Coords, EltTy.bits .f32 = 32 ∨ (Rect.block (s := S12x128) S12x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x128.size a
  hwx1_5 : ∀ i : grid1.Coords, EltTy.bits .f32 = 32 ∨ (Rect.block (s := S1024x128) S1024x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S12x128.size a ≤ S12x128.size a
  hwx1_6 : ∀ i : grid1.Coords, EltTy.bits .f32 = 32 ∨ (Rect.block (s := S12x128) S12x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S12x128.size a ≤ S12x128.size a
  hwx1_7 : ∀ i : grid1.Coords, EltTy.bits .f32 = 32 ∨ (Rect.block (s := S12x128) S12x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)

variable [Facts₀]

def gather_S100000x12_S100000x10x1_S100000x10x12_2_0_n_n_0_2_112 : GatherDims S100000x12 S100000x10x1 S100000x10x12 where
  offsetDims := [2]
  collapsedSliceDims := [0]
  operandBatchingDims := []
  startIndicesBatchingDims := []
  startIndexMap := [0]
  indexVectorDim := 2
  sliceSizes := ![1, 12]
  wf := gather_S100000x12_S100000x10x1_S100000x10x12_2_0_n_n_0_2_112_wf
def dot_S2000x12_S12x128_S2000x128_1_0_0_1_n_n : DotDims S2000x12 S12x128 S2000x128 where
  lhsContracting := [1]
  rhsContracting := [0]
  lhsNonContracting := [0]
  rhsNonContracting := [1]
  lhsBatch := []
  rhsBatch := []
  wf := dot_S2000x12_S12x128_S2000x128_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_arg0) S2000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x12.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S12x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S12x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S12x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg4) S2000x12.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2000x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x12.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v68) S2000x12.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S12x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S1024x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S12x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S12x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v69) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x12 : Shape := ⟨2, ![100000, 12]⟩
abbrev S100000x1024 : Shape := ⟨2, ![100000, 1024]⟩
abbrev S100000x10 : Shape := ⟨2, ![100000, 10]⟩
abbrev S12x128 : Shape := ⟨2, ![12, 128]⟩
abbrev S1024x128 : Shape := ⟨2, ![1024, 128]⟩
abbrev S100000x128 : Shape := ⟨2, ![100000, 128]⟩
abbrev S_ : Shape := ⟨0, ![]⟩
abbrev S100000x10x1 : Shape := ⟨3, ![100000, 10, 1]⟩
abbrev S100000x10x128 : Shape := ⟨3, ![100000, 10, 128]⟩
abbrev S100000 : Shape := ⟨1, ![100000]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x12, .f32⟩
  | 1 => ⟨S100000x1024, .f32⟩
  | 2 => ⟨S100000x10, .i32⟩
  | 3 => ⟨S100000x10, .i32⟩
  | 4 => ⟨S100000x12, .f32⟩
  | 5 => ⟨S100000x1024, .f32⟩
  | 6 => ⟨S100000x10, .i32⟩
  | 7 => ⟨S100000x10, .i32⟩
  | 8 => ⟨S12x128, .f32⟩
  | 9 => ⟨S1024x128, .f32⟩
  | 10 => ⟨S12x128, .f32⟩
  | 11 => ⟨S12x128, .f32⟩
  | 12 => ⟨S100000x128, .f32⟩
  | 13 => ⟨S100000x128, .f32⟩
  | 14 => ⟨S100000x128, .f32⟩
  | 15 => ⟨S100000x128, .f32⟩
  | 16 => ⟨S_, .i32⟩
  | 17 => ⟨S100000x10, .i32⟩
  | 18 => ⟨S100000x10, .i1⟩
  | 19 => ⟨S_, .i32⟩
  | 20 => ⟨S100000x10, .i32⟩
  | 21 => ⟨S100000x10, .i1⟩
  | 22 => ⟨S_, .i32⟩
  | 23 => ⟨S100000x10, .i32⟩
  | 24 => ⟨S100000x10, .i1⟩
  | 25 => ⟨S_, .i32⟩
  | 26 => ⟨S100000x10, .i32⟩
  | 27 => ⟨S100000x10, .i32⟩
  | 28 => ⟨S100000x10, .i32⟩
  | 29 => ⟨S100000x10x1, .i32⟩
  | 30 => ⟨S100000x10x128, .f32⟩
  | 31 => ⟨S100000x10x1, .i1⟩
  | 32 => ⟨S100000x10x1, .f32⟩
  | 33 => ⟨S100000x10x128, .f32⟩
  | 34 => ⟨S100000x10x128, .f32⟩
  | 35 => ⟨S_, .i32⟩
  | 36 => ⟨S100000x10, .i32⟩
  | 37 => ⟨S100000x10, .i1⟩
  | 38 => ⟨S_, .i32⟩
  | 39 => ⟨S100000x10, .i32⟩
  | 40 => ⟨S100000x10, .i32⟩
  | 41 => ⟨S100000x10, .i32⟩
  | 42 => ⟨S100000x10x1, .i32⟩
  | 43 => ⟨S100000x10x128, .f32⟩
  | 44 => ⟨S100000x10x1, .i1⟩
  | 45 => ⟨S100000x10x1, .f32⟩
  | 46 => ⟨S100000x10x128, .f32⟩
  | 47 => ⟨S100000x10x128, .f32⟩
  | 48 => ⟨S100000x10, .i32⟩
  | 49 => ⟨S_, .i32⟩
  | 50 => ⟨S100000, .i32⟩
  | 51 => ⟨S_, .i32⟩
  | 52 => ⟨S100000, .i32⟩
  | 53 => ⟨S100000, .i32⟩
  | 54 => ⟨S100000, .f32⟩
  | 55 => ⟨S100000x1, .f32⟩
  | 56 => ⟨S100000x10, .i32⟩
  | 57 => ⟨S_, .i32⟩
  | 58 => ⟨S100000, .i32⟩
  | 59 => ⟨S_, .i32⟩
  | 60 => ⟨S100000, .i32⟩
  | 61 => ⟨S100000, .i32⟩
  | 62 => ⟨S100000, .f32⟩
  | 63 => ⟨S100000x1, .f32⟩
  | 64 => ⟨S_, .f32⟩
  | 65 => ⟨S100000x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S100000x128, .f32⟩
  | 80 => ⟨S100000x128, .f32⟩
  | 81 => ⟨S100000x128, .f32⟩
  | 82 => ⟨S_, .i32⟩
  | 83 => ⟨S100000x10, .i32⟩
  | 84 => ⟨S100000x10, .i1⟩
  | 85 => ⟨S_, .i32⟩
  | 86 => ⟨S100000x10, .i32⟩
  | 87 => ⟨S100000x10, .i1⟩
  | 88 => ⟨S_, .i32⟩
  | 89 => ⟨S100000x10, .i32⟩
  | 90 => ⟨S100000x10, .i1⟩
  | 91 => ⟨S_, .i32⟩
  | 92 => ⟨S100000x10, .i32⟩
  | 93 => ⟨S100000x10, .i32⟩
  | 94 => ⟨S100000x10, .i32⟩
  | 95 => ⟨S100000x10x1, .i32⟩
  | 96 => ⟨S100000x10x128, .f32⟩
  | 97 => ⟨S100000x10x1, .i1⟩
  | 98 => ⟨S100000x10x1, .f32⟩
  | 99 => ⟨S100000x10x128, .f32⟩
  | 100 => ⟨S100000x10x128, .f32⟩
  | 101 => ⟨S_, .i32⟩
  | 102 => ⟨S100000x10, .i32⟩
  | 103 => ⟨S100000x10, .i1⟩
  | 104 => ⟨S_, .i32⟩
  | 105 => ⟨S100000x10, .i32⟩
  | 106 => ⟨S100000x10, .i32⟩
  | 107 => ⟨S100000x10, .i32⟩
  | 108 => ⟨S100000x10x1, .i32⟩
  | 109 => ⟨S100000x10x128, .f32⟩
  | 110 => ⟨S100000x10x1, .i1⟩
  | 111 => ⟨S100000x10x1, .f32⟩
  | 112 => ⟨S100000x10x128, .f32⟩
  | 113 => ⟨S100000x10x128, .f32⟩
  | 114 => ⟨S100000x10, .i32⟩
  | 115 => ⟨S_, .i32⟩
  | 116 => ⟨S100000, .i32⟩
  | 117 => ⟨S_, .i32⟩
  | 118 => ⟨S100000, .i32⟩
  | 119 => ⟨S100000, .i32⟩
  | 120 => ⟨S100000, .f32⟩
  | 121 => ⟨S100000x1, .f32⟩
  | 122 => ⟨S100000x10, .i32⟩
  | 123 => ⟨S_, .i32⟩
  | 124 => ⟨S100000, .i32⟩
  | 125 => ⟨S_, .i32⟩
  | 126 => ⟨S100000, .i32⟩
  | 127 => ⟨S100000, .i32⟩
  | _ => ⟨S100000x12, .f32⟩

abbrev hbmTy0_1 (i : Nat) : BufTy := match i % 128 with
  | 0 => ⟨S100000, .f32⟩
  | 1 => ⟨S100000x1, .f32⟩
  | 2 => ⟨S_, .f32⟩
  | 3 => ⟨S100000x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x128, .f32⟩
  | 10 => ⟨S100000x128, .f32⟩
  | 11 => ⟨S100000x128, .f32⟩
  | 12 => ⟨S100000x128, .f32⟩
  | 13 => ⟨S_, .f32⟩
  | 14 => ⟨S100000x128, .f32⟩
  | 15 => ⟨S100000x128, .f32⟩
  | _ => ⟨S100000x12, .f32⟩

abbrev hbmTy (i : Nat) : BufTy := match i / 128 with
  | 0 => hbmTy0_0 i
  | 1 => hbmTy0_1 i
  | _ => ⟨S100000x12, .f32⟩

abbrev bufTy : (tb : Table) → Fin (tcTables nBuf tb) → BufTy
  | .hbm, ⟨i, _⟩ => hbmTy i
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call0_cst : Ref sig .tc := ⟨.hbm, 75, rfl⟩
abbrev main_call0_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_c_12 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_c_15 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_16 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_c_19 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_20 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_21 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_call1_cst : Ref sig .tc := ⟨.hbm, 141, rfl⟩
abbrev main_call1_v0 : Ref sig .tc := ⟨.hbm, 142, rfl⟩
abbrev main_v103 : Ref sig .tc := ⟨.hbm, 143, rfl⟩

abbrev nD : Nat := 1
abbrev τ : Topo := Topo.v7x

variable {F : FTy → Type} [FloatOps F]

class Facts₀ : Prop where
  bcast_S_S100000x10 : S_.BroadcastsInDim S100000x10 (![] : Fin 0 → Fin S100000x10.rank)
  bcast_S100000x10_S100000x10x1_0_1 : S100000x10.BroadcastsInDim S100000x10x1 (![0, 1] : Fin 2 → Fin S100000x10x1.rank)
  bcast_S100000x10x1_S100000x10x128_0_1_2 : S100000x10x1.BroadcastsInDim S100000x10x128 (![0, 1, 2] : Fin 3 → Fin S100000x10x128.rank)
  natLt_1_32 : 1 < 32
  reducesTo_S100000x10_S100000_d1 : S100000x10.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  reducesTo_S100000x10x128_S100000x128_d1 : S100000x10x128.ReducesTo [1] S100000x128
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  dot_S100000x12_S12x128_S100000x128_1_0_0_1_n_n_wf : DotDims.WF S100000x12 S12x128 S100000x128 [1] [0] [0] [1] [] []
  dot_S100000x1024_S1024x128_S100000x128_1_0_0_1_n_n_wf : DotDims.WF S100000x1024 S1024x128 S100000x128 [1] [0] [0] [1] [] []
  gather_S100000x128_S100000x10x1_S100000x10x128_2_0_n_n_0_2_1128_wf : GatherDims.WF S100000x128 S100000x10x1 S100000x10x128 [2] [0] [] [0] [] 2 ![1, 128]

variable [Facts₀]

def dot_S100000x12_S12x128_S100000x128_1_0_0_1_n_n : DotDims S100000x12 S12x128 S100000x128 where
  lhsContracting := [1]
  rhsContracting := [0]
  lhsNonContracting := [0]
  rhsNonContracting := [1]
  lhsBatch := []
  rhsBatch := []
  wf := dot_S100000x12_S12x128_S100000x128_1_0_0_1_n_n_wf
def dot_S100000x1024_S1024x128_S100000x128_1_0_0_1_n_n : DotDims S100000x1024 S1024x128 S100000x128 where
  lhsContracting := [1]
  rhsContracting := [0]
  lhsNonContracting := [0]
  rhsNonContracting := [1]
  lhsBatch := []
  rhsBatch := []
  wf := dot_S100000x1024_S1024x128_S100000x128_1_0_0_1_n_n_wf
def gather_S100000x128_S100000x10x1_S100000x10x128_2_0_n_n_0_2_1128 : GatherDims S100000x128 S100000x10x1 S100000x10x128 where
  offsetDims := [2]
  collapsedSliceDims := [0]
  operandBatchingDims := []
  startIndicesBatchingDims := []
  startIndexMap := [0]
  indexVectorDim := 2
  sliceSizes := ![1, 128]
  wf := gather_S100000x128_S100000x10x1_S100000x10x128_2_0_n_n_0_2_1128_wf

class Facts : Prop extends Facts₀ where

variable [Facts]
-- ==== Proof.KMeanDef.lean ====
/-
  The host computation in front of each fused call, as ONE pure function of the atom table and one neighbour list:
  the masked mean of gathered raw atom rows. It is the composition, operation by operation, of the printed host lines
  (the mask idx > −1; the sanitised index; the filling take: wrap, bounds test, row gather, NaN where out of bounds;
  the weights; the sum over the ten slots; the count, at least 1; the quotient).
-/
import proofs.«428115_j27058293965314_4_alg».proof.Proof.Gen.KernelIdeal

noncomputable section

namespace Cert.KernelIdeal.HostMean

open Cert.KernelIdeal Idealize.ShloMosaic Idealize.ShloMosaic.TcCoe
open Cert.KernelIdeal.Facts₀ Cert.KernelIdeal.Facts

variable {F : FTy → Type} [FloatOps F]

/-- The mask of valid slots: idx > −1, signed. -/
def maskOf (I : IVec S100000x10 32) : IVec S100000x10 1 :=
  cmpi .sgt I (broadcastInDim S100000x10 ![] bcast_S_S100000x10 (constantI S_ 32 4294967295#32))

/-- The count word of each row: the number of valid slots (as a sum of the widened mask bits from 0). -/
def countOf (I : IVec S100000x10 32) : IVec S100000 32 :=
  Host.reduce IntOp.addi (extui 32 (maskOf I) natLt_1_32) (constantI S_ 32 0#32) reducesTo_S100000x10_S100000_d1 h_S_

/-- The start indices the gather is given: the sanitised index, wrapped, as a [100000, 10, 1] column. -/
def startOf (I : IVec S100000x10 32) : IVec S100000x10x1 32 :=
  have v2 : IVec S100000x10 32 := select (maskOf I) I (broadcastInDim S100000x10 ![] bcast_S_S100000x10 (id (constantI S_ 32 0#32)))
  have t1 : IVec S100000x10 1 := cmpi .slt v2 (broadcastInDim S100000x10 ![] bcast_S_S100000x10 (constantI S_ 32 0#32))
  have t3 : IVec S100000x10 32 := addi v2 (broadcastInDim S100000x10 ![] bcast_S_S100000x10 (constantI S_ 32 100000#32))
  have t4 : IVec S100000x10 32 := select t1 t3 v2
  broadcastInDim S100000x10x1 ![0, 1] bcast_S100000x10_S100000x10x1_0_1 t4

/-- The filling take's bounds test per slot. -/
def inBoundsOf (I : IVec S100000x10 32) : IVec S100000x10 1 :=
  have t7 : IVec S100000x10x1 1 := cmpi .sge (startOf I) (broadcastInDim S100000x10x1 ![] bcast_S_S100000x10x1 (constantI S_ 32 0#32))
  have t9 : IVec S100000x10x1 32 := broadcastInDim S100000x10x1 ![0, 1, 2] bcast_S1x1x1_S100000x10x1_0_1_2
    (broadcastInDim S1x1x1 ![2] bcast_S1_S1x1x1_2 (constantI S1 32 99999#32))
  have t10 : IVec S100000x10x1 1 := cmpi .sle (startOf I) t9
  Host.reduce IntOp.andi (andi t7 t10) (constantI S_ 1 1#1) reducesTo_S100000x10x1_S100000x10_d2 h_S_

/-- The taken rows: the gathered atom rows, the NaN pattern where the bounds test fails. -/
def takenOf (A : FVec F S100000x12 .f32) (I : IVec S100000x10 32) : FVec F S100000x10x12 .f32 :=
  select (broadcastInDim S100000x10x12 ![0, 1] bcast_S100000x10_S100000x10x12_0_1 (inBoundsOf I))
    (Host.gather gather_S100000x12_S100000x10x1_S100000x10x12_2_0_n_n_0_2_112 A (startOf I))
    (broadcastInDim S100000x10x12 ![] bcast_S_S100000x10x12 (constant S_ .f32 0x7FC00000#32))

/-- The masked mean of the taken rows over the ten slots. -/
def meanOf (A : FVec F S100000x12 .f32) (I : IVec S100000x10 32) : FVec F S100000x12 .f32 :=
  have v6 : FVec F S100000x10x12 .f32 := broadcastInDim S100000x10x12 ![0, 1, 2] bcast_S100000x10x1_S100000x10x12_0_1_2
    (uitofp .f32 (broadcastInDim S100000x10x1 ![0, 1] bcast_S100000x10_S100000x10x1_0_1 (maskOf I)))
  have v7 : FVec F S100000x10x12 .f32 := mulf (takenOf A I) v6
  have v12 : IVec S100000x1 32 := maxsi (broadcastInDim S100000x1 ![0] bcast_S100000_S100000x1_0 (countOf I))
    (broadcastInDim S100000x1 ![] bcast_S_S100000x1 (constantI S_ 32 1#32))
  have v14 : FVec F S100000x12 .f32 := Host.reduceAdd v7 (constant S_ .f32 0x00000000#32) reducesTo_S100000x10x12_S100000x12_d1 h_S_
  Host.divf v14 (broadcastInDim S100000x12 ![0, 1] bcast_S100000x1_S100000x12_0_1 (sitofp .f32 v12))

end Cert.KernelIdeal.HostMean

end
-- ==== Proof.KFold0.lean ====
/-
  Region 0's entry contents, read back through @main's host stretches: each array the region's windows stage, as a
  pure function of the launch memory. The argument arrays are written by no host operation and by no region; the two
  neighbour means are the host computation (the masked mean of gathered raw atom rows) of the atom table and one
  neighbour list.
-/
import proofs.«428115_j27058293965314_4_alg».proof.Proof.Gen.KernelIdeal.Frame
import proofs.«428115_j27058293965314_4_alg».proof.Proof.KMeanDef

set_option maxRecDepth 16384

noncomputable section

namespace Cert.KernelIdeal.Fold0

open Cert.KernelIdeal Cert.KernelIdeal.Gen Cert.KernelIdeal.HostMean
open Idealize.ShloMosaic Idealize.ShloMosaic.TcCoe Idealize.SL.Sem

variable {F : FTy → Type} [FloatOps F]
variable (m : (ℓ : Loc nD τ sig) → Buf (Elt F) ℓ) (ρ : Dev nD → PrngReg)

open Idealize.ShloMosaic.StableHlo

/-- A buffer a stretch does not write keeps its contents: none of the stretch's result buffers is the buffer. -/
local macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- An argument array is written by no stretch: the fold at it walks back to the launch memory. -/
local macro "arg_unwritten" : tactic =>
  `(tactic| (dsimp only [W7, W6, W5, W4, W3, W2, W1]
             simp only [hostOps0, hostOps0_1, hostOps0_2, hostOps0_3, hostOps0_4, hostOps0_5, hostOps0_6, List.flatten_cons, List.flatten_nil, List.append_nil, List.cons_append, List.nil_append]
             after_results))

/-! ## The host lines as functions of what they read -/

/-- The sanitised index: the word where the mask holds, the (converted, broadcast) scalar elsewhere. -/
private def whereFn (M : IVec S100000x10 1) (I : IVec S100000x10 32) (z : IVec S_ 32) : IVec S100000x10 32 :=
  select M I (broadcastInDim S100000x10 ![] bcast_S_S100000x10 (id z))

/-- The filling take as a function of the table and the sanitised index: wrap, bounds test, row gather, the NaN
    pattern where the test fails. -/
private def takeFn (A : FVec F S100000x12 .f32) (v2 : IVec S100000x10 32) : FVec F S100000x10x12 .f32 :=
  have t1 : IVec S100000x10 1 := cmpi .slt v2 (broadcastInDim S100000x10 ![] bcast_S_S100000x10 (constantI S_ 32 0#32))
  have t3 : IVec S100000x10 32 := addi v2 (broadcastInDim S100000x10 ![] bcast_S_S100000x10 (constantI S_ 32 100000#32))
  have t4 : IVec S100000x10 32 := select t1 t3 v2
  have v5 : IVec S100000x10x1 32 := broadcastInDim S100000x10x1 ![0, 1] bcast_S100000x10_S100000x10x1_0_1 t4
  have t7 : IVec S100000x10x1 1 := cmpi .sge v5 (broadcastInDim S100000x10x1 ![] bcast_S_S100000x10x1 (constantI S_ 32 0#32))
  have t9 : IVec S100000x10x1 32 := broadcastInDim S100000x10x1 ![0, 1, 2] bcast_S1x1x1_S100000x10x1_0_1_2
    (broadcastInDim S1x1x1 ![2] bcast_S1_S1x1x1_2 (constantI S1 32 99999#32))
  have t10 : IVec S100000x10x1 1 := cmpi .sle v5 t9
  have t12 : IVec S100000x10 1 := Host.reduce IntOp.andi (andi t7 t10) (constantI S_ 1 1#1) reducesTo_S100000x10x1_S100000x10_d2 h_S_
  select (broadcastInDim S100000x10x12 ![0, 1] bcast_S100000x10_S100000x10x12_0_1 t12)
    (Host.gather gather_S100000x12_S100000x10x1_S100000x10x12_2_0_n_n_0_2_112 A v5)
    (broadcastInDim S100000x10x12 ![] bcast_S_S100000x10x12 (constant S_ .f32 0x7FC00000#32))

/-- The masked mean as a function of the taken rows and the mask: weights, sum over the slots, count at least 1,
    quotient. -/
private def meanFn (T : FVec F S100000x10x12 .f32) (M : IVec S100000x10 1) : FVec F S100000x12 .f32 :=
  have v6 : FVec F S100000x10x12 .f32 := broadcastInDim S100000x10x12 ![0, 1, 2] bcast_S100000x10x1_S100000x10x12_0_1_2
    (uitofp .f32 (broadcastInDim S100000x10x1 ![0, 1] bcast_S100000x10_S100000x10x1_0_1 M))
  have v7 : FVec F S100000x10x12 .f32 := mulf T v6
  have v9 : IVec S100000 32 := Host.reduce IntOp.addi (extui 32 M natLt_1_32) (constantI S_ 32 0#32) reducesTo_S100000x10_S100000_d1 h_S_
  have v12 : IVec S100000x1 32 := maxsi (broadcastInDim S100000x1 ![0] bcast_S100000_S100000x1_0 v9)
    (broadcastInDim S100000x1 ![] bcast_S_S100000x1 (constantI S_ 32 1#32))
  have v14 : FVec F S100000x12 .f32 := Host.reduceAdd v7 (constant S_ .f32 0x00000000#32) reducesTo_S100000x10x12_S100000x12_d1 h_S_
  Host.divf v14 (broadcastInDim S100000x12 ![0, 1] bcast_S100000x1_S100000x12_0_1 (sitofp .f32 v12))

/-- The mean of one list is the mean function of the take of the sanitised index and the mask. -/
private theorem meanOf_eq (A : FVec F S100000x12 .f32) (I : IVec S100000x10 32) :
    meanOf A I = meanFn (takeFn A (whereFn (maskOf I) I (constantI S_ 32 0#32))) (maskOf I) := rfl

/-! ## Moving contents between a value's type and its buffer's own type -/

/-- Contents moved to a buffer's own type and back are unchanged. -/
private theorem ofBuf_toBuf {T : BufTy} (x : StableHlo.TRef sig T) (v : T.Contents (Elt F)) : x.ofBuf (x.toBuf v) = v := by
  obtain ⟨r, h, _, _⟩ := x
  subst h
  rfl

/-- At a literal reference the move is the identity. -/
private theorem ofBuf_arg0 (h1 h2 h3) (v : main_arg0.ty.Contents (Elt F)) :
    (StableHlo.TRef.of (T := ⟨S100000x12, .f32⟩) main_arg0 h1 h2 h3).ofBuf v = v := rfl
private theorem ofBuf_v2 (h1 h2 h3) (v : main_v2.ty.Contents (Elt F)) :
    (StableHlo.TRef.of (T := ⟨S100000x10, .i32⟩) main_v2 h1 h2 h3).ofBuf v = v := rfl
private theorem ofBuf_v19 (h1 h2 h3) (v : main_v19.ty.Contents (Elt F)) :
    (StableHlo.TRef.of (T := ⟨S100000x10, .i32⟩) main_v19 h1 h2 h3).ofBuf v = v := rfl
private theorem toBuf_v3 (h1 h2 h3) (v : (⟨S100000x10x12, .f32⟩ : BufTy).Contents (Elt F)) :
    (StableHlo.TRef.of (T := ⟨S100000x10x12, .f32⟩) main_v3 h1 h2 h3).toBuf v = v := rfl
private theorem toBuf_v20 (h1 h2 h3) (v : (⟨S100000x10x12, .f32⟩ : BufTy).Contents (Elt F)) :
    (StableHlo.TRef.of (T := ⟨S100000x10x12, .f32⟩) main_v20 h1 h2 h3).toBuf v = v := rfl

/-! ## Each stretch, from any incoming contents: the buffers it computes, and the buffers it keeps -/

section Stretches
variable (W : Valuation τ sig (Elt F))

private theorem ops0_v1 : StableHlo.after hostOps0 W (Proc.devRef .tc main_v1) = maskOf (W (Proc.devRef .tc main_arg2)) := by
  simp only [hostOps0]; after_results; all_goals rfl
private theorem ops0_c0 : StableHlo.after hostOps0 W (Proc.devRef .tc main_c_0) = constantI S_ 32 0#32 := by
  simp only [hostOps0]; after_results; all_goals rfl
private theorem ops0_1_v2 : StableHlo.after hostOps0_1 W (Proc.devRef .tc main_v2)
    = whereFn (W (Proc.devRef .tc main_v1)) (W (Proc.devRef .tc main_arg2)) (W (Proc.devRef .tc main_c_0)) := by
  simp only [hostOps0_1]; after_results; all_goals rfl
private theorem ops0_2_v3 : StableHlo.after hostOps0_2 W (Proc.devRef .tc main_v3)
    = takeFn (F := F) (W (Proc.devRef .tc main_arg0)) (W (Proc.devRef .tc main_v2)) := by
  simp only [hostOps0_2]; after_results_simp
  simp only [ofBuf_toBuf, ofBuf_v2, ofBuf_arg0, toBuf_v3]
  rfl
private theorem ops0_3_v16 : StableHlo.after hostOps0_3 W (Proc.devRef .tc main_v16)
    = meanFn (F := F) (W (Proc.devRef .tc main_v3)) (W (Proc.devRef .tc main_v1)) := by
  simp only [hostOps0_3]; after_results; all_goals rfl
private theorem ops0_3_v18 : StableHlo.after hostOps0_3 W (Proc.devRef .tc main_v18) = maskOf (W (Proc.devRef .tc main_arg3)) := by
  simp only [hostOps0_3]; after_results; all_goals rfl
private theorem ops0_3_c4 : StableHlo.after hostOps0_3 W (Proc.devRef .tc main_c_4) = constantI S_ 32 0#32 := by
  simp only [hostOps0_3]; after_results; all_goals rfl
private theorem ops0_4_v19 : StableHlo.after hostOps0_4 W (Proc.devRef .tc main_v19)
    = whereFn (W (Proc.devRef .tc main_v18)) (W (Proc.devRef .tc main_arg3)) (W (Proc.devRef .tc main_c_4)) := by
  simp only [hostOps0_4]; after_results; all_goals rfl
private theorem ops0_5_v20 : StableHlo.after hostOps0_5 W (Proc.devRef .tc main_v20)
    = takeFn (F := F) (W (Proc.devRef .tc main_arg0)) (W (Proc.devRef .tc main_v19)) := by
  simp only [hostOps0_5]; after_results_simp
  simp only [ofBuf_toBuf, ofBuf_v19, ofBuf_arg0, toBuf_v20]
  rfl
private theorem ops0_6_v33 : StableHlo.after hostOps0_6 W (Proc.devRef .tc main_v33)
    = meanFn (F := F) (W (Proc.devRef .tc main_v20)) (W (Proc.devRef .tc main_v18)) := by
  simp only [hostOps0_6]; after_results; all_goals rfl

private theorem keep0_arg0 : StableHlo.after hostOps0 W (Proc.devRef .tc main_arg0) = W (Proc.devRef .tc main_arg0) := by keeps hostOps0
private theorem keep0_arg2 : StableHlo.after hostOps0 W (Proc.devRef .tc main_arg2) = W (Proc.devRef .tc main_arg2) := by keeps hostOps0
private theorem keep0_arg3 : StableHlo.after hostOps0 W (Proc.devRef .tc main_arg3) = W (Proc.devRef .tc main_arg3) := by keeps hostOps0
private theorem keep0_1_arg0 : StableHlo.after hostOps0_1 W (Proc.devRef .tc main_arg0) = W (Proc.devRef .tc main_arg0) := by keeps hostOps0_1
private theorem keep0_1_arg3 : StableHlo.after hostOps0_1 W (Proc.devRef .tc main_arg3) = W (Proc.devRef .tc main_arg3) := by keeps hostOps0_1
private theorem keep0_1_v1 : StableHlo.after hostOps0_1 W (Proc.devRef .tc main_v1) = W (Proc.devRef .tc main_v1) := by keeps hostOps0_1
private theorem keep0_2_arg0 : StableHlo.after hostOps0_2 W (Proc.devRef .tc main_arg0) = W (Proc.devRef .tc main_arg0) := by keeps hostOps0_2
private theorem keep0_2_arg3 : StableHlo.after hostOps0_2 W (Proc.devRef .tc main_arg3) = W (Proc.devRef .tc main_arg3) := by keeps hostOps0_2
private theorem keep0_2_v1 : StableHlo.after hostOps0_2 W (Proc.devRef .tc main_v1) = W (Proc.devRef .tc main_v1) := by keeps hostOps0_2
private theorem keep0_3_arg0 : StableHlo.after hostOps0_3 W (Proc.devRef .tc main_arg0) = W (Proc.devRef .tc main_arg0) := by keeps hostOps0_3
private theorem keep0_3_arg3 : StableHlo.after hostOps0_3 W (Proc.devRef .tc main_arg3) = W (Proc.devRef .tc main_arg3) := by keeps hostOps0_3
private theorem keep0_4_arg0 : StableHlo.after hostOps0_4 W (Proc.devRef .tc main_arg0) = W (Proc.devRef .tc main_arg0) := by keeps hostOps0_4
private theorem keep0_4_v16 : StableHlo.after hostOps0_4 W (Proc.devRef .tc main_v16) = W (Proc.devRef .tc main_v16) := by keeps hostOps0_4
private theorem keep0_4_v18 : StableHlo.after hostOps0_4 W (Proc.devRef .tc main_v18) = W (Proc.devRef .tc main_v18) := by keeps hostOps0_4
private theorem keep0_5_v16 : StableHlo.after hostOps0_5 W (Proc.devRef .tc main_v16) = W (Proc.devRef .tc main_v16) := by keeps hostOps0_5
private theorem keep0_5_v18 : StableHlo.after hostOps0_5 W (Proc.devRef .tc main_v18) = W (Proc.devRef .tc main_v18) := by keeps hostOps0_5
private theorem keep0_6_v16 : StableHlo.after hostOps0_6 W (Proc.devRef .tc main_v16) = W (Proc.devRef .tc main_v16) := by keeps hostOps0_6

end Stretches

/-! ## The fold, boundary by boundary -/

section Chain
variable (c : Dev nD)

private theorem W1_arg0 : W1 m ρ c (Proc.devRef .tc main_arg0) = (m ((c : Thread nD τ).loc main_arg0)) := keep0_arg0 (W0 m ρ c)
private theorem W1_arg2 : W1 m ρ c (Proc.devRef .tc main_arg2) = (m ((c : Thread nD τ).loc main_arg2)) := keep0_arg2 (W0 m ρ c)
private theorem W1_arg3 : W1 m ρ c (Proc.devRef .tc main_arg3) = (m ((c : Thread nD τ).loc main_arg3)) := keep0_arg3 (W0 m ρ c)
private theorem W1_v1 : W1 m ρ c (Proc.devRef .tc main_v1) = maskOf (m ((c : Thread nD τ).loc main_arg2)) := ops0_v1 (W0 m ρ c)
private theorem W1_c0 : W1 m ρ c (Proc.devRef .tc main_c_0) = constantI S_ 32 0#32 := ops0_c0 (W0 m ρ c)

private theorem W2_arg0 : W2 m ρ c (Proc.devRef .tc main_arg0) = (m ((c : Thread nD τ).loc main_arg0)) := (keep0_1_arg0 (W1 m ρ c)).trans (W1_arg0 m ρ c)
private theorem W2_arg3 : W2 m ρ c (Proc.devRef .tc main_arg3) = (m ((c : Thread nD τ).loc main_arg3)) := (keep0_1_arg3 (W1 m ρ c)).trans (W1_arg3 m ρ c)
private theorem W2_v1 : W2 m ρ c (Proc.devRef .tc main_v1) = maskOf (m ((c : Thread nD τ).loc main_arg2)) := (keep0_1_v1 (W1 m ρ c)).trans (W1_v1 m ρ c)
private theorem W2_v2 : W2 m ρ c (Proc.devRef .tc main_v2) = whereFn (maskOf (m ((c : Thread nD τ).loc main_arg2))) (m ((c : Thread nD τ).loc main_arg2)) (constantI S_ 32 0#32) :=
  (ops0_1_v2 (W1 m ρ c)).trans (by rw [W1_v1 m ρ c, W1_arg2 m ρ c, W1_c0 m ρ c])

private theorem W3_arg0 : W3 m ρ c (Proc.devRef .tc main_arg0) = (m ((c : Thread nD τ).loc main_arg0)) := (keep0_2_arg0 (W2 m ρ c)).trans (W2_arg0 m ρ c)
private theorem W3_arg3 : W3 m ρ c (Proc.devRef .tc main_arg3) = (m ((c : Thread nD τ).loc main_arg3)) := (keep0_2_arg3 (W2 m ρ c)).trans (W2_arg3 m ρ c)
private theorem W3_v1 : W3 m ρ c (Proc.devRef .tc main_v1) = maskOf (m ((c : Thread nD τ).loc main_arg2)) := (keep0_2_v1 (W2 m ρ c)).trans (W2_v1 m ρ c)
private theorem W3_v3 : W3 m ρ c (Proc.devRef .tc main_v3) = takeFn (F := F) (m ((c : Thread nD τ).loc main_arg0)) (whereFn (maskOf (m ((c : Thread nD τ).loc main_arg2))) (m ((c : Thread nD τ).loc main_arg2)) (constantI S_ 32 0#32)) :=
  (ops0_2_v3 (W2 m ρ c)).trans (by rw [W2_arg0 m ρ c, W2_v2 m ρ c])

private theorem W4_arg0 : W4 m ρ c (Proc.devRef .tc main_arg0) = (m ((c : Thread nD τ).loc main_arg0)) := (keep0_3_arg0 (W3 m ρ c)).trans (W3_arg0 m ρ c)
private theorem W4_arg3 : W4 m ρ c (Proc.devRef .tc main_arg3) = (m ((c : Thread nD τ).loc main_arg3)) := (keep0_3_arg3 (W3 m ρ c)).trans (W3_arg3 m ρ c)
private theorem W4_v16 : W4 m ρ c (Proc.devRef .tc main_v16) = meanOf (F := F) (m ((c : Thread nD τ).loc main_arg0)) (m ((c : Thread nD τ).loc main_arg2)) :=
  (ops0_3_v16 (W3 m ρ c)).trans (by rw [W3_v3 m ρ c, W3_v1 m ρ c, meanOf_eq])
private theorem W4_v18 : W4 m ρ c (Proc.devRef .tc main_v18) = maskOf (m ((c : Thread nD τ).loc main_arg3)) := (ops0_3_v18 (W3 m ρ c)).trans (by rw [W3_arg3 m ρ c])
private theorem W4_c4 : W4 m ρ c (Proc.devRef .tc main_c_4) = constantI S_ 32 0#32 := ops0_3_c4 (W3 m ρ c)

private theorem W5_arg0 : W5 m ρ c (Proc.devRef .tc main_arg0) = (m ((c : Thread nD τ).loc main_arg0)) := (keep0_4_arg0 (W4 m ρ c)).trans (W4_arg0 m ρ c)
private theorem W5_v16 : W5 m ρ c (Proc.devRef .tc main_v16) = meanOf (F := F) (m ((c : Thread nD τ).loc main_arg0)) (m ((c : Thread nD τ).loc main_arg2)) := (keep0_4_v16 (W4 m ρ c)).trans (W4_v16 m ρ c)
private theorem W5_v18 : W5 m ρ c (Proc.devRef .tc main_v18) = maskOf (m ((c : Thread nD τ).loc main_arg3)) := (keep0_4_v18 (W4 m ρ c)).trans (W4_v18 m ρ c)
private theorem W5_v19 : W5 m ρ c (Proc.devRef .tc main_v19) = whereFn (maskOf (m ((c : Thread nD τ).loc main_arg3))) (m ((c : Thread nD τ).loc main_arg3)) (constantI S_ 32 0#32) :=
  (ops0_4_v19 (W4 m ρ c)).trans (by rw [W4_v18 m ρ c, W4_arg3 m ρ c, W4_c4 m ρ c])

private theorem W6_v16 : W6 m ρ c (Proc.devRef .tc main_v16) = meanOf (F := F) (m ((c : Thread nD τ).loc main_arg0)) (m ((c : Thread nD τ).loc main_arg2)) := (keep0_5_v16 (W5 m ρ c)).trans (W5_v16 m ρ c)
private theorem W6_v18 : W6 m ρ c (Proc.devRef .tc main_v18) = maskOf (m ((c : Thread nD τ).loc main_arg3)) := (keep0_5_v18 (W5 m ρ c)).trans (W5_v18 m ρ c)
private theorem W6_v20 : W6 m ρ c (Proc.devRef .tc main_v20) = takeFn (F := F) (m ((c : Thread nD τ).loc main_arg0)) (whereFn (maskOf (m ((c : Thread nD τ).loc main_arg3))) (m ((c : Thread nD τ).loc main_arg3)) (constantI S_ 32 0#32)) :=
  (ops0_5_v20 (W5 m ρ c)).trans (by rw [W5_arg0 m ρ c, W5_v19 m ρ c])

end Chain

/-! ## The argument arrays at region 0's entry -/

theorem W7_arg0 (c : Dev nD) : W7 m ρ c (Proc.devRef .tc main_arg0) = m ((c : Thread nD τ).loc main_arg0) := by
  arg_unwritten

theorem W7_arg1 (c : Dev nD) : W7 m ρ c (Proc.devRef .tc main_arg1) = m ((c : Thread nD τ).loc main_arg1) := by
  arg_unwritten

theorem W7_arg8 (c : Dev nD) : W7 m ρ c (Proc.devRef .tc main_arg8) = m ((c : Thread nD τ).loc main_arg8) := by
  arg_unwritten

theorem W7_arg9 (c : Dev nD) : W7 m ρ c (Proc.devRef .tc main_arg9) = m ((c : Thread nD τ).loc main_arg9) := by
  arg_unwritten

theorem W7_arg10 (c : Dev nD) : W7 m ρ c (Proc.devRef .tc main_arg10) = m ((c : Thread nD τ).loc main_arg10) := by
  arg_unwritten

theorem W7_arg11 (c : Dev nD) : W7 m ρ c (Proc.devRef .tc main_arg11) = m ((c : Thread nD τ).loc main_arg11) := by
  arg_unwritten

/-! ## The two neighbour means at region 0's entry -/

/-- Window 2's array: the mean over the same-neighbour list. -/
theorem W7_v16 (c : Dev nD) : W7 m ρ c (Proc.devRef .tc main_v16)
    = meanOf (F := F) (m ((c : Thread nD τ).loc main_arg0)) (m ((c : Thread nD τ).loc main_arg2)) := by
  exact (keep0_6_v16 (W6 m ρ c)).trans (W6_v16 m ρ c)

/-- Window 3's array: the mean over the different-neighbour list. -/
theorem W7_v33 (c : Dev nD) : W7 m ρ c (Proc.devRef .tc main_v33)
    = meanOf (F := F) (m ((c : Thread nD τ).loc main_arg0)) (m ((c : Thread nD τ).loc main_arg3)) := by
  exact (ops0_6_v33 (W6 m ρ c)).trans (by rw [W6_v20 m ρ c, W6_v18 m ρ c, meanOf_eq])

end Cert.KernelIdeal.Fold0

end
-- ==== Proof.KFold1.lean ====
/-
  Region 1's entry contents, read back through @main's host stretches: each array the region's windows stage, as a
  pure function of the launch memory. The argument arrays are written by no host operation and by no region; the two
  neighbour means are the host computation (the masked mean of gathered raw atom rows) of the atom table and one
  neighbour list.
-/
import proofs.«428115_j27058293965314_4_alg».proof.Proof.Gen.KernelIdeal.Frame
import proofs.«428115_j27058293965314_4_alg».proof.Proof.KMeanDef

set_option maxRecDepth 16384

noncomputable section

namespace Cert.KernelIdeal.Fold1

open Cert.KernelIdeal Cert.KernelIdeal.Gen Cert.KernelIdeal.HostMean
open Idealize.ShloMosaic Idealize.ShloMosaic.TcCoe Idealize.SL.Sem

variable {F : FTy → Type} [FloatOps F]
variable (m : (ℓ : Loc nD τ sig) → Buf (Elt F) ℓ) (ρ : Dev nD → PrngReg)

open Idealize.ShloMosaic.StableHlo

/-- A buffer that no operation of a stretch writes keeps its contents through the stretch. -/
local macro "keep_through " ops:ident " at " b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## What each stretch of the second protein leaves alone -/

private theorem k15_arg4 (c : Dev nD) : W15 m ρ c (Proc.devRef .tc main_arg4) = W14 m ρ c (Proc.devRef .tc main_arg4) :=
  keep_through hostOps1_6 at main_arg4
private theorem k14_arg4 (c : Dev nD) : W14 m ρ c (Proc.devRef .tc main_arg4) = W13 m ρ c (Proc.devRef .tc main_arg4) :=
  keep_through hostOps1_5 at main_arg4
private theorem k13_arg4 (c : Dev nD) : W13 m ρ c (Proc.devRef .tc main_arg4) = W12 m ρ c (Proc.devRef .tc main_arg4) :=
  keep_through hostOps1_4 at main_arg4
private theorem k12_arg4 (c : Dev nD) : W12 m ρ c (Proc.devRef .tc main_arg4) = W11 m ρ c (Proc.devRef .tc main_arg4) :=
  keep_through hostOps1_3 at main_arg4
private theorem k11_arg4 (c : Dev nD) : W11 m ρ c (Proc.devRef .tc main_arg4) = W10 m ρ c (Proc.devRef .tc main_arg4) :=
  keep_through hostOps1_2 at main_arg4
private theorem k15_arg7 (c : Dev nD) : W15 m ρ c (Proc.devRef .tc main_arg7) = W14 m ρ c (Proc.devRef .tc main_arg7) :=
  keep_through hostOps1_6 at main_arg7
private theorem k14_arg7 (c : Dev nD) : W14 m ρ c (Proc.devRef .tc main_arg7) = W13 m ρ c (Proc.devRef .tc main_arg7) :=
  keep_through hostOps1_5 at main_arg7
private theorem k13_arg7 (c : Dev nD) : W13 m ρ c (Proc.devRef .tc main_arg7) = W12 m ρ c (Proc.devRef .tc main_arg7) :=
  keep_through hostOps1_4 at main_arg7
private theorem k12_arg7 (c : Dev nD) : W12 m ρ c (Proc.devRef .tc main_arg7) = W11 m ρ c (Proc.devRef .tc main_arg7) :=
  keep_through hostOps1_3 at main_arg7
private theorem k15_arg6 (c : Dev nD) : W15 m ρ c (Proc.devRef .tc main_arg6) = W14 m ρ c (Proc.devRef .tc main_arg6) :=
  keep_through hostOps1_6 at main_arg6
private theorem k14_arg6 (c : Dev nD) : W14 m ρ c (Proc.devRef .tc main_arg6) = W13 m ρ c (Proc.devRef .tc main_arg6) :=
  keep_through hostOps1_5 at main_arg6
private theorem k13_arg6 (c : Dev nD) : W13 m ρ c (Proc.devRef .tc main_arg6) = W12 m ρ c (Proc.devRef .tc main_arg6) :=
  keep_through hostOps1_4 at main_arg6
private theorem k12_arg6 (c : Dev nD) : W12 m ρ c (Proc.devRef .tc main_arg6) = W11 m ρ c (Proc.devRef .tc main_arg6) :=
  keep_through hostOps1_3 at main_arg6
private theorem k11_arg6 (c : Dev nD) : W11 m ρ c (Proc.devRef .tc main_arg6) = W10 m ρ c (Proc.devRef .tc main_arg6) :=
  keep_through hostOps1_2 at main_arg6
private theorem k10_arg6 (c : Dev nD) : W10 m ρ c (Proc.devRef .tc main_arg6) = W9 m ρ c (Proc.devRef .tc main_arg6) :=
  keep_through hostOps1_1 at main_arg6
private theorem k9_arg6 (c : Dev nD) : W9 m ρ c (Proc.devRef .tc main_arg6) = W8 m ρ c (Proc.devRef .tc main_arg6) :=
  keep_through hostOps1 at main_arg6
private theorem k11_v36 (c : Dev nD) : W11 m ρ c (Proc.devRef .tc main_v36) = W10 m ρ c (Proc.devRef .tc main_v36) :=
  keep_through hostOps1_2 at main_v36
private theorem k10_v36 (c : Dev nD) : W10 m ρ c (Proc.devRef .tc main_v36) = W9 m ρ c (Proc.devRef .tc main_v36) :=
  keep_through hostOps1_1 at main_v36
private theorem k15_v51 (c : Dev nD) : W15 m ρ c (Proc.devRef .tc main_v51) = W14 m ρ c (Proc.devRef .tc main_v51) :=
  keep_through hostOps1_6 at main_v51
private theorem k14_v51 (c : Dev nD) : W14 m ρ c (Proc.devRef .tc main_v51) = W13 m ρ c (Proc.devRef .tc main_v51) :=
  keep_through hostOps1_5 at main_v51
private theorem k13_v51 (c : Dev nD) : W13 m ρ c (Proc.devRef .tc main_v51) = W12 m ρ c (Proc.devRef .tc main_v51) :=
  keep_through hostOps1_4 at main_v51
private theorem k14_v53 (c : Dev nD) : W14 m ρ c (Proc.devRef .tc main_v53) = W13 m ρ c (Proc.devRef .tc main_v53) :=
  keep_through hostOps1_5 at main_v53
private theorem k13_v53 (c : Dev nD) : W13 m ρ c (Proc.devRef .tc main_v53) = W12 m ρ c (Proc.devRef .tc main_v53) :=
  keep_through hostOps1_4 at main_v53
private theorem k15_v34 (c : Dev nD) : W15 m ρ c (Proc.devRef .tc main_v34) = W14 m ρ c (Proc.devRef .tc main_v34) :=
  keep_through hostOps1_6 at main_v34
private theorem k14_v34 (c : Dev nD) : W14 m ρ c (Proc.devRef .tc main_v34) = W13 m ρ c (Proc.devRef .tc main_v34) :=
  keep_through hostOps1_5 at main_v34
private theorem k13_v34 (c : Dev nD) : W13 m ρ c (Proc.devRef .tc main_v34) = W12 m ρ c (Proc.devRef .tc main_v34) :=
  keep_through hostOps1_4 at main_v34
private theorem k12_v34 (c : Dev nD) : W12 m ρ c (Proc.devRef .tc main_v34) = W11 m ρ c (Proc.devRef .tc main_v34) :=
  keep_through hostOps1_3 at main_v34
private theorem k11_v34 (c : Dev nD) : W11 m ρ c (Proc.devRef .tc main_v34) = W10 m ρ c (Proc.devRef .tc main_v34) :=
  keep_through hostOps1_2 at main_v34
private theorem k10_v34 (c : Dev nD) : W10 m ρ c (Proc.devRef .tc main_v34) = W9 m ρ c (Proc.devRef .tc main_v34) :=
  keep_through hostOps1_1 at main_v34
private theorem k9_v34 (c : Dev nD) : W9 m ρ c (Proc.devRef .tc main_v34) = W8 m ρ c (Proc.devRef .tc main_v34) :=
  keep_through hostOps1 at main_v34

/-! ## The host computation in stages -/

/-- The sanitised index: the index where the slot is valid, zero elsewhere. -/
private def saneOf (I : IVec S100000x10 32) : IVec S100000x10 32 :=
  select (maskOf I) I (broadcastInDim S100000x10 ![] bcast_S_S100000x10 (id (constantI S_ 32 0#32)))

/-- The start indices as a function of the sanitised index: wrapped, as a [100000, 10, 1] column. -/
private def startFrom (v2 : IVec S100000x10 32) : IVec S100000x10x1 32 :=
  broadcastInDim S100000x10x1 ![0, 1] bcast_S100000x10_S100000x10x1_0_1
    (select (cmpi .slt v2 (broadcastInDim S100000x10 ![] bcast_S_S100000x10 (constantI S_ 32 0#32)))
      (addi v2 (broadcastInDim S100000x10 ![] bcast_S_S100000x10 (constantI S_ 32 100000#32))) v2)

/-- The bounds test per slot as a function of the start indices. -/
private def inBoundsFrom (s : IVec S100000x10x1 32) : IVec S100000x10 1 :=
  Host.reduce IntOp.andi
    (andi (cmpi .sge s (broadcastInDim S100000x10x1 ![] bcast_S_S100000x10x1 (constantI S_ 32 0#32)))
      (cmpi .sle s (broadcastInDim S100000x10x1 ![0, 1, 2] bcast_S1x1x1_S100000x10x1_0_1_2
        (broadcastInDim S1x1x1 ![2] bcast_S1_S1x1x1_2 (constantI S1 32 99999#32)))))
    (constantI S_ 1 1#1) reducesTo_S100000x10x1_S100000x10_d2 h_S_

/-- The filling take as a function of the table and the sanitised index. -/
private def takeFrom (A : FVec F S100000x12 .f32) (v2 : IVec S100000x10 32) : FVec F S100000x10x12 .f32 :=
  select (broadcastInDim S100000x10x12 ![0, 1] bcast_S100000x10_S100000x10x12_0_1 (inBoundsFrom (startFrom v2)))
    (Host.gather gather_S100000x12_S100000x10x1_S100000x10x12_2_0_n_n_0_2_112 A (startFrom v2))
    (broadcastInDim S100000x10x12 ![] bcast_S_S100000x10x12 (constant S_ .f32 0x7FC00000#32))

/-- The masked mean over the ten slots as a function of the taken rows and the mask. -/
private def meanFrom (T : FVec F S100000x10x12 .f32) (M : IVec S100000x10 1) : FVec F S100000x12 .f32 :=
  Host.divf
    (Host.reduceAdd
      (mulf T (broadcastInDim S100000x10x12 ![0, 1, 2] bcast_S100000x10x1_S100000x10x12_0_1_2
        (uitofp .f32 (broadcastInDim S100000x10x1 ![0, 1] bcast_S100000x10_S100000x10x1_0_1 M))))
      (constant S_ .f32 0x00000000#32) reducesTo_S100000x10x12_S100000x12_d1 h_S_)
    (broadcastInDim S100000x12 ![0, 1] bcast_S100000x1_S100000x12_0_1
      (sitofp .f32
        (maxsi
          (broadcastInDim S100000x1 ![0] bcast_S100000_S100000x1_0
            (Host.reduce IntOp.addi (extui 32 M natLt_1_32) (constantI S_ 32 0#32) reducesTo_S100000x10_S100000_d1 h_S_))
          (broadcastInDim S100000x1 ![] bcast_S_S100000x1 (constantI S_ 32 1#32)))))

/-- The target function is these stages composed. -/
private theorem meanOf_eq (A : FVec F S100000x12 .f32) (I : IVec S100000x10 32) :
    meanOf A I = meanFrom (takeFrom A (saneOf I)) (maskOf I) := rfl

/-! ## Contents at a value's type and at its buffer's own type -/

/-- Contents moved to a buffer's own type and back are unchanged. -/
private theorem ofBuf_toBuf {T : BufTy} (x : StableHlo.TRef sig T) (v : T.Contents (Elt F)) : x.ofBuf (x.toBuf v) = v := by
  obtain ⟨r, h, _, _⟩ := x
  subst h
  rfl

/-- At a literal reference the move is the identity. -/
private theorem ofBuf_arg4 (h1 h2 h3) (v : main_arg4.ty.Contents (Elt F)) :
    (StableHlo.TRef.of (T := ⟨S100000x12, .f32⟩) main_arg4 h1 h2 h3).ofBuf v = v := rfl
private theorem ofBuf_v37 (h1 h2 h3) (v : main_v37.ty.Contents (Elt F)) :
    (StableHlo.TRef.of (T := ⟨S100000x10, .i32⟩) main_v37 h1 h2 h3).ofBuf v = v := rfl
private theorem ofBuf_v54 (h1 h2 h3) (v : main_v54.ty.Contents (Elt F)) :
    (StableHlo.TRef.of (T := ⟨S100000x10, .i32⟩) main_v54 h1 h2 h3).ofBuf v = v := rfl
private theorem toBuf_v38 (h1 h2 h3) (v : (⟨S100000x10x12, .f32⟩ : BufTy).Contents (Elt F)) :
    (StableHlo.TRef.of (T := ⟨S100000x10x12, .f32⟩) main_v38 h1 h2 h3).toBuf v = v := rfl
private theorem toBuf_v55 (h1 h2 h3) (v : (⟨S100000x10x12, .f32⟩ : BufTy).Contents (Elt F)) :
    (StableHlo.TRef.of (T := ⟨S100000x10x12, .f32⟩) main_v55 h1 h2 h3).toBuf v = v := rfl

/-! ## Each host stretch of the second protein, from any incoming contents -/

private theorem ops1_v36 (W : Valuation τ sig (Elt F)) :
    StableHlo.after hostOps1 W (Proc.devRef .tc main_v36) = maskOf (W (Proc.devRef .tc main_arg6)) := by
  simp only [hostOps1, List.flatten_cons, List.flatten_nil, List.append_nil, List.cons_append, List.nil_append]
  after_results
  rfl

private theorem ops1_c9 (W : Valuation τ sig (Elt F)) :
    StableHlo.after hostOps1 W (Proc.devRef .tc main_c_9) = constantI S_ 32 0#32 := by
  simp only [hostOps1, List.flatten_cons, List.flatten_nil, List.append_nil, List.cons_append, List.nil_append]
  after_results

private theorem ops1_1_v37 (W : Valuation τ sig (Elt F)) :
    StableHlo.after hostOps1_1 W (Proc.devRef .tc main_v37)
      = select (W (Proc.devRef .tc main_v36)) (W (Proc.devRef .tc main_arg6))
          (broadcastInDim S100000x10 ![] bcast_S_S100000x10 (id (W (Proc.devRef .tc main_c_9)))) := by
  simp only [hostOps1_1, List.flatten_cons, List.flatten_nil, List.append_nil, List.cons_append, List.nil_append]
  after_results
  rfl

private theorem ops1_2_v38 (W : Valuation τ sig (Elt F)) :
    StableHlo.after hostOps1_2 W (Proc.devRef .tc main_v38)
      = takeFrom (W (Proc.devRef .tc main_arg4)) (W (Proc.devRef .tc main_v37)) := by
  simp only [hostOps1_2, List.flatten_cons, List.flatten_nil, List.append_nil, List.cons_append, List.nil_append]
  after_results_simp
  simp only [ofBuf_toBuf, ofBuf_arg4, ofBuf_v37, toBuf_v38]
  rfl

private theorem ops1_3_v51 (W : Valuation τ sig (Elt F)) :
    StableHlo.after hostOps1_3 W (Proc.devRef .tc main_v51)
      = meanFrom (W (Proc.devRef .tc main_v38)) (W (Proc.devRef .tc main_v36)) := by
  simp only [hostOps1_3, List.flatten_cons, List.flatten_nil, List.append_nil, List.cons_append, List.nil_append]
  after_results
  rfl

private theorem ops1_3_v53 (W : Valuation τ sig (Elt F)) :
    StableHlo.after hostOps1_3 W (Proc.devRef .tc main_v53) = maskOf (W (Proc.devRef .tc main_arg7)) := by
  simp only [hostOps1_3, List.flatten_cons, List.flatten_nil, List.append_nil, List.cons_append, List.nil_append]
  after_results
  rfl

private theorem ops1_3_c14 (W : Valuation τ sig (Elt F)) :
    StableHlo.after hostOps1_3 W (Proc.devRef .tc main_c_14) = constantI S_ 32 0#32 := by
  simp only [hostOps1_3, List.flatten_cons, List.flatten_nil, List.append_nil, List.cons_append, List.nil_append]
  after_results

private theorem ops1_4_v54 (W : Valuation τ sig (Elt F)) :
    StableHlo.after hostOps1_4 W (Proc.devRef .tc main_v54)
      = select (W (Proc.devRef .tc main_v53)) (W (Proc.devRef .tc main_arg7))
          (broadcastInDim S100000x10 ![] bcast_S_S100000x10 (id (W (Proc.devRef .tc main_c_14)))) := by
  simp only [hostOps1_4, List.flatten_cons, List.flatten_nil, List.append_nil, List.cons_append, List.nil_append]
  after_results
  rfl

private theorem ops1_5_v55 (W : Valuation τ sig (Elt F)) :
    StableHlo.after hostOps1_5 W (Proc.devRef .tc main_v55)
      = takeFrom (W (Proc.devRef .tc main_arg4)) (W (Proc.devRef .tc main_v54)) := by
  simp only [hostOps1_5, List.flatten_cons, List.flatten_nil, List.append_nil, List.cons_append, List.nil_append]
  after_results_simp
  simp only [ofBuf_toBuf, ofBuf_arg4, ofBuf_v54, toBuf_v55]
  rfl

private theorem ops1_6_v68 (W : Valuation τ sig (Elt F)) :
    StableHlo.after hostOps1_6 W (Proc.devRef .tc main_v68)
      = meanFrom (W (Proc.devRef .tc main_v55)) (W (Proc.devRef .tc main_v53)) := by
  simp only [hostOps1_6, List.flatten_cons, List.flatten_nil, List.append_nil, List.cons_append, List.nil_append]
  after_results
  rfl

/-! ## The argument arrays at region 1's entry -/

/- Region 1 stages each of these through an input window, so its exit value is its entry value; and the exit value
   of an argument array is the launch memory's, since no host operation and no region writes it. -/

theorem W15_arg4 (c : Dev nD) : W15 m ρ c (Proc.devRef .tc main_arg4) = m ((c : Thread nD τ).loc main_arg4) :=
  ((W16_arr m ρ c 0).trans (((dat1 (V15 m ρ) c).arrAt_in 0 rfl _).trans (A_eq1 (V15 m ρ) c 0))).symm.trans
    (W16_main_arg4 m ρ c)

theorem W15_arg5 (c : Dev nD) : W15 m ρ c (Proc.devRef .tc main_arg5) = m ((c : Thread nD τ).loc main_arg5) :=
  ((W16_arr m ρ c 1).trans (((dat1 (V15 m ρ) c).arrAt_in 1 rfl _).trans (A_eq1 (V15 m ρ) c 1))).symm.trans
    (W16_main_arg5 m ρ c)

theorem W15_arg8 (c : Dev nD) : W15 m ρ c (Proc.devRef .tc main_arg8) = m ((c : Thread nD τ).loc main_arg8) :=
  ((W16_arr m ρ c 4).trans (((dat1 (V15 m ρ) c).arrAt_in 4 rfl _).trans (A_eq1 (V15 m ρ) c 4))).symm.trans
    (W16_main_arg8 m ρ c)

theorem W15_arg9 (c : Dev nD) : W15 m ρ c (Proc.devRef .tc main_arg9) = m ((c : Thread nD τ).loc main_arg9) :=
  ((W16_arr m ρ c 5).trans (((dat1 (V15 m ρ) c).arrAt_in 5 rfl _).trans (A_eq1 (V15 m ρ) c 5))).symm.trans
    (W16_main_arg9 m ρ c)

theorem W15_arg10 (c : Dev nD) : W15 m ρ c (Proc.devRef .tc main_arg10) = m ((c : Thread nD τ).loc main_arg10) :=
  ((W16_arr m ρ c 6).trans (((dat1 (V15 m ρ) c).arrAt_in 6 rfl _).trans (A_eq1 (V15 m ρ) c 6))).symm.trans
    (W16_main_arg10 m ρ c)

theorem W15_arg11 (c : Dev nD) : W15 m ρ c (Proc.devRef .tc main_arg11) = m ((c : Thread nD τ).loc main_arg11) :=
  ((W16_arr m ρ c 7).trans (((dat1 (V15 m ρ) c).arrAt_in 7 rfl _).trans (A_eq1 (V15 m ρ) c 7))).symm.trans
    (W16_main_arg11 m ρ c)

/-- The two neighbour lists are no array of region 1: the exit value is the entry value. -/
private theorem W15_arg6 (c : Dev nD) : W15 m ρ c (Proc.devRef .tc main_arg6) = m ((c : Thread nD τ).loc main_arg6) :=
  (W16_of_ne m ρ c main_arg6 (by decide)).symm.trans (W16_main_arg6 m ρ c)
private theorem W15_arg7 (c : Dev nD) : W15 m ρ c (Proc.devRef .tc main_arg7) = m ((c : Thread nD τ).loc main_arg7) :=
  (W16_of_ne m ρ c main_arg7 (by decide)).symm.trans (W16_main_arg7 m ρ c)

/-! ## The arguments at the earlier boundaries of the second protein's host computation -/

section Chain
variable (c : Dev nD)

private theorem W13_arg4 : W13 m ρ c (Proc.devRef .tc main_arg4) = m ((c : Thread nD τ).loc main_arg4) :=
  ((k15_arg4 m ρ c).trans (k14_arg4 m ρ c)).symm.trans (W15_arg4 m ρ c)
private theorem W10_arg4 : W10 m ρ c (Proc.devRef .tc main_arg4) = m ((c : Thread nD τ).loc main_arg4) :=
  ((k13_arg4 m ρ c).trans ((k12_arg4 m ρ c).trans (k11_arg4 m ρ c))).symm.trans (W13_arg4 m ρ c)
private theorem W12_arg7 : W12 m ρ c (Proc.devRef .tc main_arg7) = m ((c : Thread nD τ).loc main_arg7) :=
  ((k15_arg7 m ρ c).trans ((k14_arg7 m ρ c).trans (k13_arg7 m ρ c))).symm.trans (W15_arg7 m ρ c)
private theorem W11_arg7 : W11 m ρ c (Proc.devRef .tc main_arg7) = m ((c : Thread nD τ).loc main_arg7) :=
  (k12_arg7 m ρ c).symm.trans (W12_arg7 m ρ c)
private theorem W9_arg6 : W9 m ρ c (Proc.devRef .tc main_arg6) = m ((c : Thread nD τ).loc main_arg6) :=
  ((k15_arg6 m ρ c).trans ((k14_arg6 m ρ c).trans ((k13_arg6 m ρ c).trans ((k12_arg6 m ρ c).trans
    ((k11_arg6 m ρ c).trans (k10_arg6 m ρ c)))))).symm.trans (W15_arg6 m ρ c)
private theorem W8_arg6 : W8 m ρ c (Proc.devRef .tc main_arg6) = m ((c : Thread nD τ).loc main_arg6) :=
  (k9_arg6 m ρ c).symm.trans (W9_arg6 m ρ c)

/-! ## The same-neighbour list, boundary by boundary -/

private theorem W9_v36 : W9 m ρ c (Proc.devRef .tc main_v36) = maskOf (m ((c : Thread nD τ).loc main_arg6)) :=
  (ops1_v36 (W8 m ρ c)).trans (by rw [W8_arg6 m ρ c])
private theorem W9_c9 : W9 m ρ c (Proc.devRef .tc main_c_9) = constantI S_ 32 0#32 := ops1_c9 (W8 m ρ c)
private theorem W10_v37 : W10 m ρ c (Proc.devRef .tc main_v37) = saneOf (m ((c : Thread nD τ).loc main_arg6)) :=
  (ops1_1_v37 (W9 m ρ c)).trans (by rw [W9_v36 m ρ c, W9_arg6 m ρ c, W9_c9 m ρ c]; rfl)
private theorem W11_v38 : W11 m ρ c (Proc.devRef .tc main_v38)
    = takeFrom (F := F) (m ((c : Thread nD τ).loc main_arg4)) (saneOf (m ((c : Thread nD τ).loc main_arg6))) :=
  (ops1_2_v38 (W10 m ρ c)).trans (by rw [W10_arg4 m ρ c, W10_v37 m ρ c])
private theorem W11_v36 : W11 m ρ c (Proc.devRef .tc main_v36) = maskOf (m ((c : Thread nD τ).loc main_arg6)) :=
  ((k11_v36 m ρ c).trans (k10_v36 m ρ c)).trans (W9_v36 m ρ c)
private theorem W12_v51 : W12 m ρ c (Proc.devRef .tc main_v51)
    = meanOf (F := F) (m ((c : Thread nD τ).loc main_arg4)) (m ((c : Thread nD τ).loc main_arg6)) :=
  (ops1_3_v51 (W11 m ρ c)).trans (by rw [W11_v38 m ρ c, W11_v36 m ρ c, meanOf_eq])

/-! ## The different-neighbour list, boundary by boundary -/

private theorem W12_v53 : W12 m ρ c (Proc.devRef .tc main_v53) = maskOf (m ((c : Thread nD τ).loc main_arg7)) :=
  (ops1_3_v53 (W11 m ρ c)).trans (by rw [W11_arg7 m ρ c])
private theorem W12_c14 : W12 m ρ c (Proc.devRef .tc main_c_14) = constantI S_ 32 0#32 := ops1_3_c14 (W11 m ρ c)
private theorem W13_v54 : W13 m ρ c (Proc.devRef .tc main_v54) = saneOf (m ((c : Thread nD τ).loc main_arg7)) :=
  (ops1_4_v54 (W12 m ρ c)).trans (by rw [W12_v53 m ρ c, W12_arg7 m ρ c, W12_c14 m ρ c]; rfl)
private theorem W14_v55 : W14 m ρ c (Proc.devRef .tc main_v55)
    = takeFrom (F := F) (m ((c : Thread nD τ).loc main_arg4)) (saneOf (m ((c : Thread nD τ).loc main_arg7))) :=
  (ops1_5_v55 (W13 m ρ c)).trans (by rw [W13_arg4 m ρ c, W13_v54 m ρ c])
private theorem W14_v53 : W14 m ρ c (Proc.devRef .tc main_v53) = maskOf (m ((c : Thread nD τ).loc main_arg7)) :=
  ((k14_v53 m ρ c).trans (k13_v53 m ρ c)).trans (W12_v53 m ρ c)

end Chain

/-! ## The two neighbour means at region 1's entry -/

/-- Window 2's array: the mean over the same-neighbour list. -/
theorem W15_v51 (c : Dev nD) : W15 m ρ c (Proc.devRef .tc main_v51)
    = meanOf (F := F) (m ((c : Thread nD τ).loc main_arg4)) (m ((c : Thread nD τ).loc main_arg6)) :=
  ((k15_v51 m ρ c).trans ((k14_v51 m ρ c).trans (k13_v51 m ρ c))).trans (W12_v51 m ρ c)

/-- Window 3's array: the mean over the different-neighbour list. -/
theorem W15_v68 (c : Dev nD) : W15 m ρ c (Proc.devRef .tc main_v68)
    = meanOf (F := F) (m ((c : Thread nD τ).loc main_arg4)) (m ((c : Thread nD τ).loc main_arg7)) :=
  (ops1_6_v68 (W14 m ρ c)).trans (by rw [W14_v55 m ρ c, W14_v53 m ρ c, meanOf_eq])

/-! ## The two result buffers at the return -/

/-- The first result is what region 0's write-backs left: nothing after region 0 writes it. -/
theorem W16_v34 (c : Dev nD) : W16 m ρ c (Proc.devRef .tc main_v34) = (dat0 (V7 m ρ) c).arrAt 8 cfg0.N :=
  (W16_of_ne m ρ c main_v34 (by decide)).trans ((k15_v34 m ρ c).trans ((k14_v34 m ρ c).trans ((k13_v34 m ρ c).trans
    ((k12_v34 m ρ c).trans ((k11_v34 m ρ c).trans ((k10_v34 m ρ c).trans ((k9_v34 m ρ c).trans (W8_arr m ρ c 8))))))))

/-- The second result is what region 1's write-backs left. -/
theorem W16_v69 (c : Dev nD) : W16 m ρ c (Proc.devRef .tc main_v69) = (dat1 (V15 m ρ) c).arrAt 8 cfg1.N :=
  W16_arr m ρ c 8

end Cert.KernelIdeal.Fold1

end
-- ==== Proof.KBody.lean ====
/-
  The fused body's arithmetic read at one entry: row p of the four row operands against column q of the four
  projections, summed, clipped below at zero.
-/
import proofs.«428115_j27058293965314_4_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-! ## The narrow product (contraction over 12): operand indices axis by axis -/

private theorem lhs_n_0 (i : S2000x128.Idx) (q : dot_S2000x12_S12x128_S2000x128_1_0_0_1_n_n.contr.Idx) :
    (dot_S2000x12_S12x128_S2000x128_1_0_0_1_n_n.lhsIdx i q 0).val = (i 0).val := by
  unfold DotDims.lhsIdx
  rw [dif_neg (show ¬(0 : Fin S2000x12.rank) ∈ dot_S2000x12_S12x128_S2000x128_1_0_0_1_n_n.lhsBatch by decide), dif_pos (show (0 : Fin S2000x12.rank) ∈ dot_S2000x12_S12x128_S2000x128_1_0_0_1_n_n.lhsNonContracting by decide)]
  rfl
private theorem lhs_n_1 (i : S2000x128.Idx) (q : dot_S2000x12_S12x128_S2000x128_1_0_0_1_n_n.contr.Idx) :
    (dot_S2000x12_S12x128_S2000x128_1_0_0_1_n_n.lhsIdx i q 1).val = (q ⟨0, by decide⟩).val :=
  dot_S2000x12_S12x128_S2000x128_1_0_0_1_n_n.lhsIdx_val_of_single rfl i q
private theorem rhs_n_0 (i : S2000x128.Idx) (q : dot_S2000x12_S12x128_S2000x128_1_0_0_1_n_n.contr.Idx) :
    (dot_S2000x12_S12x128_S2000x128_1_0_0_1_n_n.rhsIdx i q 0).val = (q ⟨0, by decide⟩).val :=
  dot_S2000x12_S12x128_S2000x128_1_0_0_1_n_n.rhsIdx_val_of_single rfl i q
private theorem rhs_n_1 (i : S2000x128.Idx) (q : dot_S2000x12_S12x128_S2000x128_1_0_0_1_n_n.contr.Idx) :
    (dot_S2000x12_S12x128_S2000x128_1_0_0_1_n_n.rhsIdx i q 1).val = (i 1).val := by
  unfold DotDims.rhsIdx
  rw [dif_neg (show ¬(1 : Fin S12x128.rank) ∈ dot_S2000x12_S12x128_S2000x128_1_0_0_1_n_n.rhsBatch by decide), dif_pos (show (1 : Fin S12x128.rank) ∈ dot_S2000x12_S12x128_S2000x128_1_0_0_1_n_n.rhsNonContracting by decide)]
  rfl

/-- The narrow product into the zero accumulator at (p, q): the sum over the 12 shared coordinates. -/
private theorem mm_n_apply {φ₁ φ₂ : FTy} (x : FVec Ideal S2000x12 φ₁) (y : FVec Ideal S12x128 φ₂) (p : Fin 2000) (q : Fin 128) :
    (matmul (F := Ideal) dot_S2000x12_S12x128_S2000x128_1_0_0_1_n_n none x y (constant S2000x128 .f32 0x00000000#32) (ix2 p q) : EReal)
      = ∑ a : Fin 12, (x (ix2 p a) : EReal) * (y (ix2 a q) : EReal) := by
  simp only [matmul]
  rw [Ideal.matmul_constant_zero_apply, ← Equiv.sum_comp (contrEquiv1 dot_S2000x12_S12x128_S2000x128_1_0_0_1_n_n 12 rfl rfl).symm]
  refine Finset.sum_congr rfl fun k _ => ?_
  have hk := contrEquiv1_symm_val dot_S2000x12_S12x128_S2000x128_1_0_0_1_n_n 12 rfl rfl k
  have el : dot_S2000x12_S12x128_S2000x128_1_0_0_1_n_n.lhsIdx (ix2 p q) ((contrEquiv1 dot_S2000x12_S12x128_S2000x128_1_0_0_1_n_n 12 rfl rfl).symm k) = ix2 p k := funext fun a => Fin.ext (by
    match a with
    | ⟨0, _⟩ => exact lhs_n_0 _ _
    | ⟨1, _⟩ => exact (lhs_n_1 _ _).trans hk)
  have er : dot_S2000x12_S12x128_S2000x128_1_0_0_1_n_n.rhsIdx (ix2 p q) ((contrEquiv1 dot_S2000x12_S12x128_S2000x128_1_0_0_1_n_n 12 rfl rfl).symm k) = ix2 k q := funext fun a => Fin.ext (by
    match a with
    | ⟨0, _⟩ => exact (rhs_n_0 _ _).trans hk
    | ⟨1, _⟩ => exact rhs_n_1 _ _)
  rw [el, er]

/-! ## The wide product (contraction over 1024): operand indices axis by axis -/

private theorem lhs_w_0 (i : S2000x128.Idx) (q : dot_S2000x1024_S1024x128_S2000x128_1_0_0_1_n_n.contr.Idx) :
    (dot_S2000x1024_S1024x128_S2000x128_1_0_0_1_n_n.lhsIdx i q 0).val = (i 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
private theorem lhs_w_1 (i : S2000x128.Idx) (q : dot_S2000x1024_S1024x128_S2000x128_1_0_0_1_n_n.contr.Idx) :
    (dot_S2000x1024_S1024x128_S2000x128_1_0_0_1_n_n.lhsIdx i q 1).val = (q ⟨0, by decide⟩).val :=
  dot_S2000x1024_S1024x128_S2000x128_1_0_0_1_n_n.lhsIdx_val_of_single rfl i q
private theorem rhs_w_0 (i : S2000x128.Idx) (q : dot_S2000x1024_S1024x128_S2000x128_1_0_0_1_n_n.contr.Idx) :
    (dot_S2000x1024_S1024x128_S2000x128_1_0_0_1_n_n.rhsIdx i q 0).val = (q ⟨0, by decide⟩).val :=
  dot_S2000x1024_S1024x128_S2000x128_1_0_0_1_n_n.rhsIdx_val_of_single rfl i q
private theorem rhs_w_1 (i : S2000x128.Idx) (q : dot_S2000x1024_S1024x128_S2000x128_1_0_0_1_n_n.contr.Idx) :
    (dot_S2000x1024_S1024x128_S2000x128_1_0_0_1_n_n.rhsIdx i q 1).val = (i 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl

/-- The wide product into the zero accumulator at (p, q): the sum over the 1024 shared coordinates. -/
private theorem mm_w_apply {φ₁ φ₂ : FTy} (x : FVec Ideal S2000x1024 φ₁) (y : FVec Ideal S1024x128 φ₂) (p : Fin 2000) (q : Fin 128) :
    (matmul (F := Ideal) dot_S2000x1024_S1024x128_S2000x128_1_0_0_1_n_n none x y (constant S2000x128 .f32 0x00000000#32) (ix2 p q) : EReal)
      = ∑ r : Fin 1024, (x (ix2 p r) : EReal) * (y (ix2 r q) : EReal) := by
  simp only [matmul]
  rw [Ideal.matmul_constant_zero_apply, ← Equiv.sum_comp (contrEquiv1 dot_S2000x1024_S1024x128_S2000x128_1_0_0_1_n_n 1024 rfl rfl).symm]
  refine Finset.sum_congr rfl fun k _ => ?_
  have hk := contrEquiv1_symm_val dot_S2000x1024_S1024x128_S2000x128_1_0_0_1_n_n 1024 rfl rfl k
  have el : dot_S2000x1024_S1024x128_S2000x128_1_0_0_1_n_n.lhsIdx (ix2 p q) ((contrEquiv1 dot_S2000x1024_S1024x128_S2000x128_1_0_0_1_n_n 1024 rfl rfl).symm k) = ix2 p k := funext fun a => Fin.ext (by
    match a with
    | ⟨0, _⟩ => exact lhs_w_0 _ _
    | ⟨1, _⟩ => exact (lhs_w_1 _ _).trans hk)
  have er : dot_S2000x1024_S1024x128_S2000x128_1_0_0_1_n_n.rhsIdx (ix2 p q) ((contrEquiv1 dot_S2000x1024_S1024x128_S2000x128_1_0_0_1_n_n 1024 rfl rfl).symm k) = ix2 k q := funext fun a => Fin.ext (by
    match a with
    | ⟨0, _⟩ => exact (rhs_w_0 _ _).trans hk
    | ⟨1, _⟩ => exact rhs_w_1 _ _)
  rw [el, er]

/-- Region 0's stored value at (p, q). -/
theorem pay0_apply (v0 : Vec Ideal S2000x12 .f32) (v1 : Vec Ideal S12x128 .f32) (v3 : Vec Ideal S2000x1024 .f32)
    (v5 : Vec Ideal S1024x128 .f32) (v8 v10 : Vec Ideal S2000x12 .f32) (v12 v13 : Vec Ideal S12x128 .f32)
    (p : Fin 2000) (q : Fin 128) :
    (k0_pay1 (F := Ideal) v0 v1 v3 v5 v8 v10 v12 v13 (ix2 p q) : EReal)
      = max ((((∑ a : Fin 12, (v0 (ix2 p a) : EReal) * (v1 (ix2 a q) : EReal))
              + (∑ r : Fin 1024, (v3 (ix2 p r) : EReal) * (v5 (ix2 r q) : EReal)))
              + (∑ a : Fin 12, (v8 (ix2 p a) : EReal) * (v12 (ix2 a q) : EReal)))
              + (∑ a : Fin 12, (v10 (ix2 p a) : EReal) * (v13 (ix2 a q) : EReal)))
          (Ideal.ofBits .f32 0x00000000#32) := by
  unfold k0_pay1
  rw [shapeCast_self, shapeCast_self, maximumf_apply, addf_apply, addf_apply, addf_apply, mm_n_apply v0 v1,
    mm_w_apply, mm_n_apply v8 v12, mm_n_apply v10 v13]
  rfl

/-- Region 1's stored value at (p, q): the same body. -/
theorem pay1_apply (v0 : Vec Ideal S2000x12 .f32) (v1 : Vec Ideal S12x128 .f32) (v3 : Vec Ideal S2000x1024 .f32)
    (v5 : Vec Ideal S1024x128 .f32) (v8 v10 : Vec Ideal S2000x12 .f32) (v12 v13 : Vec Ideal S12x128 .f32)
    (p : Fin 2000) (q : Fin 128) :
    (k1_pay1 (F := Ideal) v0 v1 v3 v5 v8 v10 v12 v13 (ix2 p q) : EReal)
      = max ((((∑ a : Fin 12, (v0 (ix2 p a) : EReal) * (v1 (ix2 a q) : EReal))
              + (∑ r : Fin 1024, (v3 (ix2 p r) : EReal) * (v5 (ix2 r q) : EReal)))
              + (∑ a : Fin 12, (v8 (ix2 p a) : EReal) * (v12 (ix2 a q) : EReal)))
              + (∑ a : Fin 12, (v10 (ix2 p a) : EReal) * (v13 (ix2 a q) : EReal)))
          (Ideal.ofBits .f32 0x00000000#32) := by
  unfold k1_pay1
  rw [shapeCast_self, shapeCast_self, maximumf_apply, addf_apply, addf_apply, addf_apply, mm_n_apply v0 v1,
    mm_w_apply, mm_n_apply v8 v12, mm_n_apply v10 v13]
  rfl

end Cert.KernelIdeal.Body

end
-- ==== Proof.Spec.lean ====
/-
  The mathematics shared by the two programs, stated over the extended reals with no program in sight.

  One protein's layer is, at row n and filter f,
      relu( atoms[n]·Wv[:,f] + residues[n]·Wr[:,f] + agg(same)[n,f] + agg(diff)[n,f] ),
  where agg is a masked mean over the ten neighbour slots of row n. A slot holds a 32-bit index word v; the slot is
  VALID when v, read signed, exceeds −1, and its weight is 1 when valid and 0 otherwise. The two programs differ in
  where the projection by W sits:
    • the kernel first averages the RAW atom rows (twelve numbers) over the valid slots and then projects the mean;
    • the reference first projects every atom row (128 numbers) and then averages the projected rows.
  They also differ in how a slot's row is fetched. The kernel replaces an invalid word by 0, wraps negatives by
  +100000, tests 0 ≤ u ≤ 99999 and puts the NaN pattern where the test fails; the reference only wraps, and the
  gather clamps the start row to [0, 99999]. On a valid slot whose word is below 100000 both fetch row v; on an
  invalid slot both fetch SOME finite row and multiply it by weight 0. So for finite atoms and finite W, and every
  index word below 100000, the two layers agree: linearity of the finite sums and of division by the positive count.
-/
import Idealize.ShloMosaic.PureOps.Ideal
import Idealize.ShloMosaic.Lib.ValueIdx

noncomputable section

namespace Cert.Spec

open Idealize.ShloMosaic Idealize.ShloMosaic.ValueIdx

/-- Atom table, [100000, 12]. -/
abbrev SA : Shape := ⟨2, ![100000, 12]⟩
/-- Residue table, [100000, 1024]. -/
abbrev SR : Shape := ⟨2, ![100000, 1024]⟩
/-- Neighbour lists, [100000, 10]. -/
abbrev SI : Shape := ⟨2, ![100000, 10]⟩
/-- A 12 → 128 projection. -/
abbrev SW : Shape := ⟨2, ![12, 128]⟩
/-- The 1024 → 128 projection. -/
abbrev SWr : Shape := ⟨2, ![1024, 128]⟩

/-- The neighbour test on an index word: 1 iff the word, read signed, is greater than −1. -/
def valid (v : BitVec 32) : BitVec 1 := IntOp.cmpi .sgt v 4294967295#32

/-- A slot's weight: 1 for a valid neighbour, 0 otherwise. -/
def wt (v : BitVec 32) : EReal := (((valid v).toNat : ℝ) : EReal)

/-- The row a gather reads at start word u: u read signed, clamped into [0, 99999]. -/
def row (u : BitVec 32) : Fin 100000 := ⟨min u.toInt.toNat 99999, by omega⟩

/-- The kernel's sanitised index: the word itself where valid, 0 elsewhere. -/
def safe (v : BitVec 32) : BitVec 32 := Scalar.select (valid v) v 0#32

/-- A negative index wrapped by the table's length. -/
def wrap (u : BitVec 32) : BitVec 32 := Scalar.select (IntOp.cmpi .slt u 0#32) (IntOp.addi u 100000#32) u

/-- The bounds test of a filling take: 0 ≤ u ≤ 99999, signed. -/
def inb (u : BitVec 32) : BitVec 1 := IntOp.andi (IntOp.cmpi .sge u 0#32) (IntOp.cmpi .sle u 99999#32)

/-- The divisor made of a count word: max(count, 1), signed, as a real. -/
def cntE (x : BitVec 32) : EReal := (((IntOp.maxsi x 1#32).toInt : ℝ) : EReal)

/-- What the kernel's slot contributes to column a of the raw-atom sum: the fetched atom entry (or the NaN pattern
    where the bounds test fails) times the slot's weight. -/
def slotK (A : SA.Idx → EReal) (v : BitVec 32) (a : Fin 12) : EReal :=
  Scalar.select (inb (wrap (safe v))) (A (ix2 (row (wrap (safe v))) a)) (Ideal.ofBits .f32 0x7FC00000#32) * wt v

/-- The kernel's masked mean of raw atom rows at (n, a), over the count word cw of row n. -/
def meanK (A : SA.Idx → EReal) (I : SI.Idx → BitVec 32) (cw : BitVec 32) (n : Fin 100000) (a : Fin 12) : EReal :=
  Ideal.div (Ideal.ofBits .f32 0x00000000#32 + ∑ k : Fin 10, slotK A (I (ix2 n k)) a) (cntE cw)

/-- The fused kernel's output at (n, f) from the four row operands and the four projections. -/
def outK (A : SA.Idx → EReal) (R : SR.Idx → EReal) (SM DM : SA.Idx → EReal)
    (Wv : SW.Idx → EReal) (Wr : SWr.Idx → EReal) (Wsr Wdr : SW.Idx → EReal) (n : Fin 100000) (f : Fin 128) : EReal :=
  max ((((∑ a : Fin 12, A (ix2 n a) * Wv (ix2 a f)) + (∑ r : Fin 1024, R (ix2 n r) * Wr (ix2 r f)))
        + (∑ a : Fin 12, SM (ix2 n a) * Wsr (ix2 a f))) + (∑ a : Fin 12, DM (ix2 n a) * Wdr (ix2 a f)))
    (Ideal.ofBits .f32 0x00000000#32)

/-- The reference's masked mean of PROJECTED atom rows at (n, f), over the count word cw of row n. -/
def aggR (A : SA.Idx → EReal) (W : SW.Idx → EReal) (I : SI.Idx → BitVec 32) (cw : BitVec 32)
    (n : Fin 100000) (f : Fin 128) : EReal :=
  Ideal.div (Ideal.ofBits .f32 0x00000000#32
      + ∑ k : Fin 10, (∑ a : Fin 12, A (ix2 (row (wrap (I (ix2 n k)))) a) * W (ix2 a f)) * wt (I (ix2 n k)))
    (cntE cw)

/-- The reference layer's output at (n, f). -/
def outR (A : SA.Idx → EReal) (R : SR.Idx → EReal) (I J : SI.Idx → BitVec 32) (cwI cwJ : BitVec 32)
    (Wv : SW.Idx → EReal) (Wr : SWr.Idx → EReal) (Wsr Wdr : SW.Idx → EReal) (n : Fin 100000) (f : Fin 128) : EReal :=
  max ((((∑ a : Fin 12, A (ix2 n a) * Wv (ix2 a f)) + (∑ r : Fin 1024, R (ix2 n r) * Wr (ix2 r f)))
        + aggR A Wsr I cwI n f) + aggR A Wdr J cwJ n f)
    (Ideal.ofBits .f32 0x00000000#32)

end Cert.Spec

end
-- ==== Proof.KBlocks0.lean ====
/-
  Region 0: from what each grid point writes back to the whole result array. The grid has 50 points; point t stages
  rows [2000·t, 2000·t + 2000) of the four row operands (atoms, residues, the two neighbour means), the four projections
  whole, and writes back rows [2000·t, 2000·t + 2000) of the result. Every row lies in exactly the block of point
  row / 2000, so the result array ends holding the layer's function of the arrays the region finds, entry by entry.
-/
import proofs.«428115_j27058293965314_4_alg».proof.Proof.Gen.KernelIdeal.Frame
import proofs.«428115_j27058293965314_4_alg».proof.Proof.KBody
import proofs.«428115_j27058293965314_4_alg».proof.Proof.Spec
import Idealize.ShloMosaic.Lib.Pipeline.Value
import Idealize.ShloMosaic.Lib.ValueIdx

set_option maxRecDepth 16384

noncomputable section

namespace Cert.KernelIdeal.Blocks0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin_zero : (![0, 0] : Fin 2 → Nat) = fun _ => 0 := funext fun a => by fin_cases a <;> rfl

/-- The layer as one function of the arrays the region finds: entry (n, f) of the result. -/
def layer (c : Dev nD) : S100000x128.Idx → EReal := fun i =>
  Cert.Spec.outK (V c main_arg0) (V c main_arg1) (V c main_v16) (V c main_v33) (V c main_arg8) (V c main_arg9) (V c main_arg10) (V c main_arg11)
    ⟨(i 0).val, idx2_lt0 i⟩ ⟨(i 1).val, idx2_lt1 i⟩

/-- The printed index maps over the grid: a row window's block index is (t, 0), a projection's is (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 50 := by
  have h := t.isLt
  have hN : cfg0.N = 50 := N_0
  omega

/-- Row p of point t's atom block is row 2000·t + p of the atom table. -/
theorem rows_0 (c : Dev nD) (t : Fin cfg0.N) (p : Fin 2000) (a : Fin 12) (h : t.val * 2000 + p.val < 100000) :
    iblk0 V c 0 t (ix2 p a) = V c main_arg0 (ix2 (⟨t.val * 2000 + p.val, h⟩ : Fin 100000) a) := by
  show V c main_arg0 (((cfg0.win 0).blk t).view.emb (ix2 p a)) = _
  congr 1; funext d; apply Fin.ext
  obtain ⟨e00, e01, -⟩ := index_facts t
  match d with
  | ⟨0, _⟩ => show win0_0.index t (0 : Fin 2) * 2000 + 1 * p.val = t.val * 2000 + p.val; omega
  | ⟨1, _⟩ => show win0_0.index t (1 : Fin 2) * 12 + 1 * a.val = a.val; omega

/-- Row p of point t's residue block is row 2000·t + p of the residue table. -/
theorem rows_1 (c : Dev nD) (t : Fin cfg0.N) (p : Fin 2000) (r : Fin 1024) (h : t.val * 2000 + p.val < 100000) :
    iblk0 V c 1 t (ix2 p r) = V c main_arg1 (ix2 (⟨t.val * 2000 + p.val, h⟩ : Fin 100000) r) := by
  show V c main_arg1 (((cfg0.win 1).blk t).view.emb (ix2 p r)) = _
  congr 1; funext d; apply Fin.ext
  obtain ⟨-, -, e10, e11, -⟩ := index_facts t
  match d with
  | ⟨0, _⟩ => show win0_1.index t (0 : Fin 2) * 2000 + 1 * p.val = t.val * 2000 + p.val; omega
  | ⟨1, _⟩ => show win0_1.index t (1 : Fin 2) * 1024 + 1 * r.val = r.val; omega

/-- Row p of point t's block of the first neighbour mean is row 2000·t + p of that mean. -/
theorem rows_2 (c : Dev nD) (t : Fin cfg0.N) (p : Fin 2000) (a : Fin 12) (h : t.val * 2000 + p.val < 100000) :
    iblk0 V c 2 t (ix2 p a) = V c main_v16 (ix2 (⟨t.val * 2000 + p.val, h⟩ : Fin 100000) a) := by
  show V c main_v16 (((cfg0.win 2).blk t).view.emb (ix2 p a)) = _
  congr 1; funext d; apply Fin.ext
  obtain ⟨-, -, -, -, e20, e21, -⟩ := index_facts t
  match d with
  | ⟨0, _⟩ => show win0_2.index t (0 : Fin 2) * 2000 + 1 * p.val = t.val * 2000 + p.val; omega
  | ⟨1, _⟩ => show win0_2.index t (1 : Fin 2) * 12 + 1 * a.val = a.val; omega

/-- Row p of point t's block of the second neighbour mean is row 2000·t + p of that mean. -/
theorem rows_3 (c : Dev nD) (t : Fin cfg0.N) (p : Fin 2000) (a : Fin 12) (h : t.val * 2000 + p.val < 100000) :
    iblk0 V c 3 t (ix2 p a) = V c main_v33 (ix2 (⟨t.val * 2000 + p.val, h⟩ : Fin 100000) a) := by
  show V c main_v33 (((cfg0.win 3).blk t).view.emb (ix2 p a)) = _
  congr 1; funext d; apply Fin.ext
  obtain ⟨-, -, -, -, -, -, e30, e31, -⟩ := index_facts t
  match d with
  | ⟨0, _⟩ => show win0_3.index t (0 : Fin 2) * 2000 + 1 * p.val = t.val * 2000 + p.val; omega
  | ⟨1, _⟩ => show win0_3.index t (1 : Fin 2) * 12 + 1 * a.val = a.val; omega

/-- A projection is staged whole at every point. -/
theorem whole_4 (c : Dev nD) (t : Fin cfg0.N) (a : Fin 12) (q : Fin 128) :
    iblk0 V c 4 t (ix2 a q) = V c main_arg8 (ix2 a q) := by
  show V c main_arg8 (((cfg0.win 4).blk t).view.emb (ix2 a q)) = _
  congr 1; funext d; apply Fin.ext
  obtain ⟨-, -, -, -, -, -, -, -, e40, e41, -⟩ := index_facts t
  match d with
  | ⟨0, _⟩ => show win0_4.index t (0 : Fin 2) * 12 + 1 * a.val = a.val; omega
  | ⟨1, _⟩ => show win0_4.index t (1 : Fin 2) * 128 + 1 * q.val = q.val; omega

theorem whole_5 (c : Dev nD) (t : Fin cfg0.N) (r : Fin 1024) (q : Fin 128) :
    iblk0 V c 5 t (ix2 r q) = V c main_arg9 (ix2 r q) := by
  show V c main_arg9 (((cfg0.win 5).blk t).view.emb (ix2 r q)) = _
  congr 1; funext d; apply Fin.ext
  obtain ⟨-, -, -, -, -, -, -, -, -, -, e50, e51, -⟩ := index_facts t
  match d with
  | ⟨0, _⟩ => show win0_5.index t (0 : Fin 2) * 1024 + 1 * r.val = r.val; omega
  | ⟨1, _⟩ => show win0_5.index t (1 : Fin 2) * 128 + 1 * q.val = q.val; omega

theorem whole_6 (c : Dev nD) (t : Fin cfg0.N) (a : Fin 12) (q : Fin 128) :
    iblk0 V c 6 t (ix2 a q) = V c main_arg10 (ix2 a q) := by
  show V c main_arg10 (((cfg0.win 6).blk t).view.emb (ix2 a q)) = _
  congr 1; funext d; apply Fin.ext
  obtain ⟨-, -, -, -, -, -, -, -, -, -, -, -, e60, e61, -⟩ := index_facts t
  match d with
  | ⟨0, _⟩ => show win0_6.index t (0 : Fin 2) * 12 + 1 * a.val = a.val; omega
  | ⟨1, _⟩ => show win0_6.index t (1 : Fin 2) * 128 + 1 * q.val = q.val; omega

theorem whole_7 (c : Dev nD) (t : Fin cfg0.N) (a : Fin 12) (q : Fin 128) :
    iblk0 V c 7 t (ix2 a q) = V c main_arg11 (ix2 a q) := by
  show V c main_arg11 (((cfg0.win 7).blk t).view.emb (ix2 a q)) = _
  congr 1; funext d; apply Fin.ext
  obtain ⟨-, -, -, -, -, -, -, -, -, -, -, -, -, -, e70, e71, -⟩ := index_facts t
  match d with
  | ⟨0, _⟩ => show win0_7.index t (0 : Fin 2) * 12 + 1 * a.val = a.val; omega
  | ⟨1, _⟩ => show win0_7.index t (1 : Fin 2) * 128 + 1 * q.val = q.val; omega

/-- WHAT POINT t WRITES BACK is block t of the layer's function of the arrays the region finds. -/
theorem flushed_eq (c : Dev nD) (t : Fin cfg0.N) :
    (dat0 V c).flushed 8 t = ((cfg0.win 8).blk t).view.read (Elt Ideal) (layer V c) := by
  show (cfg0.win 8).cut (grid0.coords t) ((dat0 V c).after 8 t) = _
  rw [after0_8]
  unfold out0_8
  rw [View.canon_unit_zero origin_zero]
  simp only [View.ld_unit_zero (S := S2000x12) origin_zero, View.ld_unit_zero (S := S12x128) origin_zero,
    View.ld_unit_zero (S := S2000x1024) origin_zero, View.ld_unit_zero (S := S1024x128) origin_zero]
  funext y
  obtain ⟨p, q, rfl⟩ : ∃ (p : Fin 2000) (q : Fin 128), y = ix2 p q := ⟨y 0, y 1, eq_ix2 y⟩
  have ht := point_lt t
  have hp : t.val * 2000 + p.val < 100000 := by have := p.isLt; omega
  obtain ⟨-, -, -, -, -, -, -, -, -, -, -, -, -, -, -, -, e80, e81⟩ := index_facts t
  have hn : (⟨((((cfg0.win 8).blk t).view.emb (ix2 p q)) 0).val, idx2_lt0 _⟩ : Fin 100000) = ⟨t.val * 2000 + p.val, hp⟩ :=
    Fin.ext (by show win0_8.index t (0 : Fin 2) * 2000 + 1 * p.val = t.val * 2000 + p.val; omega)
  have hq : (⟨((((cfg0.win 8).blk t).view.emb (ix2 p q)) 1).val, idx2_lt1 _⟩ : Fin 128) = q :=
    Fin.ext (by show win0_8.index t (1 : Fin 2) * 128 + 1 * q.val = q.val; omega)
  show k0_pay1 (F := Ideal) (iblk0 V c 0 t) (iblk0 V c 4 t) (iblk0 V c 1 t) (iblk0 V c 5 t) (iblk0 V c 2 t) (iblk0 V c 3 t) (iblk0 V c 6 t) (iblk0 V c 7 t) (ix2 p q)
    = layer V c (((cfg0.win 8).blk t).view.emb (ix2 p q))
  refine (Body.pay0_apply _ _ _ _ _ _ _ _ p q).trans ?_
  unfold layer Cert.Spec.outK
  rw [hn, hq]
  simp only [rows_0 V c t p _ hp, rows_1 V c t p _ hp, rows_2 V c t p _ hp, rows_3 V c t p _ hp, whole_4 V c t, whole_5 V c t, whole_6 V c t, whole_7 V c t]

/-- An index of the result is in point t's block iff its row is among the block's 2000 rows. -/
theorem mem_block (t : Fin cfg0.N) (i : S100000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v34).slice (win0_8.rect t)).set ↔ _
  rw [View.set_slice_whole, Rect.mem_set_unit]
  exact Iff.rfl

/-- Every index of the result is in the block of the point row / 2000. -/
theorem covered (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 50 := N_0
  refine ⟨⟨(i 0).val / 2000, by omega⟩, flush0_8 _, ?_⟩
  rw [mem_block]
  obtain ⟨-, -, -, -, -, -, -, -, -, -, -, -, -, -, -, -, e80, e81⟩ := index_facts ⟨(i 0).val / 2000, by omega⟩
  intro a
  match a with
  | ⟨0, _⟩ =>
    show win0_8.index ⟨(i 0).val / 2000, _⟩ (0 : Fin 2) * 2000 ≤ (i 0).val ∧ (i 0).val < win0_8.index ⟨(i 0).val / 2000, _⟩ (0 : Fin 2) * 2000 + 2000
    rw [e80]; show (i 0).val / 2000 * 2000 ≤ (i 0).val ∧ (i 0).val < (i 0).val / 2000 * 2000 + 2000; omega
  | ⟨1, _⟩ =>
    show win0_8.index ⟨(i 0).val / 2000, _⟩ (1 : Fin 2) * 128 ≤ (i 1).val ∧ (i 1).val < win0_8.index ⟨(i 0).val / 2000, _⟩ (1 : Fin 2) * 128 + 128
    rw [e81]; omega

/-- THE RESULT ARRAY after the region: the layer's function of the arrays the region finds. -/
theorem final (c : Dev nD) : (dat0 V c).arrAt 8 cfg0.N = layer V c :=
  (dat0 V c).arrAt_eq_of_cover 8 (layer V c) (fun t _ => flushed_eq V c t) covered

end Cert.KernelIdeal.Blocks0

end
-- ==== Proof.KBlocks1.lean ====
/-
  Region 1: from what each grid point writes back to the whole result array. The grid has 50 points; point t stages
  rows [2000·t, 2000·t + 2000) of the four row operands (atoms, residues, the two neighbour means), the four projections
  whole, and writes back rows [2000·t, 2000·t + 2000) of the result. Every row lies in exactly the block of point
  row / 2000, so the result array ends holding the layer's function of the arrays the region finds, entry by entry.
-/
import proofs.«428115_j27058293965314_4_alg».proof.Proof.Gen.KernelIdeal.Frame
import proofs.«428115_j27058293965314_4_alg».proof.Proof.KBody
import proofs.«428115_j27058293965314_4_alg».proof.Proof.Spec
import Idealize.ShloMosaic.Lib.Pipeline.Value
import Idealize.ShloMosaic.Lib.ValueIdx

set_option maxRecDepth 16384

noncomputable section

namespace Cert.KernelIdeal.Blocks1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin_zero : (![0, 0] : Fin 2 → Nat) = fun _ => 0 := funext fun a => by fin_cases a <;> rfl

/-- The layer as one function of the arrays the region finds: entry (n, f) of the result. -/
def layer (c : Dev nD) : S100000x128.Idx → EReal := fun i =>
  Cert.Spec.outK (V c main_arg4) (V c main_arg5) (V c main_v51) (V c main_v68) (V c main_arg8) (V c main_arg9) (V c main_arg10) (V c main_arg11)
    ⟨(i 0).val, idx2_lt0 i⟩ ⟨(i 1).val, idx2_lt1 i⟩

/-- The printed index maps over the grid: a row window's block index is (t, 0), a projection's is (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem point_lt (t : Fin cfg1.N) : t.val < 50 := by
  have h := t.isLt
  have hN : cfg1.N = 50 := N_1
  omega

/-- Row p of point t's atom block is row 2000·t + p of the atom table. -/
theorem rows_0 (c : Dev nD) (t : Fin cfg1.N) (p : Fin 2000) (a : Fin 12) (h : t.val * 2000 + p.val < 100000) :
    iblk1 V c 0 t (ix2 p a) = V c main_arg4 (ix2 (⟨t.val * 2000 + p.val, h⟩ : Fin 100000) a) := by
  show V c main_arg4 (((cfg1.win 0).blk t).view.emb (ix2 p a)) = _
  congr 1; funext d; apply Fin.ext
  obtain ⟨e00, e01, -⟩ := index_facts t
  match d with
  | ⟨0, _⟩ => show win1_0.index t (0 : Fin 2) * 2000 + 1 * p.val = t.val * 2000 + p.val; omega
  | ⟨1, _⟩ => show win1_0.index t (1 : Fin 2) * 12 + 1 * a.val = a.val; omega

/-- Row p of point t's residue block is row 2000·t + p of the residue table. -/
theorem rows_1 (c : Dev nD) (t : Fin cfg1.N) (p : Fin 2000) (r : Fin 1024) (h : t.val * 2000 + p.val < 100000) :
    iblk1 V c 1 t (ix2 p r) = V c main_arg5 (ix2 (⟨t.val * 2000 + p.val, h⟩ : Fin 100000) r) := by
  show V c main_arg5 (((cfg1.win 1).blk t).view.emb (ix2 p r)) = _
  congr 1; funext d; apply Fin.ext
  obtain ⟨-, -, e10, e11, -⟩ := index_facts t
  match d with
  | ⟨0, _⟩ => show win1_1.index t (0 : Fin 2) * 2000 + 1 * p.val = t.val * 2000 + p.val; omega
  | ⟨1, _⟩ => show win1_1.index t (1 : Fin 2) * 1024 + 1 * r.val = r.val; omega

/-- Row p of point t's block of the first neighbour mean is row 2000·t + p of that mean. -/
theorem rows_2 (c : Dev nD) (t : Fin cfg1.N) (p : Fin 2000) (a : Fin 12) (h : t.val * 2000 + p.val < 100000) :
    iblk1 V c 2 t (ix2 p a) = V c main_v51 (ix2 (⟨t.val * 2000 + p.val, h⟩ : Fin 100000) a) := by
  show V c main_v51 (((cfg1.win 2).blk t).view.emb (ix2 p a)) = _
  congr 1; funext d; apply Fin.ext
  obtain ⟨-, -, -, -, e20, e21, -⟩ := index_facts t
  match d with
  | ⟨0, _⟩ => show win1_2.index t (0 : Fin 2) * 2000 + 1 * p.val = t.val * 2000 + p.val; omega
  | ⟨1, _⟩ => show win1_2.index t (1 : Fin 2) * 12 + 1 * a.val = a.val; omega

/-- Row p of point t's block of the second neighbour mean is row 2000·t + p of that mean. -/
theorem rows_3 (c : Dev nD) (t : Fin cfg1.N) (p : Fin 2000) (a : Fin 12) (h : t.val * 2000 + p.val < 100000) :
    iblk1 V c 3 t (ix2 p a) = V c main_v68 (ix2 (⟨t.val * 2000 + p.val, h⟩ : Fin 100000) a) := by
  show V c main_v68 (((cfg1.win 3).blk t).view.emb (ix2 p a)) = _
  congr 1; funext d; apply Fin.ext
  obtain ⟨-, -, -, -, -, -, e30, e31, -⟩ := index_facts t
  match d with
  | ⟨0, _⟩ => show win1_3.index t (0 : Fin 2) * 2000 + 1 * p.val = t.val * 2000 + p.val; omega
  | ⟨1, _⟩ => show win1_3.index t (1 : Fin 2) * 12 + 1 * a.val = a.val; omega

/-- A projection is staged whole at every point. -/
theorem whole_4 (c : Dev nD) (t : Fin cfg1.N) (a : Fin 12) (q : Fin 128) :
    iblk1 V c 4 t (ix2 a q) = V c main_arg8 (ix2 a q) := by
  show V c main_arg8 (((cfg1.win 4).blk t).view.emb (ix2 a q)) = _
  congr 1; funext d; apply Fin.ext
  obtain ⟨-, -, -, -, -, -, -, -, e40, e41, -⟩ := index_facts t
  match d with
  | ⟨0, _⟩ => show win1_4.index t (0 : Fin 2) * 12 + 1 * a.val = a.val; omega
  | ⟨1, _⟩ => show win1_4.index t (1 : Fin 2) * 128 + 1 * q.val = q.val; omega

theorem whole_5 (c : Dev nD) (t : Fin cfg1.N) (r : Fin 1024) (q : Fin 128) :
    iblk1 V c 5 t (ix2 r q) = V c main_arg9 (ix2 r q) := by
  show V c main_arg9 (((cfg1.win 5).blk t).view.emb (ix2 r q)) = _
  congr 1; funext d; apply Fin.ext
  obtain ⟨-, -, -, -, -, -, -, -, -, -, e50, e51, -⟩ := index_facts t
  match d with
  | ⟨0, _⟩ => show win1_5.index t (0 : Fin 2) * 1024 + 1 * r.val = r.val; omega
  | ⟨1, _⟩ => show win1_5.index t (1 : Fin 2) * 128 + 1 * q.val = q.val; omega

theorem whole_6 (c : Dev nD) (t : Fin cfg1.N) (a : Fin 12) (q : Fin 128) :
    iblk1 V c 6 t (ix2 a q) = V c main_arg10 (ix2 a q) := by
  show V c main_arg10 (((cfg1.win 6).blk t).view.emb (ix2 a q)) = _
  congr 1; funext d; apply Fin.ext
  obtain ⟨-, -, -, -, -, -, -, -, -, -, -, -, e60, e61, -⟩ := index_facts t
  match d with
  | ⟨0, _⟩ => show win1_6.index t (0 : Fin 2) * 12 + 1 * a.val = a.val; omega
  | ⟨1, _⟩ => show win1_6.index t (1 : Fin 2) * 128 + 1 * q.val = q.val; omega

theorem whole_7 (c : Dev nD) (t : Fin cfg1.N) (a : Fin 12) (q : Fin 128) :
    iblk1 V c 7 t (ix2 a q) = V c main_arg11 (ix2 a q) := by
  show V c main_arg11 (((cfg1.win 7).blk t).view.emb (ix2 a q)) = _
  congr 1; funext d; apply Fin.ext
  obtain ⟨-, -, -, -, -, -, -, -, -, -, -, -, -, -, e70, e71, -⟩ := index_facts t
  match d with
  | ⟨0, _⟩ => show win1_7.index t (0 : Fin 2) * 12 + 1 * a.val = a.val; omega
  | ⟨1, _⟩ => show win1_7.index t (1 : Fin 2) * 128 + 1 * q.val = q.val; omega

/-- WHAT POINT t WRITES BACK is block t of the layer's function of the arrays the region finds. -/
theorem flushed_eq (c : Dev nD) (t : Fin cfg1.N) :
    (dat1 V c).flushed 8 t = ((cfg1.win 8).blk t).view.read (Elt Ideal) (layer V c) := by
  show (cfg1.win 8).cut (grid1.coords t) ((dat1 V c).after 8 t) = _
  rw [after1_8]
  unfold out1_8
  rw [View.canon_unit_zero origin_zero]
  simp only [View.ld_unit_zero (S := S2000x12) origin_zero, View.ld_unit_zero (S := S12x128) origin_zero,
    View.ld_unit_zero (S := S2000x1024) origin_zero, View.ld_unit_zero (S := S1024x128) origin_zero]
  funext y
  obtain ⟨p, q, rfl⟩ : ∃ (p : Fin 2000) (q : Fin 128), y = ix2 p q := ⟨y 0, y 1, eq_ix2 y⟩
  have ht := point_lt t
  have hp : t.val * 2000 + p.val < 100000 := by have := p.isLt; omega
  obtain ⟨-, -, -, -, -, -, -, -, -, -, -, -, -, -, -, -, e80, e81⟩ := index_facts t
  have hn : (⟨((((cfg1.win 8).blk t).view.emb (ix2 p q)) 0).val, idx2_lt0 _⟩ : Fin 100000) = ⟨t.val * 2000 + p.val, hp⟩ :=
    Fin.ext (by show win1_8.index t (0 : Fin 2) * 2000 + 1 * p.val = t.val * 2000 + p.val; omega)
  have hq : (⟨((((cfg1.win 8).blk t).view.emb (ix2 p q)) 1).val, idx2_lt1 _⟩ : Fin 128) = q :=
    Fin.ext (by show win1_8.index t (1 : Fin 2) * 128 + 1 * q.val = q.val; omega)
  show k1_pay1 (F := Ideal) (iblk1 V c 0 t) (iblk1 V c 4 t) (iblk1 V c 1 t) (iblk1 V c 5 t) (iblk1 V c 2 t) (iblk1 V c 3 t) (iblk1 V c 6 t) (iblk1 V c 7 t) (ix2 p q)
    = layer V c (((cfg1.win 8).blk t).view.emb (ix2 p q))
  refine (Body.pay1_apply _ _ _ _ _ _ _ _ p q).trans ?_
  unfold layer Cert.Spec.outK
  rw [hn, hq]
  simp only [rows_0 V c t p _ hp, rows_1 V c t p _ hp, rows_2 V c t p _ hp, rows_3 V c t p _ hp, whole_4 V c t, whole_5 V c t, whole_6 V c t, whole_7 V c t]

/-- An index of the result is in point t's block iff its row is among the block's 2000 rows. -/
theorem mem_block (t : Fin cfg1.N) (i : S100000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v69).slice (win1_8.rect t)).set ↔ _
  rw [View.set_slice_whole, Rect.mem_set_unit]
  exact Iff.rfl

/-- Every index of the result is in the block of the point row / 2000. -/
theorem covered (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 50 := N_1
  refine ⟨⟨(i 0).val / 2000, by omega⟩, flush1_8 _, ?_⟩
  rw [mem_block]
  obtain ⟨-, -, -, -, -, -, -, -, -, -, -, -, -, -, -, -, e80, e81⟩ := index_facts ⟨(i 0).val / 2000, by omega⟩
  intro a
  match a with
  | ⟨0, _⟩ =>
    show win1_8.index ⟨(i 0).val / 2000, _⟩ (0 : Fin 2) * 2000 ≤ (i 0).val ∧ (i 0).val < win1_8.index ⟨(i 0).val / 2000, _⟩ (0 : Fin 2) * 2000 + 2000
    rw [e80]; show (i 0).val / 2000 * 2000 ≤ (i 0).val ∧ (i 0).val < (i 0).val / 2000 * 2000 + 2000; omega
  | ⟨1, _⟩ =>
    show win1_8.index ⟨(i 0).val / 2000, _⟩ (1 : Fin 2) * 128 ≤ (i 1).val ∧ (i 1).val < win1_8.index ⟨(i 0).val / 2000, _⟩ (1 : Fin 2) * 128 + 128
    rw [e81]; omega

/-- THE RESULT ARRAY after the region: the layer's function of the arrays the region finds. -/
theorem final (c : Dev nD) : (dat1 V c).arrAt 8 cfg1.N = layer V c :=
  (dat1 V c).arrAt_eq_of_cover 8 (layer V c) (fun t _ => flushed_eq V c t) covered

end Cert.KernelIdeal.Blocks1

end
-- ==== Proof.LibSlotGather.lean ====
/-
  THE SLOT GATHER READ AT AN INDEX. What `table[idx]` of a rank-2 table `table : [N, C]` at a rank-2 array of row
  indices `idx : [n, K]` lowers to: a `stablehlo.gather` with offset_dims `[2]`, collapsed_slice_dims `[0]`,
  start_index_map `[0]`, index_vector_dim `2` and slice_sizes `[1, C]`, over the indices kept as an `[n, K, 1]`
  column. Its result is `[n, K, C]`, and the element at `(p, k, q)` is the table's at `(row, q)`, where `row` is the
  start index `idx[p, k, 0]` read as a SIGNED integer and CLAMPED into `[0, N − 1]`.
-/
import Idealize.ShloMosaic.PureOps.Ideal
import Idealize.ShloMosaic.Lib.ValueIdx
noncomputable section
namespace Idealize.ShloMosaic.SlotGather
open Idealize.ShloMosaic Idealize.ShloMosaic.ValueIdx

/-- The dimension numbers of a row gather out of an [N, C] table at an [n, K, 1] column of row indices. -/
abbrev slotDims (N C n K : Nat)
    (wf : GatherDims.WF ⟨2, ![N, C]⟩ ⟨3, ![n, K, 1]⟩ ⟨3, ![n, K, C]⟩ [2] [0] [] [0] [] 2 ![1, C]) :
    GatherDims ⟨2, ![N, C]⟩ ⟨3, ![n, K, 1]⟩ ⟨3, ![n, K, C]⟩ where
  offsetDims := [2]
  collapsedSliceDims := [0]
  operandBatchingDims := []
  startIndicesBatchingDims := []
  startIndexMap := [0]
  indexVectorDim := 2
  sliceSizes := ![1, C]
  wf := wf

/-- The slot gather read at (p, k, q): the table at the clamped signed start index of slot (p, k), column q. -/
theorem slotGather_apply {α : Type} {N C n K w : Nat} (hN : 0 < N)
    (wf : GatherDims.WF ⟨2, ![N, C]⟩ ⟨3, ![n, K, 1]⟩ ⟨3, ![n, K, C]⟩ [2] [0] [] [0] [] 2 ![1, C])
    (x : (⟨2, ![N, C]⟩ : Shape).Idx → α) (idx : IVec ⟨3, ![n, K, 1]⟩ w) (p : Fin n) (k : Fin K) (q : Fin C) :
    Host.gather (slotDims N C n K wf) x idx (ix3 p k q)
      = x (ix2 (⟨min (idx (ix3 p k (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (slotDims N C n K wf).start (ix3 p k q) idx 0 + (slotDims N C n K wf).batchCoord (ix3 p k q) 0
        + (slotDims N C n K wf).offCoord (ix3 p k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (slotDims N C n K wf).startIndexMap from List.mem_singleton.mpr rfl)]
    -- the start index's one component is read at (p, k, 0): the result's batch coordinates p and k on the start
    -- indices' axes 0 and 1, the component's number 0 on the index vector's axis 2
    have hsi : (slotDims N C n K wf).siIdx (ix3 p k q) ⟨List.idxOf (0 : Fin 2) (slotDims N C n K wf).startIndexMap,
        List.idxOf_lt_length_iff.2 (List.mem_singleton.mpr rfl)⟩ = ix3 p k (0 : Fin 1) := by
      funext b; refine Fin.ext ?_
      match b with
      | ⟨0, _⟩ => rfl
      | ⟨1, _⟩ => rfl
      | ⟨2, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (slotDims N C n K wf).start (ix3 p k q) idx 1 + (slotDims N C n K wf).batchCoord (ix3 p k q) 1
        + (slotDims N C n K wf).offCoord (ix3 p k q) 1 = q.val
    have hk : (1 : Fin 2) ∈ (slotDims N C n K wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (slotDims N C n K wf).startIndexMap by
      show (1 : Fin 2) ∉ [(0 : Fin 2)]; decide), dif_pos hk]
    simp only [Nat.zero_add]
    rfl
end Idealize.ShloMosaic.SlotGather
end
-- ==== Proof.KMean.lean ====
/-
  The host mean read at one entry: the sum over the ten slots of the fetched atom entry times the slot's weight, over the
  row's count.
-/
import proofs.«428115_j27058293965314_4_alg».proof.Proof.KMeanDef
import proofs.«428115_j27058293965314_4_alg».proof.Proof.Spec
import proofs.«428115_j27058293965314_4_alg».proof.Proof.LibSlotGather
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.HostMean

open Cert.KernelIdeal Idealize.ShloMosaic Idealize.ShloMosaic.TcCoe Idealize.ShloMosaic.ValueIdx

section Reads

open Cert.KernelIdeal.Facts₀ Cert.KernelIdeal.Facts

/-! ### Layout steps read at an index -/

/-- A [100000, 10] array spread to a [100000, 10, 1] column reads, at (n, k, z), the array at (n, k). -/
private theorem bc_col {α : Type} (x : S100000x10.Idx → α) (n : Fin 100000) (k : Fin 10) (z : Fin 1) :
    broadcastInDim S100000x10x1 ![0, 1] bcast_S100000x10_S100000x10x1_0_1 x (ix3 n k z) = x (ix2 n k) :=
  broadcastInDim_apply _ _ x _ _ (fun a => match a with
    | ⟨0, _⟩ => by show n.val = if (100000 : Nat) = 1 then 0 else n.val; rw [if_neg (by decide)]
    | ⟨1, _⟩ => by show k.val = if (10 : Nat) = 1 then 0 else k.val; rw [if_neg (by decide)])

/-- A [100000, 10] array spread over the twelve columns reads, at (n, k, a), the array at (n, k). -/
private theorem bc_slot {α : Type} (x : S100000x10.Idx → α) (n : Fin 100000) (k : Fin 10) (a : Fin 12) :
    broadcastInDim S100000x10x12 ![0, 1] bcast_S100000x10_S100000x10x12_0_1 x (ix3 n k a) = x (ix2 n k) :=
  broadcastInDim_apply _ _ x _ _ (fun b => match b with
    | ⟨0, _⟩ => by show n.val = if (100000 : Nat) = 1 then 0 else n.val; rw [if_neg (by decide)]
    | ⟨1, _⟩ => by show k.val = if (10 : Nat) = 1 then 0 else k.val; rw [if_neg (by decide)])

/-- A [100000, 10, 1] column spread over the twelve columns reads, at (n, k, a), the column at (n, k, 0). -/
private theorem bc_wide {α : Type} (x : S100000x10x1.Idx → α) (n : Fin 100000) (k : Fin 10) (a : Fin 12) :
    broadcastInDim S100000x10x12 ![0, 1, 2] bcast_S100000x10x1_S100000x10x12_0_1_2 x (ix3 n k a)
      = x (ix3 n k (0 : Fin 1)) :=
  broadcastInDim_apply _ _ x _ _ (fun b => match b with
    | ⟨0, _⟩ => by show n.val = if (100000 : Nat) = 1 then 0 else n.val; rw [if_neg (by decide)]
    | ⟨1, _⟩ => by show k.val = if (10 : Nat) = 1 then 0 else k.val; rw [if_neg (by decide)]
    | ⟨2, _⟩ => by show 0 = if (1 : Nat) = 1 then 0 else a.val; rw [if_pos rfl])

/-! ### The start index, the bounds test, the divisor -/

/-- The start index of slot (n, k): the slot's word, sanitised, then wrapped. -/
private theorem startOf_apply (I : IVec S100000x10 32) (n : Fin 100000) (k : Fin 10) :
    startOf I (ix3 n k (0 : Fin 1)) = Cert.Spec.wrap (Cert.Spec.safe (I (ix2 n k))) := by
  unfold startOf
  rw [bc_col]
  rfl

/-- The divisor at (n, a): the count word of row n, at least 1, as a real. -/
private theorem divisor_apply (I : IVec S100000x10 32) (n : Fin 100000) (a : Fin 12) :
    (broadcastInDim S100000x12 ![0, 1] bcast_S100000x1_S100000x12_0_1 (sitofp (F := Ideal) .f32
      (maxsi (broadcastInDim S100000x1 ![0] bcast_S100000_S100000x1_0 (countOf I))
        (broadcastInDim S100000x1 ![] bcast_S_S100000x1 (constantI S_ 32 1#32))))) (ix2 n a)
      = Cert.Spec.cntE (countOf I (ix1 n)) := by
  rw [broadcastInDim_apply _ _ _ (ix2 n a) (ix2 n (0 : Fin 1)) (fun b => match b with
    | ⟨0, _⟩ => by show n.val = if (100000 : Nat) = 1 then 0 else n.val; rw [if_neg (by decide)]
    | ⟨1, _⟩ => by show 0 = if (1 : Nat) = 1 then 0 else a.val; rw [if_pos rfl])]
  show Cert.Spec.cntE (broadcastInDim S100000x1 ![0] bcast_S100000_S100000x1_0 (countOf I) (ix2 n (0 : Fin 1))) = _
  rw [broadcastInDim_apply _ _ _ (ix2 n (0 : Fin 1)) (ix1 n) (fun b => match b with
    | ⟨0, _⟩ => by show n.val = if (100000 : Nat) = 1 then 0 else n.val; rw [if_neg (by decide)])]

/-- A fold over the one coordinate of an axis of size one is one application of the operation. -/
private theorem fold_univ_one {α : Type} (op : α → α → α) [Std.Commutative op] [Std.Associative op] (b : α)
    (g : Fin 1 → α) : (Finset.univ : Finset (Fin 1)).fold op b g = op (g 0) b := by
  rw [show (Finset.univ : Finset (Fin 1)) = {0} from rfl]
  exact Finset.fold_singleton

/-- On one-bit words, "and" with 1 is the identity. -/
private theorem and_one_bit (b : BitVec 1) : IntOp.andi b 1#1 = b := by
  revert b; decide

private theorem red_d2 : Shape.Reduces S100000x10x1 [2] S100000x10 := by decide

/-- The bounds test of slot (n, k): the "and" over the size-one last axis, from 1, of the two comparisons of the
    start index — the test 0 ≤ u ≤ 99999 itself. -/
private theorem inBounds_apply (I : IVec S100000x10 32) (n : Fin 100000) (k : Fin 10) :
    inBoundsOf I (ix2 n k) = Cert.Spec.inb (startOf I (ix3 n k (0 : Fin 1))) := by
  unfold inBoundsOf
  rw [Host.reduce_eq_fold_single IntOp.andi _ _ reducesTo_S100000x10x1_S100000x10_d2 red_d2 h_S_ (ix2 n k)]
  refine (fold_univ_one IntOp.andi _ _).trans ?_
  have hl : red_d2.lift (ix2 n k) (0 : Fin 1) = ix3 n k (0 : Fin 1) :=
    funext fun d => Fin.ext (by match d with | ⟨0, _⟩ => rfl | ⟨1, _⟩ => rfl | ⟨2, _⟩ => rfl)
  show IntOp.andi (IntOp.andi (IntOp.cmpi .sge (startOf I (red_d2.lift (ix2 n k) (0 : Fin 1))) 0#32)
    (IntOp.cmpi .sle (startOf I (red_d2.lift (ix2 n k) (0 : Fin 1))) 99999#32)) 1#1 = _
  rw [and_one_bit, hl]
  rfl

/-! ### The taken rows and the weights -/

/-- The row gather at (n, k, a): the table at the clamped signed start index of slot (n, k), column a. -/
private theorem gather_apply (A : FVec Ideal S100000x12 .f32) (J : IVec S100000x10x1 32) (n : Fin 100000)
    (k : Fin 10) (a : Fin 12) :
    Host.gather gather_S100000x12_S100000x10x1_S100000x10x12_2_0_n_n_0_2_112 A J (ix3 n k a)
      = A (ix2 (Cert.Spec.row (J (ix3 n k (0 : Fin 1)))) a) := by
  show Host.gather (SlotGather.slotDims 100000 12 100000 10 _) A J (ix3 n k a) = _
  rw [SlotGather.slotGather_apply (by decide)]
  rfl

/-- The taken entry at (n, k, a): the fetched atom entry where the start index is in bounds, the NaN pattern elsewhere. -/
private theorem taken_apply (A : FVec Ideal S100000x12 .f32) (I : IVec S100000x10 32) (n : Fin 100000)
    (k : Fin 10) (a : Fin 12) :
    (takenOf (F := Ideal) A I (ix3 n k a) : EReal)
      = Scalar.select (Cert.Spec.inb (Cert.Spec.wrap (Cert.Spec.safe (I (ix2 n k)))))
          (A (ix2 (Cert.Spec.row (Cert.Spec.wrap (Cert.Spec.safe (I (ix2 n k))))) a))
          (Ideal.ofBits .f32 0x7FC00000#32) := by
  unfold takenOf
  rw [select_apply, bc_slot, gather_apply, inBounds_apply, startOf_apply]
  rfl

/-- The weight at (n, k, a): the mask bit of slot (n, k) as a real. -/
private theorem weight_apply (I : IVec S100000x10 32) (n : Fin 100000) (k : Fin 10) (a : Fin 12) :
    (broadcastInDim S100000x10x12 ![0, 1, 2] bcast_S100000x10x1_S100000x10x12_0_1_2
      (uitofp (F := Ideal) .f32 (broadcastInDim S100000x10x1 ![0, 1] bcast_S100000x10_S100000x10x1_0_1 (maskOf I)))
        (ix3 n k a) : EReal) = Cert.Spec.wt (I (ix2 n k)) := by
  rw [bc_wide]
  show FloatOps.uitofp (F := Ideal) .f32
    (broadcastInDim S100000x10x1 ![0, 1] bcast_S100000x10_S100000x10x1_0_1 (maskOf I) (ix3 n k (0 : Fin 1))) = _
  rw [bc_col]
  rfl

/-- The weighted taken entry at (n, k, a) is the slot's contribution to column a. -/
private theorem slot_apply (A : FVec Ideal S100000x12 .f32) (I : IVec S100000x10 32) (n : Fin 100000) (k : Fin 10)
    (a : Fin 12) :
    (mulf (takenOf (F := Ideal) A I)
        (broadcastInDim S100000x10x12 ![0, 1, 2] bcast_S100000x10x1_S100000x10x12_0_1_2
          (uitofp (F := Ideal) .f32
            (broadcastInDim S100000x10x1 ![0, 1] bcast_S100000x10_S100000x10x1_0_1 (maskOf I))))
        (ix3 n k a) : EReal)
      = Cert.Spec.slotK A (I (ix2 n k)) a := by
  rw [mulf_apply, taken_apply, weight_apply]
  rfl

/-! ### The sum over the ten slots, and the mean -/

private theorem red_d1 : Shape.Reduces S100000x10x12 [1] S100000x12 := by decide

/-- The sum over the slot axis of a [100000, 10, 12] array, from the zero pattern, at (n, a): the initial value plus
    the sum over k of the array at (n, k, a). -/
private theorem sum_apply (y : FVec Ideal S100000x10x12 .f32) (n : Fin 100000) (a : Fin 12) :
    (Host.reduceAdd y (constant (F := Ideal) S_ .f32 0x00000000#32) reducesTo_S100000x10x12_S100000x12_d1 h_S_
        (ix2 n a) : EReal)
      = Ideal.ofBits .f32 0x00000000#32 + ∑ k : Fin 10, y (ix3 n k a) := by
  rw [hostReduceAdd_apply, Ideal.hostReduceAdd_single reducesTo_S100000x10x12_S100000x12_d1 red_d1]
  refine congrArg (_ + ·) (Finset.sum_congr rfl fun k _ => ?_)
  exact congrArg y (funext fun d => Fin.ext (by match d with | ⟨0, _⟩ => rfl | ⟨1, _⟩ => rfl | ⟨2, _⟩ => rfl))

end Reads

/-- The mean at (n, a), slot by slot. -/
theorem meanOf_apply (A : FVec Ideal S100000x12 .f32) (I : IVec S100000x10 32) (n : Fin 100000) (a : Fin 12) :
    (meanOf (F := Ideal) A I (ix2 n a) : EReal) = Cert.Spec.meanK A I (countOf I (ix1 n)) n a := by
  unfold meanOf Cert.Spec.meanK
  rw [hostDivf_apply, divisor_apply, sum_apply]
  exact congrArg (fun s : EReal => Ideal.div (Ideal.ofBits .f32 0x00000000#32 + s) (Cert.Spec.cntE (countOf I (ix1 n))))
    (Finset.sum_congr rfl fun k _ => slot_apply A I n k a)

end Cert.KernelIdeal.HostMean

end
-- ==== Proof.RefSide.lean ====
/-
  The reference layer read at one entry.
-/
import proofs.«428115_j27058293965314_4_alg».proof.Proof.Gen.ReferenceIdeal.Read
import proofs.«428115_j27058293965314_4_alg».proof.Proof.Spec
import proofs.«428115_j27058293965314_4_alg».proof.Proof.LibSlotGather
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Read Idealize.ShloMosaic Idealize.ShloMosaic.TcCoe Idealize.ShloMosaic.ValueIdx

/-- The start indices' column at (n, k, 0) is the slot's word, wrapped. -/
private theorem start_v13 (x2 : IVec S100000x10 32) (n : Fin 100000) (k : Fin 10) :
    val_main_v13 (F := Ideal) x2 (ix3 n k (0 : Fin 1)) = Cert.Spec.wrap (x2 (ix2 n k)) := by
  have hi : idx_main_v13 (ix3 n k (0 : Fin 1)) = ix2 n k :=
    funext fun a => Fin.ext (by match a with | ⟨0, _⟩ => rfl | ⟨1, _⟩ => rfl)
  rw [val_main_v13_apply, hi, val_main_v12_apply, val_main_v9_apply, val_main_v11_apply, val_main_v8_apply,
    val_main_v10_apply]
  rfl

/-- The projected table at (r, f) is the row's product with column f of the projection. -/
private theorem dot_v2 (x0 : FVec Ideal S100000x12 .f32) (x10 : FVec Ideal S12x128 .f32) (r : Fin 100000) (f : Fin 128) :
    (val_main_v2 (F := Ideal) x0 x10 (ix2 r f) : EReal) = ∑ a : Fin 12, x0 (ix2 r a) * x10 (ix2 a f) := by
  rw [val_main_v2_apply]
  refine Finset.sum_congr rfl fun a _ => ?_
  have hl : lidx_main_v2 (ix2 r f) a = ix2 r a :=
    funext fun b => Fin.ext (by match b with | ⟨0, _⟩ => rfl | ⟨1, _⟩ => rfl)
  have hr : ridx_main_v2 (ix2 r f) a = ix2 a f :=
    funext fun b => Fin.ext (by match b with | ⟨0, _⟩ => rfl | ⟨1, _⟩ => rfl)
  rw [hl, hr]

/-- The gathered rows at (n, k, f): the projected table at the clamped wrapped word of slot (n, k). -/
private theorem gather_v14 (x0 : FVec Ideal S100000x12 .f32) (x2 : IVec S100000x10 32) (x10 : FVec Ideal S12x128 .f32)
    (n : Fin 100000) (k : Fin 10) (f : Fin 128) :
    val_main_v14 (F := Ideal) x0 x2 x10 (ix3 n k f)
      = val_main_v2 (F := Ideal) x0 x10 (ix2 (Cert.Spec.row (Cert.Spec.wrap (x2 (ix2 n k)))) f) := by
  unfold val_main_v14
  have h := SlotGather.slotGather_apply (N := 100000) (C := 128) (n := 100000) (K := 10) (by omega)
    gather_S100000x128_S100000x10x1_S100000x10x128_2_0_n_n_0_2_1128.wf (val_main_v2 (F := Ideal) x0 x10)
    (val_main_v13 (F := Ideal) x2) n k f
  refine h.trans ?_
  have e : (⟨min (val_main_v13 (F := Ideal) x2 (ix3 n k (0 : Fin 1))).toInt.toNat (100000 - 1), by omega⟩ : Fin 100000)
      = Cert.Spec.row (Cert.Spec.wrap (x2 (ix2 n k))) := by
    refine Fin.ext ?_
    show min _ _ = min _ _
    rw [start_v13]
  rw [e]

/-- The broadcast weight at (n, k, f) is the slot's weight. -/
private theorem wt_v17 (x2 : IVec S100000x10 32) (n : Fin 100000) (k : Fin 10) (f : Fin 128) :
    (val_main_v17 (F := Ideal) x2 (ix3 n k f) : EReal) = Cert.Spec.wt (x2 (ix2 n k)) := by
  have h1 : idx_main_v17 (ix3 n k f) = ix3 n k (0 : Fin 1) :=
    funext fun a => Fin.ext (by match a with | ⟨0, _⟩ => rfl | ⟨1, _⟩ => rfl | ⟨2, _⟩ => rfl)
  have h2 : idx_main_v15 (ix3 n k (0 : Fin 1)) = ix2 n k :=
    funext fun a => Fin.ext (by match a with | ⟨0, _⟩ => rfl | ⟨1, _⟩ => rfl)
  rw [val_main_v17_apply, h1, val_main_v16_apply, val_main_v15_apply, h2, val_main_v5_apply, val_main_v4_apply]
  rfl

/-- The divisor at (n, f) is the count word's. -/
private theorem cnt_v43 (x2 : IVec S100000x10 32) (n : Fin 100000) (f : Fin 128) :
    (val_main_v43 (F := Ideal) x2 (ix2 n f) : EReal) = Cert.Spec.cntE (val_main_v31 (F := Ideal) x2 (ix1 n)) := by
  have h1 : idx_main_v43 (ix2 n f) = ix2 n (0 : Fin 1) :=
    funext fun a => Fin.ext (by match a with | ⟨0, _⟩ => rfl | ⟨1, _⟩ => rfl)
  have h2 : idx_main_v35 (ix2 n (0 : Fin 1)) = ix1 n :=
    funext fun a => Fin.ext (by match a with | ⟨0, _⟩ => rfl)
  rw [val_main_v43_apply, h1, val_main_v35_apply, h2, val_main_v34_apply, val_main_v33_apply, val_main_v32_apply]
  rfl

/-- The masked mean of the projected rows at (n, f). -/
private theorem agg_v44 (x0 : FVec Ideal S100000x12 .f32) (x2 : IVec S100000x10 32) (x10 : FVec Ideal S12x128 .f32)
    (n : Fin 100000) (f : Fin 128) :
    (val_main_v44 (F := Ideal) x0 x2 x10 (ix2 n f) : EReal)
      = Cert.Spec.aggR x0 x10 x2 (val_main_v31 (F := Ideal) x2 (ix1 n)) n f := by
  have hs : ∀ k : Fin 10, (val_main_v18 (F := Ideal) x0 x2 x10 (idx_main_v42 (ix2 n f) k) : EReal)
      = (∑ a : Fin 12, x0 (ix2 (Cert.Spec.row (Cert.Spec.wrap (x2 (ix2 n k)))) a) * x10 (ix2 a f)) * Cert.Spec.wt (x2 (ix2 n k)) := by
    intro k
    have hi : idx_main_v42 (ix2 n f) k = ix3 n k f :=
      funext fun a => Fin.ext (by match a with | ⟨0, _⟩ => rfl | ⟨1, _⟩ => rfl | ⟨2, _⟩ => rfl)
    rw [hi, val_main_v18_apply, Ideal.mulf_def, gather_v14, dot_v2, wt_v17]
  rw [val_main_v44_apply, Ideal.hostDivf_def, val_main_v42_apply, cnt_v43, val_main_cst_apply]
  simp only [hs]
  rfl

/-- The start indices' column at (n, k, 0) is the slot's word, wrapped. -/
private theorem start_v24 (x3 : IVec S100000x10 32) (n : Fin 100000) (k : Fin 10) :
    val_main_v24 (F := Ideal) x3 (ix3 n k (0 : Fin 1)) = Cert.Spec.wrap (x3 (ix2 n k)) := by
  have hi : idx_main_v24 (ix3 n k (0 : Fin 1)) = ix2 n k :=
    funext fun a => Fin.ext (by match a with | ⟨0, _⟩ => rfl | ⟨1, _⟩ => rfl)
  rw [val_main_v24_apply, hi, val_main_v23_apply, val_main_v20_apply, val_main_v22_apply, val_main_v19_apply,
    val_main_v21_apply]
  rfl

/-- The projected table at (r, f) is the row's product with column f of the projection. -/
private theorem dot_v3 (x0 : FVec Ideal S100000x12 .f32) (x11 : FVec Ideal S12x128 .f32) (r : Fin 100000) (f : Fin 128) :
    (val_main_v3 (F := Ideal) x0 x11 (ix2 r f) : EReal) = ∑ a : Fin 12, x0 (ix2 r a) * x11 (ix2 a f) := by
  rw [val_main_v3_apply]
  refine Finset.sum_congr rfl fun a _ => ?_
  have hl : lidx_main_v3 (ix2 r f) a = ix2 r a :=
    funext fun b => Fin.ext (by match b with | ⟨0, _⟩ => rfl | ⟨1, _⟩ => rfl)
  have hr : ridx_main_v3 (ix2 r f) a = ix2 a f :=
    funext fun b => Fin.ext (by match b with | ⟨0, _⟩ => rfl | ⟨1, _⟩ => rfl)
  rw [hl, hr]

/-- The gathered rows at (n, k, f): the projected table at the clamped wrapped word of slot (n, k). -/
private theorem gather_v25 (x0 : FVec Ideal S100000x12 .f32) (x3 : IVec S100000x10 32) (x11 : FVec Ideal S12x128 .f32)
    (n : Fin 100000) (k : Fin 10) (f : Fin 128) :
    val_main_v25 (F := Ideal) x0 x3 x11 (ix3 n k f)
      = val_main_v3 (F := Ideal) x0 x11 (ix2 (Cert.Spec.row (Cert.Spec.wrap (x3 (ix2 n k)))) f) := by
  unfold val_main_v25
  have h := SlotGather.slotGather_apply (N := 100000) (C := 128) (n := 100000) (K := 10) (by omega)
    gather_S100000x128_S100000x10x1_S100000x10x128_2_0_n_n_0_2_1128.wf (val_main_v3 (F := Ideal) x0 x11)
    (val_main_v24 (F := Ideal) x3) n k f
  refine h.trans ?_
  have e : (⟨min (val_main_v24 (F := Ideal) x3 (ix3 n k (0 : Fin 1))).toInt.toNat (100000 - 1), by omega⟩ : Fin 100000)
      = Cert.Spec.row (Cert.Spec.wrap (x3 (ix2 n k))) := by
    refine Fin.ext ?_
    show min _ _ = min _ _
    rw [start_v24]
  rw [e]

/-- The broadcast weight at (n, k, f) is the slot's weight. -/
private theorem wt_v28 (x3 : IVec S100000x10 32) (n : Fin 100000) (k : Fin 10) (f : Fin 128) :
    (val_main_v28 (F := Ideal) x3 (ix3 n k f) : EReal) = Cert.Spec.wt (x3 (ix2 n k)) := by
  have h1 : idx_main_v28 (ix3 n k f) = ix3 n k (0 : Fin 1) :=
    funext fun a => Fin.ext (by match a with | ⟨0, _⟩ => rfl | ⟨1, _⟩ => rfl | ⟨2, _⟩ => rfl)
  have h2 : idx_main_v26 (ix3 n k (0 : Fin 1)) = ix2 n k :=
    funext fun a => Fin.ext (by match a with | ⟨0, _⟩ => rfl | ⟨1, _⟩ => rfl)
  rw [val_main_v28_apply, h1, val_main_v27_apply, val_main_v26_apply, h2, val_main_v7_apply, val_main_v6_apply]
  rfl

/-- The divisor at (n, f) is the count word's. -/
private theorem cnt_v46 (x3 : IVec S100000x10 32) (n : Fin 100000) (f : Fin 128) :
    (val_main_v46 (F := Ideal) x3 (ix2 n f) : EReal) = Cert.Spec.cntE (val_main_v37 (F := Ideal) x3 (ix1 n)) := by
  have h1 : idx_main_v46 (ix2 n f) = ix2 n (0 : Fin 1) :=
    funext fun a => Fin.ext (by match a with | ⟨0, _⟩ => rfl | ⟨1, _⟩ => rfl)
  have h2 : idx_main_v41 (ix2 n (0 : Fin 1)) = ix1 n :=
    funext fun a => Fin.ext (by match a with | ⟨0, _⟩ => rfl)
  rw [val_main_v46_apply, h1, val_main_v41_apply, h2, val_main_v40_apply, val_main_v39_apply, val_main_v38_apply]
  rfl

/-- The masked mean of the projected rows at (n, f). -/
private theorem agg_v47 (x0 : FVec Ideal S100000x12 .f32) (x3 : IVec S100000x10 32) (x11 : FVec Ideal S12x128 .f32)
    (n : Fin 100000) (f : Fin 128) :
    (val_main_v47 (F := Ideal) x0 x3 x11 (ix2 n f) : EReal)
      = Cert.Spec.aggR x0 x11 x3 (val_main_v37 (F := Ideal) x3 (ix1 n)) n f := by
  have hs : ∀ k : Fin 10, (val_main_v29 (F := Ideal) x0 x3 x11 (idx_main_v45 (ix2 n f) k) : EReal)
      = (∑ a : Fin 12, x0 (ix2 (Cert.Spec.row (Cert.Spec.wrap (x3 (ix2 n k)))) a) * x11 (ix2 a f)) * Cert.Spec.wt (x3 (ix2 n k)) := by
    intro k
    have hi : idx_main_v45 (ix2 n f) k = ix3 n k f :=
      funext fun a => Fin.ext (by match a with | ⟨0, _⟩ => rfl | ⟨1, _⟩ => rfl | ⟨2, _⟩ => rfl)
    rw [hi, val_main_v29_apply, Ideal.mulf_def, gather_v25, dot_v3, wt_v28]
  rw [val_main_v47_apply, Ideal.hostDivf_def, val_main_v45_apply, cnt_v46, val_main_cst_9_apply]
  simp only [hs]
  rfl

/-- The projection at (r, f) is the row's product with column f of the projection. -/
private theorem dot_v0 (x0 : FVec Ideal S100000x12 .f32) (x8 : FVec Ideal S12x128 .f32) (r : Fin 100000) (f : Fin 128) :
    (val_main_v0 (F := Ideal) x0 x8 (ix2 r f) : EReal) = ∑ a : Fin 12, x0 (ix2 r a) * x8 (ix2 a f) := by
  rw [val_main_v0_apply]
  refine Finset.sum_congr rfl fun a _ => ?_
  have hl : lidx_main_v0 (ix2 r f) a = ix2 r a :=
    funext fun b => Fin.ext (by match b with | ⟨0, _⟩ => rfl | ⟨1, _⟩ => rfl)
  have hr : ridx_main_v0 (ix2 r f) a = ix2 a f :=
    funext fun b => Fin.ext (by match b with | ⟨0, _⟩ => rfl | ⟨1, _⟩ => rfl)
  rw [hl, hr]

/-- The projection at (r, f) is the row's product with column f of the projection. -/
private theorem dot_v1 (x1 : FVec Ideal S100000x1024 .f32) (x9 : FVec Ideal S1024x128 .f32) (r : Fin 100000) (f : Fin 128) :
    (val_main_v1 (F := Ideal) x1 x9 (ix2 r f) : EReal) = ∑ a : Fin 1024, x1 (ix2 r a) * x9 (ix2 a f) := by
  rw [val_main_v1_apply]
  refine Finset.sum_congr rfl fun a _ => ?_
  have hl : lidx_main_v1 (ix2 r f) a = ix2 r a :=
    funext fun b => Fin.ext (by match b with | ⟨0, _⟩ => rfl | ⟨1, _⟩ => rfl)
  have hr : ridx_main_v1 (ix2 r f) a = ix2 a f :=
    funext fun b => Fin.ext (by match b with | ⟨0, _⟩ => rfl | ⟨1, _⟩ => rfl)
  rw [hl, hr]

/-- Protein 0's result at (n, f). -/
theorem ref0_apply (x0 : FVec Ideal S100000x12 .f32) (x1 : FVec Ideal S100000x1024 .f32) (x2 x3 : IVec S100000x10 32)
    (x8 : FVec Ideal S12x128 .f32) (x9 : FVec Ideal S1024x128 .f32) (x10 x11 : FVec Ideal S12x128 .f32)
    (n : Fin 100000) (f : Fin 128) :
    (val_main_v51 (F := Ideal) x0 x1 x2 x3 x8 x9 x10 x11 (ix2 n f) : EReal)
      = Cert.Spec.outR x0 x1 x2 x3 (val_main_v31 (F := Ideal) x2 (ix1 n)) (val_main_v37 (F := Ideal) x3 (ix1 n)) x8 x9 x10 x11 n f := by
  -- the layer is relu of the four summands: the two direct projections and the two masked means
  rw [val_main_v51_apply, val_main_v50_apply, val_main_v49_apply, val_main_v48_apply, agg_v44, agg_v47, dot_v0, dot_v1,
    val_main_call0_v0_apply, val_main_call0_cst_apply]
  rfl

/-- Protein 1's result is the same function of its own arguments. -/
theorem ref1_eq (x4 : FVec Ideal S100000x12 .f32) (x5 : FVec Ideal S100000x1024 .f32) (x6 x7 : IVec S100000x10 32)
    (x8 : FVec Ideal S12x128 .f32) (x9 : FVec Ideal S1024x128 .f32) (x10 x11 : FVec Ideal S12x128 .f32) :
    val_main_v103 (F := Ideal) x4 x5 x6 x7 x8 x9 x10 x11 = val_main_v51 (F := Ideal) x4 x5 x6 x7 x8 x9 x10 x11 := by
  -- the two stages are one composed term of the operations, read at their own arguments
  exact (val_main_v103_eq (F := Ideal) x4 x5 x6 x7 x8 x9 x10 x11).symm.trans
    (val_main_v51_eq (F := Ideal) x4 x5 x6 x7 x8 x9 x10 x11)

end Cert.ReferenceIdeal.RefValue

end
-- ==== Proof.SpecLaw.lean ====
/-
  The law that joins the two layers: averaging raw atom rows and then projecting equals projecting and then averaging,
  slot by slot, when atoms and projections are finite and every index word is below the table's length.
-/
import proofs.«428115_j27058293965314_4_alg».proof.Proof.Spec
import Idealize.ShloMosaic.PureOps.Ideal.Laws

noncomputable section

namespace Cert.Spec

open Idealize.ShloMosaic Idealize.ShloMosaic.ValueIdx

/-- A finite sum of reals, read in the extended reals, is the sum of the readings. -/
private theorem coe_sum {ι : Type} (s : Finset ι) (g : ι → ℝ) :
    (∑ i ∈ s, ((g i : ℝ) : EReal)) = ((∑ i ∈ s, g i : ℝ) : EReal) := by
  classical
  refine Finset.induction_on s (by simp) ?_
  intro a s ha ih
  rw [Finset.sum_insert ha, Finset.sum_insert ha, ih, EReal.coe_add]

/-- A word that is non-negative when read signed exceeds −1: the slot is valid. -/
private theorem valid_of_nonneg {v : BitVec 32} (h : 0 ≤ v.toInt) : valid v = 1#1 := by
  have h1 : (4294967295#32 : BitVec 32).toInt = -1 := by decide
  have : (4294967295#32 : BitVec 32).slt v = true := by
    rw [BitVec.slt_iff_toInt_lt, h1]; omega
  simp [valid, IntOp.cmpi, this]

/-- A word that is negative when read signed does not exceed −1: the slot is invalid. -/
private theorem valid_of_neg {v : BitVec 32} (h : ¬ 0 ≤ v.toInt) : valid v = 0#1 := by
  have h1 : (4294967295#32 : BitVec 32).toInt = -1 := by decide
  have : (4294967295#32 : BitVec 32).slt v = false := by
    rw [Bool.eq_false_iff, ne_eq, BitVec.slt_iff_toInt_lt, h1]; omega
  simp [valid, IntOp.cmpi, this]

/-- Wrapping leaves a non-negative word alone. -/
private theorem wrap_of_nonneg {v : BitVec 32} (h : 0 ≤ v.toInt) : wrap v = v := by
  have h0 : (0#32 : BitVec 32).toInt = 0 := by decide
  have : v.slt 0#32 = false := by
    rw [Bool.eq_false_iff, ne_eq, BitVec.slt_iff_toInt_lt, h0]; omega
  simp [wrap, IntOp.cmpi, this, Scalar.select]

/-- A word in [0, 99999] passes the bounds test. -/
private theorem inb_of_range {v : BitVec 32} (h : 0 ≤ v.toInt) (h' : v.toInt < 100000) : inb v = 1#1 := by
  have h0 : (0#32 : BitVec 32).toInt = 0 := by decide
  have h9 : (99999#32 : BitVec 32).toInt = 99999 := by decide
  have a : (0#32 : BitVec 32).sle v = true := by
    rw [BitVec.sle_iff_toInt_le, h0]; exact h
  have b : v.sle 99999#32 = true := by
    rw [BitVec.sle_iff_toInt_le, h9]; omega
  simp [inb, IntOp.cmpi, IntOp.andi, a, b]

/-- The kernel's slot, for a word below the table's length: on a valid word it fetches row v with weight 1; on an
    invalid word the weight is 0 and both sides vanish, whatever was fetched (x * 0 = 0 throughout the extended reals). -/
private theorem slotK_eq (A : SA.Idx → EReal) (v : BitVec 32) (hv : v.toInt < 100000) (a : Fin 12) :
    slotK A v a = A (ix2 (row v) a) * wt v := by
  by_cases h : 0 ≤ v.toInt
  · have hs : safe v = v := by simp [safe, valid_of_nonneg h, Scalar.select]
    simp only [slotK, hs, wrap_of_nonneg h, inb_of_range h hv, select_one]
  · have hw : wt v = 0 := by simp [wt, valid_of_neg h]
    rw [slotK, hw, mul_zero, mul_zero]

/-- The reference's slot: wrapping matters only on an invalid word, where the weight 0 kills the term. -/
private theorem slotR_eq (A : SA.Idx → EReal) (W : SW.Idx → EReal) (v : BitVec 32) (f : Fin 128) :
    (∑ a : Fin 12, A (ix2 (row (wrap v)) a) * W (ix2 a f)) * wt v
      = (∑ a : Fin 12, A (ix2 (row v) a) * W (ix2 a f)) * wt v := by
  by_cases h : 0 ≤ v.toInt
  · rw [wrap_of_nonneg h]
  · have hw : wt v = 0 := by simp [wt, valid_of_neg h]
    rw [hw, mul_zero, mul_zero]

/-- The divisor max(count, 1) is at least 1, hence a nonzero real. -/
private theorem cnt_ne (cw : BitVec 32) : ((IntOp.maxsi cw 1#32).toInt : ℝ) ≠ 0 := by
  have h1 : (1#32 : BitVec 32).toInt = 1 := by decide
  have h2 : 1 ≤ (IntOp.maxsi cw 1#32).toInt := by
    unfold IntOp.maxsi
    split
    · next h => rw [BitVec.slt_iff_toInt_lt, h1] at h; omega
    · rw [h1]
  have h3 : (1 : ℝ) ≤ ((IntOp.maxsi cw 1#32).toInt : ℝ) := by exact_mod_cast h2
  intro h0
  rw [h0] at h3
  exact absurd h3 (by norm_num)

/-- Projecting the mean of raw rows equals averaging the projected rows: with every entry a real number this is
    Σ_a ((Σ_k x_{k,a} w_k) / c) W_a = (Σ_k (Σ_a x_{k,a} W_a) w_k) / c, an exchange of two finite sums. -/
private theorem mean_proj (A : SA.Idx → EReal) (W : SW.Idx → EReal) (I : SI.Idx → BitVec 32) (cw : BitVec 32)
    (hA : ∀ i, ∃ r : ℝ, A i = (r : EReal)) (hW : ∀ i, ∃ r : ℝ, W i = (r : EReal))
    (hI : ∀ i, (I i).toInt < 100000) (n : Fin 100000) (f : Fin 128) :
    ∑ a : Fin 12, meanK A I cw n a * W (ix2 a f) = aggR A W I cw n f := by
  choose Ar hAr using hA
  choose Wr hWr using hW
  have hc := cnt_ne cw
  simp only [meanK, aggR, cntE, Ideal.div_coe hc, Ideal.ofBits_zero_f32, zero_add, slotK_eq A _ (hI _), slotR_eq]
  simp only [hAr, hWr, wt, ← EReal.coe_mul, coe_sum]
  congr 1
  simp only [Finset.sum_mul, Finset.mul_sum]
  rw [Finset.sum_comm]
  refine Finset.sum_congr rfl (fun k _ => Finset.sum_congr rfl (fun a _ => ?_))
  ring

/-- The kernel's layer (means of raw rows, then projected) is the reference's layer (projected rows, then averaged). -/
theorem outK_eq_outR (A : SA.Idx → EReal) (R : SR.Idx → EReal) (I J : SI.Idx → BitVec 32) (cwI cwJ : BitVec 32)
    (SM DM : SA.Idx → EReal) (Wv : SW.Idx → EReal) (Wr : SWr.Idx → EReal) (Wsr Wdr : SW.Idx → EReal)
    (hA : ∀ i, ∃ r : ℝ, A i = (r : EReal)) (hWsr : ∀ i, ∃ r : ℝ, Wsr i = (r : EReal)) (hWdr : ∀ i, ∃ r : ℝ, Wdr i = (r : EReal))
    (hI : ∀ i, (I i).toInt < 100000) (hJ : ∀ i, (J i).toInt < 100000) (n : Fin 100000) (f : Fin 128)
    (hSM : ∀ a : Fin 12, SM (ix2 n a) = meanK A I cwI n a) (hDM : ∀ a : Fin 12, DM (ix2 n a) = meanK A J cwJ n a) :
    outK A R SM DM Wv Wr Wsr Wdr n f = outR A R I J cwI cwJ Wv Wr Wsr Wdr n f := by
  unfold outK outR
  simp only [hSM, hDM]
  rw [mean_proj A Wsr I cwI hA hWsr hI n f, mean_proj A Wdr J cwJ hA hWdr hJ n f]

end Cert.Spec

end
-- ==== Proof.Bridge.lean ====
/-
  The bridge: at every entry of the result, the kernel's layer — the fused body applied to the atom and residue rows and
  to the two host-side means of gathered raw atom rows — is the reference's layer, for finite atoms and neighbour
  projections and index words below the table's length. The kernel's mean is read slot by slot, the reference's result
  operation by operation; both carry the SAME count word (the number of valid slots of the row), and the law that
  exchanges "average, then project" for "project, then average" joins them.
-/
import proofs.«428115_j27058293965314_4_alg».proof.Proof.KMean
import proofs.«428115_j27058293965314_4_alg».proof.Proof.RefSide
import proofs.«428115_j27058293965314_4_alg».proof.Proof.SpecLaw

noncomputable section

namespace Cert.Bridge

open Idealize.ShloMosaic Idealize.ShloMosaic.ValueIdx

/-- The two programs count a row's valid slots by the same operations. -/
theorem count_eq (I : Cert.Spec.SI.Idx → BitVec 32) :
    Cert.KernelIdeal.HostMean.countOf I = Cert.ReferenceIdeal.Read.val_main_v31 (F := Ideal) I := rfl

theorem count_eq' (J : Cert.Spec.SI.Idx → BitVec 32) :
    Cert.KernelIdeal.HostMean.countOf J = Cert.ReferenceIdeal.Read.val_main_v37 (F := Ideal) J := rfl

/-- The kernel's layer over the host means is the reference's result, entry by entry. -/
theorem layer_eq (A : Cert.Spec.SA.Idx → EReal) (R : Cert.Spec.SR.Idx → EReal) (I J : Cert.Spec.SI.Idx → BitVec 32)
    (Wv : Cert.Spec.SW.Idx → EReal) (Wr : Cert.Spec.SWr.Idx → EReal) (Wsr Wdr : Cert.Spec.SW.Idx → EReal)
    (hA : ∀ i, ∃ r : ℝ, A i = (r : EReal)) (hWsr : ∀ i, ∃ r : ℝ, Wsr i = (r : EReal)) (hWdr : ∀ i, ∃ r : ℝ, Wdr i = (r : EReal))
    (hI : ∀ i, (I i).toInt < 100000) (hJ : ∀ i, (J i).toInt < 100000) (n : Fin 100000) (f : Fin 128) :
    Cert.Spec.outK A R (Cert.KernelIdeal.HostMean.meanOf (F := Ideal) A I) (Cert.KernelIdeal.HostMean.meanOf (F := Ideal) A J)
        Wv Wr Wsr Wdr n f
      = Cert.ReferenceIdeal.Read.val_main_v51 (F := Ideal) A R I J Wv Wr Wsr Wdr (ix2 n f) := by
  rw [Cert.ReferenceIdeal.RefValue.ref0_apply, ← count_eq, ← count_eq']
  exact Cert.Spec.outK_eq_outR A R I J _ _ _ _ Wv Wr Wsr Wdr hA hWsr hWdr hI hJ n f
    (fun a => Cert.KernelIdeal.HostMean.meanOf_apply A I n a) (fun a => Cert.KernelIdeal.HostMean.meanOf_apply A J n a)

end Cert.Bridge

end
-- ==== Proof.PreFacts.lean ====
/-
  What the precondition says of the memory: the atom tables and the two neighbour projections hold real numbers, and
  every neighbour index word, read signed, is below 100000.
-/
import proofs.«428115_j27058293965314_4_alg».proof.Defs
import proofs.«428115_j27058293965314_4_alg».proof.Proof.Gen.KernelIdeal
import proofs.«428115_j27058293965314_4_alg».proof.Proof.Gen.Pre_finite_inputs
import Idealize.ShloMosaic.Lib.ValueIdx
import Idealize.ShloMosaic.Lib.ReduceAll

noncomputable section

namespace Cert.KernelIdeal.PreFacts

open Cert.KernelIdeal Idealize.ShloMosaic Idealize.ShloMosaic.TcCoe Idealize.SL.Sem Idealize.ShloMosaic.ValueIdx

/-- A scalar's shape has exactly one index. -/
private instance : Subsingleton (⟨0, ![]⟩ : Shape).Idx := ⟨fun a b => funext fun d => d.elim0⟩

/-- An extended real whose absolute value is strictly below the pattern of `+∞` is a real number:
    `max ⊥ ⊤ = max ⊤ ⊥ = ⊤` is not below `⊤`. -/
private theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- `all (|x| < +∞)` equal to one, read at an entry: the entry is a real number. -/
private theorem real_of_all {s : Shape} {axes : List (Fin s.rank)} (x : FVec Ideal s .f32)
    (hb : (⟨0, ![]⟩ : Shape).BroadcastsInDim s ![]) (hr : s.ReducesTo axes ⟨0, ![]⟩)
    (h0 : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr h0 ix0 = 1#1)
    (i : s.Idx) : ∃ r : ℝ, (x i : EReal) = (r : EReal) :=
  real_of_abs_lt_inf (x i) (Host.reduce_andi_all _ _ hr h0 ix0 e i)

/-- `all (x < 100000)` (signed) equal to one, read at an entry. -/
private theorem lt_of_all {s : Shape} {axes : List (Fin s.rank)} (x : IVec s 32)
    (hb : (⟨0, ![]⟩ : Shape).BroadcastsInDim s ![]) (hr : s.ReducesTo axes ⟨0, ![]⟩)
    (h0 : 0 < (⟨0, ![]⟩ : Shape).numel)
    (e : Host.reduce IntOp.andi
          (cmpi .slt x (broadcastInDim s ![] hb (constantI ⟨0, ![]⟩ 32 100000#32)))
          (constantI ⟨0, ![]⟩ 1 1#1) hr h0 ix0 = 1#1)
    (i : s.Idx) : (x i : BitVec 32).toInt < 100000 := by
  have h : (x i).toInt < (100000#32 : BitVec 32).toInt := IntOp.cmpi_slt.1 (Host.reduce_andi_all _ _ hr h0 ix0 e i)
  have hc : (100000#32 : BitVec 32).toInt = 100000 := by decide
  rw [hc] at h
  exact h

/-- The precondition, entry by entry. -/
theorem facts_of_pre (m : (ℓ : Loc nD τ sig) → Buf (Elt Ideal) ℓ) (h : Cert.Pre_KernelIdeal m) (c : Dev nD) :
    (∀ i : S100000x12.Idx, ∃ r : ℝ, (m ((c.tc : Thread nD τ).loc main_arg0) i : EReal) = (r : EReal))
    ∧ (∀ i : S100000x12.Idx, ∃ r : ℝ, (m ((c.tc : Thread nD τ).loc main_arg4) i : EReal) = (r : EReal))
    ∧ (∀ i : S12x128.Idx, ∃ r : ℝ, (m ((c.tc : Thread nD τ).loc main_arg10) i : EReal) = (r : EReal))
    ∧ (∀ i : S12x128.Idx, ∃ r : ℝ, (m ((c.tc : Thread nD τ).loc main_arg11) i : EReal) = (r : EReal))
    ∧ (∀ i : S100000x10.Idx, (m ((c.tc : Thread nD τ).loc main_arg2) i : BitVec 32).toInt < 100000)
    ∧ (∀ i : S100000x10.Idx, (m ((c.tc : Thread nD τ).loc main_arg3) i : BitVec 32).toInt < 100000)
    ∧ (∀ i : S100000x10.Idx, (m ((c.tc : Thread nD τ).loc main_arg6) i : BitVec 32).toInt < 100000)
    ∧ (∀ i : S100000x10.Idx, (m ((c.tc : Thread nD τ).loc main_arg7) i : BitVec 32).toInt < 100000) := by
  -- the printed predicate at its one index: a left-nested conjunction of twelve all-reductions,
  -- in the order arg0, arg1, arg4, arg5, arg8, arg9, arg10, arg11, arg2, arg3, arg6, arg7
  have h0 := congrFun (h c) ix0
  obtain ⟨h0, h7⟩ := IntOp.andi_eq_one.1 h0
  obtain ⟨h0, h6⟩ := IntOp.andi_eq_one.1 h0
  obtain ⟨h0, h3⟩ := IntOp.andi_eq_one.1 h0
  obtain ⟨h0, h2⟩ := IntOp.andi_eq_one.1 h0
  obtain ⟨h0, h11⟩ := IntOp.andi_eq_one.1 h0
  obtain ⟨h0, h10⟩ := IntOp.andi_eq_one.1 h0
  obtain ⟨h0, _⟩ := IntOp.andi_eq_one.1 h0
  obtain ⟨h0, _⟩ := IntOp.andi_eq_one.1 h0
  obtain ⟨h0, _⟩ := IntOp.andi_eq_one.1 h0
  obtain ⟨h0, h4⟩ := IntOp.andi_eq_one.1 h0
  obtain ⟨h0, _⟩ := IntOp.andi_eq_one.1 h0
  exact ⟨real_of_all _ _ _ _ h0, real_of_all _ _ _ _ h4, real_of_all _ _ _ _ h10, real_of_all _ _ _ _ h11,
    lt_of_all _ _ _ _ h2, lt_of_all _ _ _ _ h3, lt_of_all _ _ _ _ h6, lt_of_all _ _ _ _ h7⟩

end Cert.KernelIdeal.PreFacts

end
-- ==== Proof.lean ====
/-
  The certificate of one graph layer over two proteins: relu(atoms·Wv + residues·Wr + mean_same + mean_diff), the two
  neighbour terms masked means over ten neighbour slots per atom.

  THE KERNEL computes, on the host, the masked mean of the gathered RAW atom rows (twelve numbers per atom: a filling
  take, NaN where an index is out of range, weight 1 for a slot whose index exceeds −1 and 0 otherwise, the sum over
  the slots divided by the number of valid slots, at least 1), and its fused call projects the four row operands by
  the four matrices, adds and clips at zero, 2000 rows per grid point over 50 points, once per protein.
  THE REFERENCE projects every atom row first, gathers projected rows (negative indices wrapped, the gather clamping),
  weights, sums and divides, then adds and clips.

  Over the extended reals the two agree when the atom tables and the two neighbour projections are finite and every
  index word is below the table's length (the precondition: above it the reference indexes out of range and the
  kernel's take fills with NaN): projecting a mean of rows is the mean of the projected rows — linearity of finite
  sums and of division by a nonzero real count — and a slot of weight 0 contributes 0 on both sides whatever finite
  row it fetched. A change of float format is the identity here and a matrix product into a zero accumulator is the
  plain sum, so the residue term is the same sum on both sides.

  The pieces: the kernel's run with its two results named (the launch over @main's segments); each region's entry
  contents read back through the host stretches; each region's result array from what its grid points write back; the
  body's arithmetic at an entry; the host mean at an entry; the reference's result at an entry; the law; the
  precondition entry by entry. The reference's frame is its run with the results dropped; the idealization rewrote
  nothing, so the kernel's idealization claim is trivial.
-/
import proofs.«428115_j27058293965314_4_alg».proof.Defs
import proofs.«428115_j27058293965314_4_alg».proof.Proof.Gen.Kernel
import proofs.«428115_j27058293965314_4_alg».proof.Proof.Gen.Kernel.Skeleton
import proofs.«428115_j27058293965314_4_alg».proof.Proof.Gen.Kernel.Launch
import proofs.«428115_j27058293965314_4_alg».proof.Proof.Gen.Kernel.Points
import proofs.«428115_j27058293965314_4_alg».proof.Proof.Gen.Kernel.Frame
import proofs.«428115_j27058293965314_4_alg».proof.Proof.Gen.KernelIdeal
import proofs.«428115_j27058293965314_4_alg».proof.Proof.Gen.KernelIdeal.Skeleton
import proofs.«428115_j27058293965314_4_alg».proof.Proof.Gen.KernelIdeal.Launch
import proofs.«428115_j27058293965314_4_alg».proof.Proof.Gen.KernelIdeal.Points
import proofs.«428115_j27058293965314_4_alg».proof.Proof.Gen.KernelIdeal.Frame
import proofs.«428115_j27058293965314_4_alg».proof.Proof.Gen.ReferenceIdeal
import proofs.«428115_j27058293965314_4_alg».proof.Proof.Gen.ReferenceIdeal.Run
import proofs.«428115_j27058293965314_4_alg».proof.Proof.Gen.ReferenceIdeal.Read
import proofs.«428115_j27058293965314_4_alg».proof.Proof.Gen.Pre_finite_inputs
import proofs.«428115_j27058293965314_4_alg».proof.Proof.KRun
import proofs.«428115_j27058293965314_4_alg».proof.Proof.KFold0
import proofs.«428115_j27058293965314_4_alg».proof.Proof.KFold1
import proofs.«428115_j27058293965314_4_alg».proof.Proof.KBlocks0
import proofs.«428115_j27058293965314_4_alg».proof.Proof.KBlocks1
import proofs.«428115_j27058293965314_4_alg».proof.Proof.Bridge
import proofs.«428115_j27058293965314_4_alg».proof.Proof.PreFacts
import Idealize.ShloMosaic.Adequacy
import Idealize.ShloMosaic.Init

noncomputable section

namespace Cert.Proof

open Idealize.ShloMosaic Idealize.SL.Sem Idealize.ShloMosaic.ValueIdx

/-! ## The kernel's two results as the reference's function of the kernel's own arguments -/

section KernelResults

open Cert.KernelIdeal Cert.KernelIdeal.Gen Idealize.ShloMosaic.TcCoe

variable (m : (ℓ : Loc nD τ sig) → Buf (Elt Ideal) ℓ) (ρ : Dev nD → PrngReg)

/-- The first result at the return: the reference's layer of the first protein's arguments. -/
theorem result0 (h : Cert.Pre_KernelIdeal m) (c : Dev nD) :
    (W16 m ρ c (Proc.devRef .tc main_v34) : S100000x128.Idx → EReal)
      = Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨hA0, hA4, hW10, hW11, hI2, hI3, hI6, hI7⟩ := Cert.KernelIdeal.PreFacts.facts_of_pre m h c
  rw [Cert.KernelIdeal.Fold1.W16_v34, Cert.KernelIdeal.Blocks0.final]
  funext i
  have hi : i = ix2 (⟨(i 0).val, idx2_lt0 i⟩ : Fin 100000) (⟨(i 1).val, idx2_lt1 i⟩ : Fin 128) := by
    funext d; match d with | ⟨0, _⟩ => rfl | ⟨1, _⟩ => rfl
  unfold Cert.KernelIdeal.Blocks0.layer
  rw [show V7 m ρ c main_arg0 = _ from Cert.KernelIdeal.Fold0.W7_arg0 m ρ c,
    show V7 m ρ c main_arg1 = _ from Cert.KernelIdeal.Fold0.W7_arg1 m ρ c,
    show V7 m ρ c main_v16 = _ from Cert.KernelIdeal.Fold0.W7_v16 m ρ c,
    show V7 m ρ c main_v33 = _ from Cert.KernelIdeal.Fold0.W7_v33 m ρ c,
    show V7 m ρ c main_arg8 = _ from Cert.KernelIdeal.Fold0.W7_arg8 m ρ c,
    show V7 m ρ c main_arg9 = _ from Cert.KernelIdeal.Fold0.W7_arg9 m ρ c,
    show V7 m ρ c main_arg10 = _ from Cert.KernelIdeal.Fold0.W7_arg10 m ρ c,
    show V7 m ρ c main_arg11 = _ from Cert.KernelIdeal.Fold0.W7_arg11 m ρ c]
  conv_rhs => rw [hi]
  exact Cert.Bridge.layer_eq _ _ _ _ _ _ _ _ hA0 hW10 hW11 hI2 hI3 _ _

/-- The second result at the return: the reference's layer of the second protein's arguments. -/
theorem result1 (h : Cert.Pre_KernelIdeal m) (c : Dev nD) :
    (W16 m ρ c (Proc.devRef .tc main_v69) : S100000x128.Idx → EReal)
      = Cert.ReferenceIdeal.Read.val_main_v51 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨hA0, hA4, hW10, hW11, hI2, hI3, hI6, hI7⟩ := Cert.KernelIdeal.PreFacts.facts_of_pre m h c
  rw [Cert.KernelIdeal.Fold1.W16_v69, Cert.KernelIdeal.Blocks1.final]
  funext i
  have hi : i = ix2 (⟨(i 0).val, idx2_lt0 i⟩ : Fin 100000) (⟨(i 1).val, idx2_lt1 i⟩ : Fin 128) := by
    funext d; match d with | ⟨0, _⟩ => rfl | ⟨1, _⟩ => rfl
  unfold Cert.KernelIdeal.Blocks1.layer
  rw [show V15 m ρ c main_arg4 = _ from Cert.KernelIdeal.Fold1.W15_arg4 m ρ c,
    show V15 m ρ c main_arg5 = _ from Cert.KernelIdeal.Fold1.W15_arg5 m ρ c,
    show V15 m ρ c main_v51 = _ from Cert.KernelIdeal.Fold1.W15_v51 m ρ c,
    show V15 m ρ c main_v68 = _ from Cert.KernelIdeal.Fold1.W15_v68 m ρ c,
    show V15 m ρ c main_arg8 = _ from Cert.KernelIdeal.Fold1.W15_arg8 m ρ c,
    show V15 m ρ c main_arg9 = _ from Cert.KernelIdeal.Fold1.W15_arg9 m ρ c,
    show V15 m ρ c main_arg10 = _ from Cert.KernelIdeal.Fold1.W15_arg10 m ρ c,
    show V15 m ρ c main_arg11 = _ from Cert.KernelIdeal.Fold1.W15_arg11 m ρ c]
  conv_rhs => rw [hi]
  exact Cert.Bridge.layer_eq _ _ _ _ _ _ _ _ hA4 hW10 hW11 hI6 hI7 _ _

end KernelResults

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2.2.2.2) (Cert.ReferenceIdeal.Value.run (F := Ideal) m ρ)

/-- Both programs end with each protein's result at the reference's layer of the arguments, which agree. -/
theorem algebraic : Cert.algebraic_KernelIdeal_ReferenceIdeal := by
  intro m ρ m' ρ' hpre hagree
  refine ⟨fun c => Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => (m ((c.tc : Thread Cert.KernelIdeal.nD Cert.KernelIdeal.τ).loc Cert.KernelIdeal.main_arg2)), fun c => (m ((c.tc : Thread Cert.KernelIdeal.nD Cert.KernelIdeal.τ).loc Cert.KernelIdeal.main_arg3)),
    fun c => Cert.ReferenceIdeal.Read.val_main_v51 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => (m ((c.tc : Thread Cert.KernelIdeal.nD Cert.KernelIdeal.τ).loc Cert.KernelIdeal.main_arg6)), fun c => (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.RunValues.run_values (F := Ideal) m ρ)
    obtain ⟨⟨h34, h69⟩, a0, a1, a2, a3, a4, a5, a6, a7, a8, a9, a10, a11⟩ := h c
    exact ⟨h34.trans (result0 m ρ hpre c), a2, a3, h69.trans (result1 m ρ hpre c), a6, a7,
      a0, a1, a2, a3, a4, a5, a6, a7, a8, a9, a10, a11⟩
  · refine (θ_run Cert.ReferenceIdeal.defs _ _).mono (fun r h c => ?_) (Cert.ReferenceIdeal.Value.run (F := Ideal) m' ρ')
    obtain ⟨g0, g1, g2, g3, g4, g5, g6, g7, g8, g9, g10, g11⟩ := hagree c
    obtain ⟨r51, r2, r3, r103, r6, r7, rest⟩ := h c
    refine ⟨r51.trans ?_, r2.trans g2, r3.trans g3, r103.trans ?_, r6.trans g6, r7.trans g7, rest⟩
    · rw [g0, g1, g2, g3, g8, g9, g10, g11]
      exact Cert.ReferenceIdeal.Read.val_main_v51_eq (F := Ideal) _ _ _ _ _ _ _ _
    · rw [g4, g5, g6, g7, g8, g9, g10, g11]
      exact Cert.ReferenceIdeal.Read.val_main_v51_eq (F := Ideal) _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
